-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S8 : Shape := ⟨1, ![8]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) (main_arg2 : FVec F S256 .f32) (main_arg3 : IVec S8 32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x56x56 : Shape := ⟨4, ![64, 256, 56, 56]⟩
abbrev S256 : Shape := ⟨1, ![256]⟩
abbrev S8 : Shape := ⟨1, ![8]⟩
abbrev S1 : Shape := ⟨1, ![1]⟩
abbrev S7 : Shape := ⟨1, ![7]⟩
abbrev S_ : Shape := ⟨0, ![]⟩
abbrev S8x1 : Shape := ⟨2, ![8, 1]⟩
abbrev S256x1 : Shape := ⟨2, ![256, 1]⟩
abbrev S1x1 : Shape := ⟨2, ![1, 1]⟩
abbrev S64x256 : Shape := ⟨2, ![64, 256]⟩
abbrev S8x128x8x56 : Shape := ⟨4, ![8, 128, 8, 56]⟩
abbrev S8x128 : Shape := ⟨2, ![8, 128]⟩
abbrev S8x128x8 : Shape := ⟨3, ![8, 128, 8]⟩
abbrev S256x64 : Shape := ⟨2, ![256, 64]⟩
abbrev S8x64 : Shape := ⟨2, ![8, 64]⟩
abbrev S128 : Shape := ⟨1, ![128]⟩
abbrev S8x128x1x1 : Shape := ⟨4, ![8, 128, 1, 1]⟩
abbrev S1x128x1x1 : Shape := ⟨4, ![1, 128, 1, 1]⟩

abbrev nBuf : Space → Nat
  | .hbm => 107
  | .vmem => 20
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S8, .i32⟩
  | .hbm, ⟨4, _⟩ => ⟨S8, .i32⟩
  | .hbm, ⟨5, _⟩ => ⟨S1, .i32⟩
  | .hbm, ⟨6, _⟩ => ⟨S7, .i32⟩
  | .hbm, ⟨7, _⟩ => ⟨S8, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S_, .i32⟩
  | .hbm, ⟨26, _⟩ => ⟨S8, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S64x256, .f32⟩
  | .hbm, ⟨57, _⟩ => ⟨S64x256, .f32⟩
  | .hbm, ⟨58, _⟩ => ⟨S256x64, .f32⟩
  | .hbm, ⟨59, _⟩ => ⟨S_, .f32⟩
  | .hbm, ⟨60, _⟩ => ⟨S8x64, .f32⟩
  | .hbm, ⟨61, _⟩ => ⟨S256x1, .i32⟩
  | .hbm, ⟨62, _⟩ => ⟨S8x64, .f32⟩
  | .hbm, ⟨63, _⟩ => ⟨S256x64, .f32⟩
  | .hbm, ⟨64, _⟩ => ⟨S_, .f32⟩
  | .hbm, ⟨65, _⟩ => ⟨S8x64, .f32⟩
  | .hbm, ⟨66, _⟩ => ⟨S256x1, .i32⟩
  | .hbm, ⟨67, _⟩ => ⟨S8x64, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8x1, .f32⟩
  | .hbm, ⟨73, _⟩ => ⟨S8x64, .f32⟩
  | .hbm, ⟨74, _⟩ => ⟨S8x64, .f32⟩
  | .hbm, ⟨75, _⟩ => ⟨S8x64, .f32⟩
  | .hbm, ⟨76, _⟩ => ⟨S8x64, .f32⟩
  | .hbm, ⟨77, _⟩ => ⟨S8x64, .f32⟩
  | .hbm, ⟨78, _⟩ => ⟨S8x64, .f32⟩
  | .hbm, ⟨79, _⟩ => ⟨S_, .f32⟩
  | .hbm, ⟨80, _⟩ => ⟨S8x64, .f32⟩
  | .hbm, ⟨81, _⟩ => ⟨S8x64, .f32⟩
  | .hbm, ⟨82, _⟩ => ⟨S8x64, .f32⟩
  | .hbm, ⟨83, _⟩ => ⟨S_, .f32⟩
  | .hbm, ⟨84, _⟩ => ⟨S8x64, .f32⟩
  | .hbm, ⟨85, _⟩ => ⟨S8x64, .f32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S256x1, .i32⟩
  | .hbm, ⟨94, _⟩ => ⟨S256x64, .f32⟩
  | .hbm, ⟨95, _⟩ => ⟨S64x256, .f32⟩
  | .hbm, ⟨96, _⟩ => ⟨S_, .i32⟩
  | .hbm, ⟨97, _⟩ => ⟨S256, .i32⟩
  | .hbm, ⟨98, _⟩ => ⟨S256, .i1⟩
  | .hbm, ⟨99, _⟩ => ⟨S_, .i32⟩
  | .hbm, ⟨100, _⟩ => ⟨S256, .i32⟩
  | .hbm, ⟨101, _⟩ => ⟨S256, .i32⟩
  | .hbm, ⟨102, _⟩ => ⟨S256, .i32⟩
  | .hbm, ⟨103, _⟩ => ⟨S256x1, .i32⟩
  | .hbm, ⟨104, _⟩ => ⟨S256x64, .f32⟩
  | .hbm, ⟨105, _⟩ => ⟨S64x256, .f32⟩
  | .hbm, ⟨106, _⟩ => ⟨S64x256x56x56, .f32⟩
  | .local _ .vmem, ⟨0, _⟩ => ⟨S8x128x8x56, .f32⟩
  | .local _ .vmem, ⟨1, _⟩ => ⟨S8x128x8x56, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128x8x56, .f32⟩
  | .local _ .vmem, ⟨9, _⟩ => ⟨S8x128x8x56, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S8x128x8x56, .f32⟩
  | .local _ .vmem, ⟨19, _⟩ => ⟨S8x128x8x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev main_v19 : Ref sig .tc := ⟨.hbm, 58, rfl⟩
abbrev main_cst : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_6 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_7 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_9 : Ref sig .tc := ⟨.hbm, 83, rfl⟩
abbrev main_v40 : Ref sig .tc := ⟨.hbm, 84, rfl⟩
abbrev main_v41 : Ref sig .tc := ⟨.hbm, 85, rfl⟩
abbrev main_c_10 : Ref sig .tc := ⟨.hbm, 86, rfl⟩
abbrev main_v42 : Ref sig .tc := ⟨.hbm, 87, rfl⟩
abbrev main_v43 : Ref sig .tc := ⟨.hbm, 88, rfl⟩
abbrev main_c_11 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_12 : Ref sig .tc := ⟨.hbm, 96, rfl⟩
abbrev main_v50 : Ref sig .tc := ⟨.hbm, 97, rfl⟩
abbrev main_v51 : Ref sig .tc := ⟨.hbm, 98, rfl⟩
abbrev main_c_13 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![8, 2, 7], ![false, false, false]⟩

def k0_cond2 (i : grid0.Coords) : BitVec 1 :=
  let arg2 : BitVec 32 := BitVec.ofNat 32 (i 2).val
  let c6_i32 : BitVec 32 := 6#32
  let v19 : BitVec 1 := Scalar.cmpi .eq arg2 c6_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 7], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x8x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S8x128x8x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x8x56_S8x128x8x56_0_0_0_0 : ∀ a, (![0, 0, 0, 0] : Fin 4 → Nat) a + S8x128x8x56.size a ≤ S8x128x8x56.size a
  h_S8x128x8x56 : 0 < S8x128x8x56.numel
  reduces_S8x128x8x56_S8x128x8 : S8x128x8x56.Reduces [3] S8x128x8
  reduces_S8x128x8_S8x128 : S8x128x8.Reduces [2] S8x128
  transposes_S64x256_S256x64_1_0 : S64x256.Transposes [1, 0] S256x64
  bcast_S_S8x64 : S_.BroadcastsInDim S8x64 (![] : Fin 0 → Fin S8x64.rank)
  bcast_S8x1_S8x64_0_1 : S8x1.BroadcastsInDim S8x64 (![0, 1] : Fin 2 → Fin S8x64.rank)
  transposes_S256x64_S64x256_1_0 : S256x64.Transposes [1, 0] S64x256
  shapeCasts_S8x128_S8x128x1x1 : S8x128.ShapeCasts S8x128x1x1
  inb_S128_S128_0 : ∀ a, (![0] : Fin 1 → Nat) a + S128.size a ≤ S128.size a
  h_S128 : 0 < S128.numel
  shapeCasts_S128_S1x128x1x1 : S128.ShapeCasts S1x128x1x1
  broadcasts_S8x128x1x1_S8x128x8x56 : S8x128x1x1.Broadcasts S8x128x8x56
  broadcasts_S1x128x1x1_S8x128x8x56 : S1x128x1x1.Broadcasts S8x128x8x56
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  scatter_S8x64_S256x1_S256x64_1_0_0_1_wf : ScatterDims.WF S8x64 S256x1 S256x64 [1] [0] [0] 1
  gather_S8x64_S256x1_S256x64_1_0_n_n_0_1_164_wf : GatherDims.WF S8x64 S256x1 S256x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x56.size a ≤ S64x256x56x56.size a
  hwx0_0 : ∀ i : grid0.Coords, EltTy.bits .f32 = 32 ∨ (Rect.block (s := S64x256x56x56) S8x128x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x256.size a
  hwx0_2 : ∀ i : grid0.Coords, EltTy.bits .f32 = 32 ∨ (Rect.block (s := S64x256) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x56.size a ≤ S64x256x56x56.size a
  hwx1_0 : ∀ i : grid1.Coords, EltTy.bits .f32 = 32 ∨ (Rect.block (s := S64x256x56x56) S8x128x8x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x256.size a
  hwx1_1 : ∀ i : grid1.Coords, EltTy.bits .f32 = 32 ∨ (Rect.block (s := S64x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x256.size a
  hwx1_2 : ∀ i : grid1.Coords, EltTy.bits .f32 = 32 ∨ (Rect.block (s := S64x256) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S256.size a
  hwx1_3 : ∀ i : grid1.Coords, EltTy.bits .f32 = 32 ∨ (Rect.block (s := S256) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S256.size a
  hwx1_4 : ∀ i : grid1.Coords, EltTy.bits .f32 = 32 ∨ (Rect.block (s := S256) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128x8x56.size a ≤ S64x256x56x56.size a
  hwx1_5 : ∀ i : grid1.Coords, EltTy.bits .f32 = 32 ∨ (Rect.block (s := S64x256x56x56) S8x128x8x56.size (cc1_transform_5 i) (hinb1_5 i)).WholeWords (EltTy.packing .f32)

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def scatter_S8x64_S256x1_S256x64_1_0_0_1 : ScatterDims S8x64 S256x1 S256x64 where
  updateWindowDims := [1]
  insertedWindowDims := [0]
  scatterDimsToOperandDims := [0]
  indexVectorDim := 1
  wf := scatter_S8x64_S256x1_S256x64_1_0_0_1_wf
def gather_S8x64_S256x1_S256x64_1_0_n_n_0_1_164 : GatherDims S8x64 S256x1 S256x64 where
  offsetDims := [1]
  collapsedSliceDims := [0]
  operandBatchingDims := []
  startIndicesBatchingDims := []
  startIndexMap := [0]
  indexVectorDim := 1
  sliceSizes := ![1, 64]
  wf := gather_S8x64_S256x1_S256x64_1_0_n_n_0_1_164_wf

abbrev win0_0 : Pipeline.Window sig grid0 :=
  Pipeline.Window.ofSpec (Memref.whole main_arg0) S8x128x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x128x8x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v58) S8x128x8x56.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S8 : Shape := ⟨1, ![8]⟩
abbrev S1 : Shape := ⟨1, ![1]⟩
abbrev S7 : Shape := ⟨1, ![7]⟩
abbrev S_ : Shape := ⟨0, ![]⟩
abbrev S8x1 : Shape := ⟨2, ![8, 1]⟩
abbrev S256x1 : Shape := ⟨2, ![256, 1]⟩
abbrev S1x1 : Shape := ⟨2, ![1, 1]⟩
abbrev S64x256x3136 : Shape := ⟨3, ![64, 256, 3136]⟩
abbrev S64x256 : Shape := ⟨2, ![64, 256]⟩
abbrev S256x64 : Shape := ⟨2, ![256, 64]⟩
abbrev S8x64 : Shape := ⟨2, ![8, 64]⟩
abbrev S64x256x1 : Shape := ⟨3, ![64, 256, 1]⟩
abbrev S1x256x1 : Shape := ⟨3, ![1, 256, 1]⟩

abbrev nBuf : Space → Nat
  | .hbm => 123
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S8, .i32⟩
  | .hbm, ⟨4, _⟩ => ⟨S8, .i32⟩
  | .hbm, ⟨5, _⟩ => ⟨S1, .i32⟩
  | .hbm, ⟨6, _⟩ => ⟨S7, .i32⟩
  | .hbm, ⟨7, _⟩ => ⟨S8, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S_, .i32⟩
  | .hbm, ⟨16, _⟩ => ⟨S256, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S_, .i32⟩
  | .hbm, ⟨26, _⟩ => ⟨S8, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S256x1, .i32⟩
  | .hbm, ⟨42, _⟩ => ⟨S1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S1x1, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i1⟩
  | .hbm, ⟨51, _⟩ => ⟨S256, .i1⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S64x256x3136, .f32⟩
  | .hbm, ⟨57, _⟩ => ⟨S_, .f32⟩
  | .hbm, ⟨58, _⟩ => ⟨S64x256, .f32⟩
  | .hbm, ⟨59, _⟩ => ⟨S64x256x3136, .f32⟩
  | .hbm, ⟨60, _⟩ => ⟨S_, .f32⟩
  | .hbm, ⟨61, _⟩ => ⟨S64x256, .f32⟩
  | .hbm, ⟨62, _⟩ => ⟨S256x64, .f32⟩
  | .hbm, ⟨63, _⟩ => ⟨S_, .f32⟩
  | .hbm, ⟨64, _⟩ => ⟨S8x64, .f32⟩
  | .hbm, ⟨65, _⟩ => ⟨S256x1, .i32⟩
  | .hbm, ⟨66, _⟩ => ⟨S8x64, .f32⟩
  | .hbm, ⟨67, _⟩ => ⟨S256x64, .f32⟩
  | .hbm, ⟨68, _⟩ => ⟨S_, .f32⟩
  | .hbm, ⟨69, _⟩ => ⟨S8x64, .f32⟩
  | .hbm, ⟨70, _⟩ => ⟨S256x1, .i32⟩
  | .hbm, ⟨71, _⟩ => ⟨S8x64, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8x1, .f32⟩
  | .hbm, ⟨77, _⟩ => ⟨S8x64, .f32⟩
  | .hbm, ⟨78, _⟩ => ⟨S8x64, .f32⟩
  | .hbm, ⟨79, _⟩ => ⟨S8x64, .f32⟩
  | .hbm, ⟨80, _⟩ => ⟨S8x64, .f32⟩
  | .hbm, ⟨81, _⟩ => ⟨S8x64, .f32⟩
  | .hbm, ⟨82, _⟩ => ⟨S8x64, .f32⟩
  | .hbm, ⟨83, _⟩ => ⟨S_, .f32⟩
  | .hbm, ⟨84, _⟩ => ⟨S8x64, .f32⟩
  | .hbm, ⟨85, _⟩ => ⟨S8x64, .f32⟩
  | .hbm, ⟨86, _⟩ => ⟨S8x64, .f32⟩
  | .hbm, ⟨87, _⟩ => ⟨S_, .f32⟩
  | .hbm, ⟨88, _⟩ => ⟨S8x64, .f32⟩
  | .hbm, ⟨89, _⟩ => ⟨S8x64, .f32⟩
  | .hbm, ⟨90, _⟩ => ⟨S_, .i32⟩
  | .hbm, ⟨91, _⟩ => ⟨S256, .i32⟩
  | .hbm, ⟨92, _⟩ => ⟨S256, .i1⟩
  | .hbm, ⟨93, _⟩ => ⟨S_, .i32⟩
  | .hbm, ⟨94, _⟩ => ⟨S256, .i32⟩
  | .hbm, ⟨95, _⟩ => ⟨S256, .i32⟩
  | .hbm, ⟨96, _⟩ => ⟨S256, .i32⟩
  | .hbm, ⟨97, _⟩ => ⟨S256x1, .i32⟩
  | .hbm, ⟨98, _⟩ => ⟨S256x64, .f32⟩
  | .hbm, ⟨99, _⟩ => ⟨S64x256, .f32⟩
  | .hbm, ⟨100, _⟩ => ⟨S64x256x1, .f32⟩
  | .hbm, ⟨101, _⟩ => ⟨S_, .i32⟩
  | .hbm, ⟨102, _⟩ => ⟨S256, .i32⟩
  | .hbm, ⟨103, _⟩ => ⟨S256, .i1⟩
  | .hbm, ⟨104, _⟩ => ⟨S_, .i32⟩
  | .hbm, ⟨105, _⟩ => ⟨S256, .i32⟩
  | .hbm, ⟨106, _⟩ => ⟨S256, .i32⟩
  | .hbm, ⟨107, _⟩ => ⟨S256, .i32⟩
  | .hbm, ⟨108, _⟩ => ⟨S256x1, .i32⟩
  | .hbm, ⟨109, _⟩ => ⟨S256x64, .f32⟩
  | .hbm, ⟨110, _⟩ => ⟨S64x256, .f32⟩
  | .hbm, ⟨111, _⟩ => ⟨S64x256x1, .f32⟩
  | .hbm, ⟨112, _⟩ => ⟨S64x256x3136, .f32⟩
  | .hbm, ⟨113, _⟩ => ⟨S64x256x3136, .f32⟩
  | .hbm, ⟨114, _⟩ => ⟨S64x256x3136, .f32⟩
  | .hbm, ⟨115, _⟩ => ⟨S64x256x3136, .f32⟩
  | .hbm, ⟨116, _⟩ => ⟨S1x256x1, .f32⟩
  | .hbm, ⟨117, _⟩ => ⟨S64x256x3136, .f32⟩
  | .hbm, ⟨118, _⟩ => ⟨S64x256x3136, .f32⟩
  | .hbm, ⟨119, _⟩ => ⟨S1x256x1, .f32⟩
  | .hbm, ⟨120, _⟩ => ⟨S64x256x3136, .f32⟩
  | .hbm, ⟨121, _⟩ => ⟨S64x256x3136, .f32⟩
  | .hbm, ⟨122, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_cst : Ref sig .tc := ⟨.hbm, 57, rfl⟩
abbrev main_v19 : Ref sig .tc := ⟨.hbm, 58, rfl⟩
abbrev main_v20 : Ref sig .tc := ⟨.hbm, 59, rfl⟩
abbrev main_cst_6 : Ref sig .tc := ⟨.hbm, 60, rfl⟩
abbrev main_v21 : Ref sig .tc := ⟨.hbm, 61, rfl⟩
abbrev main_v22 : Ref sig .tc := ⟨.hbm, 62, rfl⟩
abbrev main_cst_7 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_8 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_9 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_11 : Ref sig .tc := ⟨.hbm, 87, rfl⟩
abbrev main_v43 : Ref sig .tc := ⟨.hbm, 88, rfl⟩
abbrev main_v44 : Ref sig .tc := ⟨.hbm, 89, rfl⟩
abbrev main_c_12 : Ref sig .tc := ⟨.hbm, 90, rfl⟩
abbrev main_v45 : Ref sig .tc := ⟨.hbm, 91, rfl⟩
abbrev main_v46 : Ref sig .tc := ⟨.hbm, 92, rfl⟩
abbrev main_c_13 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_14 : Ref sig .tc := ⟨.hbm, 101, rfl⟩
abbrev main_v54 : Ref sig .tc := ⟨.hbm, 102, rfl⟩
abbrev main_v55 : Ref sig .tc := ⟨.hbm, 103, rfl⟩
abbrev main_c_15 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S256 : S_.BroadcastsInDim S256 (![] : Fin 0 → Fin S256.rank)
  bcast_S_S8 : S_.BroadcastsInDim S8 (![] : Fin 0 → Fin S8.rank)
  bcast_S8_S8x1_0 : S8.BroadcastsInDim S8x1 (![0] : Fin 1 → Fin S8x1.rank)
  reduceWindows_S256_S256_w256s1p255_0 : S256.ReduceWindows (![256] : Fin 1 → Nat) ![1] ![255] ![0] S256
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  shapeCasts_S64x256x56x56_S64x256x3136 : S64x256x56x56.ShapeCasts S64x256x3136
  reducesTo_S64x256x3136_S64x256_d2 : S64x256x3136.ReducesTo [2] S64x256
  transposes_S64x256_S256x64_1_0 : S64x256.Transposes [1, 0] S256x64
  bcast_S_S8x64 : S_.BroadcastsInDim S8x64 (![] : Fin 0 → Fin S8x64.rank)
  bcast_S8x1_S8x64_0_1 : S8x1.BroadcastsInDim S8x64 (![0, 1] : Fin 2 → Fin S8x64.rank)
  transposes_S256x64_S64x256_1_0 : S256x64.Transposes [1, 0] S64x256
  bcast_S64x256_S64x256x1_0_1 : S64x256.BroadcastsInDim S64x256x1 (![0, 1] : Fin 2 → Fin S64x256x1.rank)
  bcast_S64x256x1_S64x256x3136_0_1_2 : S64x256x1.BroadcastsInDim S64x256x3136 (![0, 1, 2] : Fin 3 → Fin S64x256x3136.rank)
  bcast_S256_S1x256x1_1 : S256.BroadcastsInDim S1x256x1 (![1] : Fin 1 → Fin S1x256x1.rank)
  bcast_S1x256x1_S64x256x3136_0_1_2 : S1x256x1.BroadcastsInDim S64x256x3136 (![0, 1, 2] : Fin 3 → Fin S64x256x3136.rank)
  shapeCasts_S64x256x3136_S64x256x56x56 : S64x256x3136.ShapeCasts S64x256x56x56
  scatter_S8_S1_S__n_0_0_0_wf : ScatterDims.WF S8 S1 S_ [] [0] [0] 0
  scatter_S256_S8x1_S8_n_0_0_1_wf : ScatterDims.WF S256 S8x1 S8 [] [0] [0] 1
  gather_S8_S256x1_S256_n_0_n_n_0_1_1_wf : GatherDims.WF S8 S256x1 S256 [] [0] [] [0] [] 1 ![1]
  scatter_S8x64_S256x1_S256x64_1_0_0_1_wf : ScatterDims.WF S8x64 S256x1 S256x64 [1] [0] [0] 1
  gather_S8x64_S256x1_S256x64_1_0_n_n_0_1_164_wf : GatherDims.WF S8x64 S256x1 S256x64 [1] [0] [] [0] [] 1 ![1, 64]

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S256_S8x1_S8_n_0_0_1 : ScatterDims S256 S8x1 S8 where
  updateWindowDims := []
  insertedWindowDims := [0]
  scatterDimsToOperandDims := [0]
  indexVectorDim := 1
  wf := scatter_S256_S8x1_S8_n_0_0_1_wf
def gather_S8_S256x1_S256_n_0_n_n_0_1_1 : GatherDims S8 S256x1 S256 where
  offsetDims := []
  collapsedSliceDims := [0]
  operandBatchingDims := []
  startIndicesBatchingDims := []
  startIndexMap := [0]
  indexVectorDim := 1
  sliceSizes := ![1]
  wf := gather_S8_S256x1_S256_n_0_n_n_0_1_1_wf
def scatter_S8x64_S256x1_S256x64_1_0_0_1 : ScatterDims S8x64 S256x1 S256x64 where
  updateWindowDims := [1]
  insertedWindowDims := [0]
  scatterDimsToOperandDims := [0]
  indexVectorDim := 1
  wf := scatter_S8x64_S256x1_S256x64_1_0_0_1_wf
def gather_S8x64_S256x1_S256x64_1_0_n_n_0_1_164 : GatherDims S8x64 S256x1 S256x64 where
  offsetDims := [1]
  collapsedSliceDims := [0]
  operandBatchingDims := []
  startIndicesBatchingDims := []
  startIndexMap := [0]
  indexVectorDim := 1
  sliceSizes := ![1, 64]
  wf := gather_S8x64_S256x1_S256x64_1_0_n_n_0_1_164_wf

class Facts : Prop extends Facts₀ where

variable [Facts]
-- ==== Proof.BitsR0Runs.lean ====
import proofs.«145460_j4363686773082_1_alg».proof.Proof.Gen.Kernel.Launch
import proofs.«145460_j4363686773082_1_alg».proof.Proof.Gen.Kernel.Skeleton
import proofs.«145460_j4363686773082_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))
/-! # Region 0 (the statistics pass): what its three control cases share

The kernel of region 0 visits the grid (8, 2, 7); along the last axis it accumulates, per (sample, channel),
the sum and the sum of squares of a block of `x` in two scratch accumulators, which it clears at the axis's
first coordinate and copies into the two output windows at its last. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the block of `x` at every point, for any proof data whose
    array is `V`'s and whose body leaves the block in place: the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first conditional (clear the accumulators): the last grid coordinate is 0. -/
abbrev cond0_0 (i : grid0.Coords) : Prop := (Scalar.cmpi .ne (Scalar.extui (Scalar.cmpi .eq (BitVec.ofNat 32 (i 2).val) 0#32)) 0#32) = 1#1
/-- It holds exactly at the points whose position is 0 modulo 7 (the last axis has extent 7 and varies fastest). -/
theorem hcond0_0 : ∀ t : Fin cfg0.N, cond0_0 (grid0.coords t) ↔ t.val % 7 = 0 :=
  (by decide +kernel : ∀ t : Fin grid0.N, cond0_0 (grid0.coords t) ↔ t.val % 7 = 0)

/-- The second conditional (copy the accumulators out): the last grid coordinate is 6. -/
abbrev cond0_1 (i : grid0.Coords) : Prop := k0_cond2 i = 1#1
/-- It holds exactly at the points whose position is 6 modulo 7. -/
theorem hcond0_1 : ∀ t : Fin cfg0.N, cond0_1 (grid0.coords t) ↔ t.val % 7 = 6 :=
  (by decide +kernel : ∀ t : Fin grid0.N, cond0_1 (grid0.coords t) ↔ t.val % 7 = 6)

/-! ## Where the output windows are idle

Three control cases occur on the grid. A: the first conditional holds, the second does not (position 0 mod 7).
B: neither holds (positions 1 … 5 mod 7). C: the second holds, the first does not (position 6 mod 7). -/

/-- The input window is never idle. -/
theorem liveAt0_0 : ∀ t : Fin cfg0.N, cfg0.idle 0 (grid0.coords t) = false := by decide +kernel
/-- In case A nothing is stored into output window 1, and its block is not written back. -/
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
/-- In case B likewise. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- In case C output window 1 is stored into. -/
theorem liveAt0_1_C : ∀ t : Fin cfg0.N, ¬cond0_0 (grid0.coords t) → cond0_1 (grid0.coords t) → cfg0.idle 1 (grid0.coords t) = false := by decide +kernel
/-- The same three facts for output window 2. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of each output window, through which its contents are stated (which one does not matter:
    a whole buffer read back through its own view). -/
abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S8x128x8x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The two accumulators: whole scoped buffers of the kernel's own, passed beside the windows and carried from
    point to point. -/
abbrev scM0_0 : Memref sig .tc .vmem S8x128 .f32 := Memref.whole cc0_scratch0
abbrev scM0_1 : Memref sig .tc .vmem S8x128 .f32 := Memref.whole cc0_scratch1
/-- The accumulators as views: what they hold is stated through these. -/
abbrev VS0_0 : View sig .tc .vmem S8x128 .f32 := scM0_0.view
abbrev VS0_1 : View sig .tc .vmem S8x128 .f32 := scM0_1.view

/-- The core's scoped buffers that region 0 neither stages through nor accumulates in (the staging buffers of
    the other region), each whole at some contents: region 0 carries them along untouched. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region invariant of the class with the two accumulators as memrefs owned at some contents, the other
    scoped buffers set apart. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

/-! ## The body's run in each control case

Each run is stated on any whole memrefs: the block of `x` at its contents `x0`; the pieces the body's stores leave
in the output windows (`L1`, `L2`) and in the two accumulators (`LS0`, `LS1`), last store first, are the witnesses
the symbolic execution finds. -/

set_option maxHeartbeats 1000000 in
/-- CASE A (last coordinate 0): both accumulators come in at anything, are cleared, then updated with the block's
    row sums (of `x` and of `x·x`); nothing is stored into the output windows, which are handed back as they came
    (`xi1`, `xi2`). -/
noncomputable def kernelRun0_A (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
/-- CASE B (last coordinate 1 … 5): both accumulators come in at what the point before left (`xs0`, `xs1`) and are
    updated with the block's row sums; the output windows are handed back as they came. -/
noncomputable def kernelRun0_B (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
/-- CASE C (last coordinate 6): both accumulators come in at what the point before left, are updated with the
    block's row sums, and the updated accumulators are then copied whole into the two output windows, which come
    in at anything. -/
noncomputable def kernelRun0_C (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.Kernel.Hand

end
-- ==== Proof.BitsR0.lean ====
import proofs.«145460_j4363686773082_1_alg».proof.Proof.BitsR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))
/-! # Region 0 (the statistics pass): what the accumulators and the outputs hold, point by point, and the
body obligation

Per control case, the pieces the run found are read back through one fixed view; `outsAt0` threads them along
the grid: (output 1, output 2, accumulator 0, accumulator 1) after the body at position `n`. -/

/-- Case A stores nothing into output 1: no pieces. A placeholder nothing consults, the window being neither
    written back at these points nor read at the next. -/
def out0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VO0_1.read (Elt F) (VO0_1.writes (Elt F) VO0_1.junk (kernelRun0_A c i arg3 harg3 arg4 harg4 arg5 harg5 arg6 harg6 arg7 harg7 hc0 hc1 x0).1)

/-- Case A stores nothing into output 2: no pieces. A placeholder nothing consults, the window being neither
    written back at these points nor read at the next. -/
def out0_A_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VO0_2.read (Elt F) (VO0_2.writes (Elt F) VO0_2.junk (kernelRun0_A c i arg3 harg3 arg4 harg4 arg5 harg5 arg6 harg6 arg7 harg7 hc0 hc1 x0).2.1)

/-- Case A's stores into accumulator 0 are of the whole buffer: its pieces cover it. -/
theorem scover0_A_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) (y : S8x128.Idx) :
    ∃ pc ∈ (kernelRun0_A c i arg3 harg3 arg4 harg4 arg5 harg5 arg6 harg6 arg7 harg7 hc0 hc1 x0).2.2.1, y ∈ pc.1.set :=
  View.cover_of_tiledL (kernelRun0_A c i arg3 harg3 arg4 harg4 arg5 harg5 arg6 harg6 arg7 harg7 hc0 hc1 x0).2.2.1 S8x128.size (by sl_kernel_rfl) y

/-- What case A leaves in accumulator 0: its pieces read back. -/
def sout0_A_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VS0_0.read (Elt F) (VS0_0.writes (Elt F) VS0_0.junk (kernelRun0_A c i arg3 harg3 arg4 harg4 arg5 harg5 arg6 harg6 arg7 harg7 hc0 hc1 x0).2.2.1)

/-- Case A's stores into accumulator 1 are of the whole buffer: its pieces cover it. -/
theorem scover0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) (y : S8x128.Idx) :
    ∃ pc ∈ (kernelRun0_A c i arg3 harg3 arg4 harg4 arg5 harg5 arg6 harg6 arg7 harg7 hc0 hc1 x0).2.2.2.1, y ∈ pc.1.set :=
  View.cover_of_tiledL (kernelRun0_A c i arg3 harg3 arg4 harg4 arg5 harg5 arg6 harg6 arg7 harg7 hc0 hc1 x0).2.2.2.1 S8x128.size (by sl_kernel_rfl) y

/-- What case A leaves in accumulator 1: its pieces read back. -/
def sout0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VS0_1.read (Elt F) (VS0_1.writes (Elt F) VS0_1.junk (kernelRun0_A c i arg3 harg3 arg4 harg4 arg5 harg5 arg6 harg6 arg7 harg7 hc0 hc1 x0).2.2.2.1)

/-- Case B stores nothing into output 1: no pieces. A placeholder nothing consults, the window being neither
    written back at these points nor read at the next. -/
def out0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VO0_1.read (Elt F) (VO0_1.writes (Elt F) VO0_1.junk (kernelRun0_B c i arg3 harg3 arg4 harg4 arg5 harg5 arg6 harg6 arg7 harg7 hc0 hc1 x0 xs0 xs1).1)

/-- Case B stores nothing into output 2: no pieces. A placeholder nothing consults, the window being neither
    written back at these points nor read at the next. -/
def out0_B_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VO0_2.read (Elt F) (VO0_2.writes (Elt F) VO0_2.junk (kernelRun0_B c i arg3 harg3 arg4 harg4 arg5 harg5 arg6 harg6 arg7 harg7 hc0 hc1 x0 xs0 xs1).2.1)

/-- Case B's stores into accumulator 0 are of the whole buffer: its pieces cover it. -/
theorem scover0_B_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) (y : S8x128.Idx) :
    ∃ pc ∈ (kernelRun0_B c i arg3 harg3 arg4 harg4 arg5 harg5 arg6 harg6 arg7 harg7 hc0 hc1 x0 xs0 xs1).2.2.1, y ∈ pc.1.set :=
  View.cover_of_tiledL (kernelRun0_B c i arg3 harg3 arg4 harg4 arg5 harg5 arg6 harg6 arg7 harg7 hc0 hc1 x0 xs0 xs1).2.2.1 S8x128.size (by sl_kernel_rfl) y

/-- What case B leaves in accumulator 0: its pieces read back. -/
def sout0_B_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VS0_0.read (Elt F) (VS0_0.writes (Elt F) VS0_0.junk (kernelRun0_B c i arg3 harg3 arg4 harg4 arg5 harg5 arg6 harg6 arg7 harg7 hc0 hc1 x0 xs0 xs1).2.2.1)

/-- Case B's stores into accumulator 1 are of the whole buffer: its pieces cover it. -/
theorem scover0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) (y : S8x128.Idx) :
    ∃ pc ∈ (kernelRun0_B c i arg3 harg3 arg4 harg4 arg5 harg5 arg6 harg6 arg7 harg7 hc0 hc1 x0 xs0 xs1).2.2.2.1, y ∈ pc.1.set :=
  View.cover_of_tiledL (kernelRun0_B c i arg3 harg3 arg4 harg4 arg5 harg5 arg6 harg6 arg7 harg7 hc0 hc1 x0 xs0 xs1).2.2.2.1 S8x128.size (by sl_kernel_rfl) y

/-- What case B leaves in accumulator 1: its pieces read back. -/
def sout0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VS0_1.read (Elt F) (VS0_1.writes (Elt F) VS0_1.junk (kernelRun0_B c i arg3 harg3 arg4 harg4 arg5 harg5 arg6 harg6 arg7 harg7 hc0 hc1 x0 xs0 xs1).2.2.2.1)

/-- Case C's one store into output 1 is of the whole block: its pieces cover it. -/
theorem cover0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).1, y ∈ pc.1.set :=
  View.cover_of_tiledL (kernelRun0_C c i arg3 harg3 arg4 harg4 arg5 harg5 arg6 harg6 arg7 harg7 hc0 hc1 x0 xs0 xs1).1 S8x128.size (by sl_kernel_rfl) y

/-- What case C leaves in output 1's staging buffer: its pieces read back. -/
def out0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VO0_1.read (Elt F) (VO0_1.writes (Elt F) VO0_1.junk (kernelRun0_C c i arg3 harg3 arg4 harg4 arg5 harg5 arg6 harg6 arg7 harg7 hc0 hc1 x0 xs0 xs1).1)

/-- Case C's one store into output 2 is of the whole block: its pieces cover it. -/
theorem cover0_C_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.1, y ∈ pc.1.set :=
  View.cover_of_tiledL (kernelRun0_C c i arg3 harg3 arg4 harg4 arg5 harg5 arg6 harg6 arg7 harg7 hc0 hc1 x0 xs0 xs1).2.1 S8x128.size (by sl_kernel_rfl) y

/-- What case C leaves in output 2's staging buffer: its pieces read back. -/
def out0_C_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VO0_2.read (Elt F) (VO0_2.writes (Elt F) VO0_2.junk (kernelRun0_C c i arg3 harg3 arg4 harg4 arg5 harg5 arg6 harg6 arg7 harg7 hc0 hc1 x0 xs0 xs1).2.1)

/-- Case C's stores into accumulator 0 are of the whole buffer: its pieces cover it. -/
theorem scover0_C_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.2.1, y ∈ pc.1.set :=
  View.cover_of_tiledL (kernelRun0_C c i arg3 harg3 arg4 harg4 arg5 harg5 arg6 harg6 arg7 harg7 hc0 hc1 x0 xs0 xs1).2.2.1 S8x128.size (by sl_kernel_rfl) y

/-- What case C leaves in accumulator 0: its pieces read back. -/
def sout0_C_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VS0_0.read (Elt F) (VS0_0.writes (Elt F) VS0_0.junk (kernelRun0_C c i arg3 harg3 arg4 harg4 arg5 harg5 arg6 harg6 arg7 harg7 hc0 hc1 x0 xs0 xs1).2.2.1)

/-- Case C's stores into accumulator 1 are of the whole buffer: its pieces cover it. -/
theorem scover0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.2.2.1, y ∈ pc.1.set :=
  View.cover_of_tiledL (kernelRun0_C c i arg3 harg3 arg4 harg4 arg5 harg5 arg6 harg6 arg7 harg7 hc0 hc1 x0 xs0 xs1).2.2.2.1 S8x128.size (by sl_kernel_rfl) y

/-- What case C leaves in accumulator 1: its pieces read back. -/
def sout0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VS0_1.read (Elt F) (VS0_1.writes (Elt F) VS0_1.junk (kernelRun0_C c i arg3 harg3 arg4 harg4 arg5 harg5 arg6 harg6 arg7 harg7 hc0 hc1 x0 xs0 xs1).2.2.2.1)

/-! ## What the outputs and the accumulators hold after each point -/

/-- THE ACCUMULATION. After the body at position `n`: (output 1, output 2, accumulator 0, accumulator 1), by the
    case the position's residue modulo 7 selects, run at the point's memrefs and block of `x`; in cases B and C
    the accumulators come in at what position `n - 1` left. -/
def outsAt0 (c : Dev nD) : (n : ℕ) → n < cfg0.N → Vec F S8x128 .f32 × Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩))
  | n + 1, hn =>
    if h0 : (n + 1) % 7 = 0 then
      if h1 : (n + 1) % 7 = 6 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 7 = 6 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 7 = 0) (h1 : ¬t.val % 7 = 6) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left in the accumulators. -/
theorem outsAt0_B (c : Dev nD) (t : Fin cfg0.N) (h0 : ¬t.val % 7 = 0) (h1 : ¬t.val % 7 = 6) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulators. -/
theorem outsAt0_C (c : Dev nD) (t : Fin cfg0.N) (h0 : ¬t.val % 7 = 0) (h1 : t.val % 7 = 6) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant along the grid -/

/-- Before position `n`: at the region's entry the class's invariant (every scoped buffer at anything);
    afterwards the two accumulators at what position `n - 1` left in them, the other scoped buffers at anything,
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- Region 0's proof data on core `c`: the arrays as the region finds them; after the body at point `t` the
    input's buffer at its block of `x` and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block of `x` at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds the block of `x`; the position's residue modulo 7 says which
    case the point is in. The invariant hands the body the two accumulators — at anything at the region's first
    point, else at what the point before left — and takes them back at this point's contents (the stores cover
    them); in cases A and B the output windows are idle and go back as they came, in case C they come in at
    anything and leave at the copied accumulators; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 112 := lt_of_lt_of_eq t.isLt (show cfg0.N = 112 from N_0)
  rw [show (dat0 V c).leavesExact 0 t = owns (c : Thread nD τ) (ms0_0 t) fullShare ((dat0 V c).after 0 t) from by
    unfold Dat.leavesExact; rw [liveAt0_0 t], after0_0]
  by_cases h0 : t.val % 7 = 0
  · have h1 : ¬t.val % 7 = 6 := by omega
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
  · have hz : t.val ≠ 0 := by omega
    by_cases h1 : t.val % 7 = 6
    · rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 112 := N_0; omega)

end Cert.Kernel.Hand

end
-- ==== Proof.BitsR1.lean ====
import proofs.«145460_j4363686773082_1_alg».proof.Proof.Gen.Kernel.Launch
import proofs.«145460_j4363686773082_1_alg».proof.Proof.Gen.Kernel.Skeleton
import proofs.«145460_j4363686773082_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-! # The normalising region (pipeline 1) at its entry contents

The second kernel region walks the grid (8,2,7). At a point it reads five blocks whole — the block of the
input tensor, the matching blocks of the per-channel mean and inverse deviation, and the matching halves of
the weight and the bias — and overwrites the whole output block with one value computed from those five.
Nothing else is touched: no scratch, no branch. So the buffer the body leaves for the output window is a
function of the five input blocks alone, and each input buffer is left as it was found. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetches it or not
    (where it is not fetched its block index has not moved since the last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether the point fetches it or not
    (where it is not fetched its block index has not moved since the last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether the point fetches it or not
    (where it is not fetched its block index has not moved since the last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether the point fetches it or not
    (where it is not fetched its block index has not moved since the last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether the point fetches it or not
    (where it is not fetched its block index has not moved since the last fetch), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_X : Rect S8x128x8x56 := Rect.unit (s := S8x128x8x56) ![0, 0, 0, 0] S8x128x8x56.size inb_S8x128x8x56_S8x128x8x56_0_0_0_0
abbrev r1_C : Rect S8x128 := Rect.unit (s := S8x128) ![0, 0] S8x128.size inb_S8x128_S8x128_0_0
abbrev r1_W : Rect S128 := Rect.unit (s := S128) ![0] S128.size inb_S128_S128_0

/-! ## What the body leaves in the output window's buffer -/

/-- The output buffer after the body, from the five input blocks: its one store, of the value computed from
    what the five loads read. -/
def out1_5 (x0 : Vec F S8x128x8x56 .f32) (x1 x2 : Vec F S8x128 .f32) (x3 x4 : Vec F S128 .f32) : Vec F S8x128x8x56 .f32 :=
  View.canon [⟨r1_X, k1_pay1 (View.ld x0 r1_X) (View.ld x1 r1_C) (View.ld x2 r1_C) (View.ld x3 r1_W) (View.ld x4 r1_W)⟩]

/-- The one store is of the whole buffer, so it covers it. -/
theorem cover1_5 (p0 : Vec F S8x128x8x56 .f32) (y : S8x128x8x56.Idx) :
    ∃ pc ∈ ([⟨r1_X, p0⟩] : List (View.Piece (Elt F) S8x128x8x56 .f32)), y ∈ pc.1.set :=
  View.cover_of_tiled [⟨r1_X, p0⟩] S8x128x8x56.size (by rfl) y

/-! ## The body's triple -/

set_option maxHeartbeats 1000000 in
/-- The body on whole buffers — the five inputs' at contents `x0 … x4`, the output's at anything — runs to a
    continuation that holds the inputs' as they were and the output's at `out1_5` of them: five whole loads, a
    load of the output buffer whose value is not used, and one whole store. -/
theorem sound_kernel1 (c : Dev nD) (E : Set ℕ) (i : grid1.Coords)
    (arg3 : Memref sig .tc .vmem S8x128x8x56 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S128 .f32) (harg6 : arg6.IsWhole)
    (arg7 : Memref sig .tc .vmem S128 .f32) (harg7 : arg7.IsWhole) (arg8 : Memref sig .tc .vmem S8x128x8x56 .f32) (harg8 : arg8.IsWhole)
    (x0 : Vec F S8x128x8x56 .f32) (x1 x2 : Vec F S8x128 .f32) (x3 x4 : Vec F S128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out1_5 x0 x1 x2 x3 x4)) -∗ K ⟨⟩))
      ⊢ wp frame (wpE (defs₀ (F := F)) Variants.none c none) E (cc1__norm_kernel i arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the five input blocks; the invariant says
    only that the scoped rest and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output buffer's value -/

/-- The whole-buffer accesses sit at offset zero on every axis. -/
theorem hz1_X : (![0, 0, 0, 0] : Fin 4 → Nat) = fun _ => 0 := funext fun a => by fin_cases a <;> rfl
theorem hz1_C : (![0, 0] : Fin 2 → Nat) = fun _ => 0 := funext fun a => by fin_cases a <;> rfl
theorem hz1_W : (![0] : Fin 1 → Nat) = fun _ => 0 := funext fun a => by fin_cases a <;> rfl

/-- A whole load reads the buffer and a whole store leaves its value, so what the body leaves in the output
    buffer is the computed value of the five input blocks themselves. -/
theorem out1_5_eq (x0 : Vec F S8x128x8x56 .f32) (x1 x2 : Vec F S8x128 .f32) (x3 x4 : Vec F S128 .f32) :
    out1_5 x0 x1 x2 x3 x4 = k1_pay1 x0 x1 x2 x3 x4 := by
  unfold out1_5
  rw [View.canon_unit_zero hz1_X]
  simp only [View.ld_unit_zero (S := S8x128x8x56) hz1_X, View.ld_unit_zero (S := S8x128) hz1_C,
    View.ld_unit_zero (S := S128) hz1_W]

end Cert.Kernel.Hand

end
-- ==== Proof.BitsRun.lean ====
import proofs.«145460_j4363686773082_1_alg».proof.Proof.Gen.Kernel.Launch
import proofs.«145460_j4363686773082_1_alg».proof.Proof.Gen.Kernel.Skeleton
import proofs.«145460_j4363686773082_1_alg».proof.Proof.Gen.Kernel.Points
import proofs.«145460_j4363686773082_1_alg».proof.Proof.Gen.Kernel.Regions
import proofs.«145460_j4363686773082_1_alg».proof.Proof.BitsR0
import proofs.«145460_j4363686773082_1_alg».proof.Proof.BitsR1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents between the items of @main

The launch memory `m` is carried through the eight host stretches that compute the channel→group table (the
generated valuations `Gen.V1 … Gen.V8`); the statistics region then leaves its two output arrays at what its
write-backs fold to and every other buffer as it found it; the host stretch `hostOps1` computes the per-channel mean
and inverse deviation from those; the normalisation region leaves its output array at what its write-backs fold to. -/

variable (m : (ℓ : Loc nD τ sig) → Buf (Elt F) ℓ)

/-- Region 0's entry contents, read at the TensorCore's references. -/
abbrev Vr0 : (c : Dev nD) → (b : Ref sig .tc) → Buf (Elt F) ((c : Thread nD τ).loc b) := fun c b => Gen.V8 m c b

/-- Region 0's exit contents: its arrays at what the pipeline leaves (the input as entered, each output's write-backs
    folded), every other buffer as entered. -/
def W9 (c : Dev nD) : Valuation τ sig (Elt F) :=
  Pipeline.withArrays spec0 c (Gen.V8 m c) fun w => (dat0 (Vr0 m) c).arrAt w cfg0.N

theorem W9_arr (c : Dev nD) (w : Fin cfg0.W) :
    W9 m c (Proc.devRef .tc (Pipeline.arrRef spec0 w)) = (dat0 (Vr0 m) c).arrAt w cfg0.N := by
  unfold W9; exact Pipeline.withArrays_arr spec0 launch0.win.arr_inj c _ _ w

theorem W9_v18_0 (c : Dev nD) : W9 m c (Proc.devRef .tc main_v18_0) = (dat0 (Vr0 m) c).arrAt 1 cfg0.N := W9_arr m c 1
theorem W9_v18_1 (c : Dev nD) : W9 m c (Proc.devRef .tc main_v18_1) = (dat0 (Vr0 m) c).arrAt 2 cfg0.N := W9_arr m c 2

/-- The input array of region 0 is never written: the fold of its write-backs is its entry contents. -/
theorem W9_arg0 (c : Dev nD) : W9 m c (Proc.devRef .tc main_arg0) = Gen.V8 m c (Proc.devRef .tc main_arg0) :=
  (W9_arr m c 0).trans (((dat0 (Vr0 m) c).arrAt_in 0 rfl _).trans (A_eq0 (Vr0 m) c 0))

/-- Off the two output arrays region 0 leaves every buffer as it found it. -/
theorem W9_of_ne (c : Dev nD) (b : Ref sig .tc) (h0 : b ≠ main_v18_0) (h1 : b ≠ main_v18_1) :
    W9 m c (Proc.devRef .tc b) = Gen.V8 m c (Proc.devRef .tc b) := by
  by_cases ha : b = main_arg0
  · subst ha; exact W9_arg0 m c
  · unfold W9
    refine Pipeline.withArrays_of_ne spec0 c _ _ b fun w => ?_
    match w with
    | ⟨0, _⟩ => exact fun e => ha e.symm
    | ⟨1, _⟩ => exact fun e => h0 e.symm
    | ⟨2, _⟩ => exact fun e => h1 e.symm

/-- Region 0's exit contents read at the TensorCore's references. -/
abbrev Vx0 : (c : Dev nD) → (b : Ref sig .tc) → Buf (Elt F) ((c : Thread nD τ).loc b) := fun c b => W9 m c b

/-- Region 1's entry contents: the host stretch `hostOps1` run from region 0's exit contents. -/
abbrev Vr1 : (c : Dev nD) → (b : Ref sig .tc) → Buf (Elt F) ((c : Thread nD τ).loc b) := fun c b => StableHlo.after hostOps1 (W9 m c) b

/-- Region 1's exit contents: its arrays at what the pipeline leaves, every other buffer as entered. -/
def W11 (c : Dev nD) : Valuation τ sig (Elt F) :=
  Pipeline.withArrays spec1 c (StableHlo.after hostOps1 (W9 m c)) fun w => (dat1 (Vr1 m) c).arrAt w cfg1.N

theorem W11_arr (c : Dev nD) (w : Fin cfg1.W) :
    W11 m c (Proc.devRef .tc (Pipeline.arrRef spec1 w)) = (dat1 (Vr1 m) c).arrAt w cfg1.N := by
  unfold W11; exact Pipeline.withArrays_arr spec1 launch1.win.arr_inj c _ _ w

theorem W11_v58 (c : Dev nD) : W11 m c (Proc.devRef .tc main_v58) = (dat1 (Vr1 m) c).arrAt 5 cfg1.N := W11_arr m c 5

/-- Region 1's exit contents read at the TensorCore's references. -/
abbrev Vx1 : (c : Dev nD) → (b : Ref sig .tc) → Buf (Elt F) ((c : Thread nD τ).loc b) := fun c b => W11 m c b

/-! ## The arguments are never written -/

theorem Vr0_arg0 (c : Dev nD) : Vr0 m c main_arg0 = m ((c.tc : Thread nD τ).loc main_arg0) :=
  (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem Vr0_arg1 (c : Dev nD) : Vr0 m c main_arg1 = m ((c.tc : Thread nD τ).loc main_arg1) :=
  (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem Vr0_arg2 (c : Dev nD) : Vr0 m c main_arg2 = m ((c.tc : Thread nD τ).loc main_arg2) :=
  (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl

/-- Neither `hostOps1` nor region 0 writes an argument. -/
theorem Vr1_arg0 (c : Dev nD) : Vr1 m c main_arg0 = m ((c.tc : Thread nD τ).loc main_arg0) :=
  (StableHlo.after_of_writes_sub hostOps1 _ Gen.hostOps1_writes (by decide)).trans <|
    (W9_of_ne m c main_arg0 (by decide) (by decide)).trans (Vr0_arg0 m c)
theorem Vr1_arg1 (c : Dev nD) : Vr1 m c main_arg1 = m ((c.tc : Thread nD τ).loc main_arg1) :=
  (StableHlo.after_of_writes_sub hostOps1 _ Gen.hostOps1_writes (by decide)).trans <|
    (W9_of_ne m c main_arg1 (by decide) (by decide)).trans (Vr0_arg1 m c)
theorem Vr1_arg2 (c : Dev nD) : Vr1 m c main_arg2 = m ((c.tc : Thread nD τ).loc main_arg2) :=
  (StableHlo.after_of_writes_sub hostOps1 _ Gen.hostOps1_writes (by decide)).trans <|
    (W9_of_ne m c main_arg2 (by decide) (by decide)).trans (Vr0_arg2 m c)

/-! ## The contents the regions leave, as the generated valuations' unknowns -/

/-- What the regions leave in the buffers they may change: up to item 9 region 0's exit contents, after it
    region 1's. -/
def runOuts : Gen.Outs (F := F) := fun J r c => if J ≤ 9 then W9 m c r else W11 m c r

/-- The generated valuation after region 0 is region 0's exit contents: the two updated buffers by definition,
    the input array because it is never written, every other buffer because the region bypasses it. -/
theorem V9_eq (c : Dev nD) : Gen.V9 m (runOuts m) c = W9 m c := by
  funext b
  by_cases h1 : b = Proc.devRef .tc main_v18_1
  · subst h1
    exact Function.update_self ..
  · refine (Function.update_of_ne h1 ..).trans ?_
    by_cases h0 : b = Proc.devRef .tc main_v18_0
    · subst h0
      exact Function.update_self ..
    · refine (Function.update_of_ne h0 ..).trans ?_
      by_cases h : ∃ w, Proc.devRef .tc (Pipeline.arrRef spec0 w) = b
      · obtain ⟨w, rfl⟩ := h
        match w with
        | ⟨0, _⟩ => exact (W9_arg0 m c).symm
        | ⟨1, _⟩ => exact absurd rfl h0
        | ⟨2, _⟩ => exact absurd rfl h1
      · unfold W9 Pipeline.withArrays
        rw [dif_neg h]

/-- The generated valuation before region 1 is `hostOps1` run from region 0's exit contents. -/
theorem V10_eq (c : Dev nD) : Gen.V10 m (runOuts m) c = StableHlo.after hostOps1 (W9 m c) :=
  congrArg (StableHlo.after hostOps1) (V9_eq m c)

/-- The generated valuation after region 1 is region 1's exit contents: the updated buffer by definition, the
    five input arrays because they are never written, every other buffer because the region bypasses it. -/
theorem V11_eq (c : Dev nD) : Gen.V11 m (runOuts m) c = W11 m c := by
  funext b
  by_cases h1 : b = Proc.devRef .tc main_v58
  · subst h1
    exact Function.update_self ..
  · refine (Function.update_of_ne h1 ..).trans ?_
    rw [V10_eq]
    by_cases h : ∃ w, Proc.devRef .tc (Pipeline.arrRef spec1 w) = b
    · obtain ⟨w, rfl⟩ := h
      refine Eq.symm ((W11_arr m c w).trans ?_)
      match w with
      | ⟨0, _⟩ => exact ((dat1 (Vr1 m) c).arrAt_in 0 rfl _).trans (A_eq1 (Vr1 m) c 0)
      | ⟨1, _⟩ => exact ((dat1 (Vr1 m) c).arrAt_in 1 rfl _).trans (A_eq1 (Vr1 m) c 1)
      | ⟨2, _⟩ => exact ((dat1 (Vr1 m) c).arrAt_in 2 rfl _).trans (A_eq1 (Vr1 m) c 2)
      | ⟨3, _⟩ => exact ((dat1 (Vr1 m) c).arrAt_in 3 rfl _).trans (A_eq1 (Vr1 m) c 3)
      | ⟨4, _⟩ => exact ((dat1 (Vr1 m) c).arrAt_in 4 rfl _).trans (A_eq1 (Vr1 m) c 4)
      | ⟨5, _⟩ => exact absurd rfl h1
    · unfold W11 Pipeline.withArrays
      rw [dif_neg h]

/-- At region 0's exit each of its arrays holds what the pipeline leaves and every other buffer what it held at entry. -/
theorem hF0 (c : Dev nD) (w : Fin cfg0.W) : (dat0 (Vr0 m) c).arrAt w cfg0.N = Vx0 m c (Pipeline.arrRef spec0 w) :=
  (W9_arr m c w).symm
theorem W9_off (c : Dev nD) (b : Ref sig .tc) (hb : ∀ w, Pipeline.arrRef spec0 w ≠ b) :
    W9 m c (Proc.devRef .tc b) = Gen.V8 m c (Proc.devRef .tc b) := by
  unfold W9; exact Pipeline.withArrays_of_ne spec0 c _ _ b hb
theorem hrest0 (c : Dev nD) : ∀ b, b ∉ Finset.univ.image (Pipeline.arrRef spec0) → Vx0 m c b = Vr0 m c b :=
  fun b hb => W9_off m c b fun w e => hb (Finset.mem_image.mpr ⟨w, Finset.mem_univ _, e⟩)
/-- The same of region 1. -/
theorem hF1 (c : Dev nD) (w : Fin cfg1.W) : (dat1 (Vr1 m) c).arrAt w cfg1.N = Vx1 m c (Pipeline.arrRef spec1 w) :=
  (W11_arr m c w).symm
theorem W11_off (c : Dev nD) (b : Ref sig .tc) (hb : ∀ w, Pipeline.arrRef spec1 w ≠ b) :
    W11 m c (Proc.devRef .tc b) = StableHlo.after hostOps1 (W9 m c) (Proc.devRef .tc b) := by
  unfold W11; exact Pipeline.withArrays_of_ne spec1 c _ _ b hb
theorem hrest1 (c : Dev nD) : ∀ b, b ∉ Finset.univ.image (Pipeline.arrRef spec1) → Vx1 m c b = Vr1 m c b :=
  fun b hb => W11_off m c b fun w e => hb (Finset.mem_image.mpr ⟨w, Finset.mem_univ _, e⟩)

/-! # The launch: the proof data family, the rest state, the two regions as segments -/

/-- Every pipeline's proof data, each at its region's entry contents — a literal `match`, so that the pinned
    configuration at a numeral reduces to the printed one. -/
def runPdats : (p : Fin 2) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c

abbrev run𝒱 : Variants := Variants.none
/-- No core owes another anything: no level is assigned. -/
abbrev runL : GSem nD τ sig → Finset Unit := fun _ => ∅
abbrev runLv : GSem nD τ sig → Unit → ℕ := fun _ _ => 0

/-- What rides beside the buffers through every item: the core's generator register at some state (a region's
    invariant takes it in and gives it back) and the core owing nothing. -/
abbrev runRest (c : Dev nD) : sProp 𝕄 :=
  iprop((∃ r, prngReg c r) ∗ ∃ W, owes (c : Thread nD τ) (0 : CellTallies nD τ sig Unit) W)

/-- The rest state is the same between any two items. -/
abbrev runE : Fin 3 → Dev nD → sProp 𝕄 := fun _ c => runRest (F := F) c

theorem q_eq0 (c : Dev nD) (w : Fin cfg0.W) : (dat0 (Vr0 m) c).q w = fullShare := by dsimp only [dat0]
theorem q_eq1 (c : Dev nD) (w : Fin cfg1.W) : (dat1 (Vr1 m) c).q w = fullShare := by dsimp only [dat1]
theorem owed_eq0 (c : Dev nD) (t : Fin (cfg0.N + 1)) : (dat0 (Vr0 m) c).owed t = 0 := by dsimp only [dat0]
theorem owed_eq1 (c : Dev nD) (t : Fin (cfg1.N + 1)) : (dat1 (Vr1 m) c).owed t = 0 := by dsimp only [dat1]

set_option backward.isDefEq.respectTransparency.types false in
/-- REGION 0 (the statistics kernel) over the thread state: entered from every unscoped buffer at `Gen.V8`, left at
    `W9`. Its arrays are split out of the unscoped buffers and put back at the exit contents; the generator register
    and the kernel's scratch enter the tracked invariant through the class invariant (`hin0`) and come back out of it
    (`hout0`); nothing owed; no semaphore of the kernel's own. -/
def runReg0 : Pipeline.RegionSeg (pcfgs (F := F)) Gen.adm (runPdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ runL runLv 0 fun c t => owed_eq0 m c t
  pre c := iprop(StableHlo.held (c : Thread nD τ) (Pipeline.ucRefs τ sig) (Gen.V8 m c) ∗ runRest c)
  post c := iprop(StableHlo.held (c : Thread nD τ) (Pipeline.ucRefs τ sig) (W9 m c) ∗ runRest c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (runPdats m) launch0.win launch0.arr_whole c
      ((runPdats m 0 c).share_full fun w => q_eq0 m c w) (Vr0 m c) fun w => A_eq0 (Vr0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (runPdats m) ((runPdats m 0 c).share_full fun w => q_eq0 m c w)
      (Vr0 m c) (Vx0 m c) ((runPdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the normalisation kernel) over the thread state: entered from every unscoped buffer at `hostOps1` run
    from `W9`, left at `W11`. Its invariant is the class invariant itself. -/
def runReg1 : Pipeline.RegionSeg (pcfgs (F := F)) Gen.adm (runPdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ runL runLv 1 fun c t => owed_eq1 m c t
  pre c := iprop(StableHlo.held (c : Thread nD τ) (Pipeline.ucRefs τ sig) (StableHlo.after hostOps1 (W9 m c)) ∗ runRest c)
  post c := iprop(StableHlo.held (c : Thread nD τ) (Pipeline.ucRefs τ sig) (W11 m c) ∗ runRest c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) Gen.adm (runPdats m) launch1.win launch1.arr_whole c
      ((runPdats m 1 c).share_full fun w => q_eq1 m c w) (Vr1 m c) fun w => A_eq1 (Vr1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runPdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (runPdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (runPdats m) ((runPdats m 1 c).share_full fun w => q_eq1 m c w)
      (Vr1 m c) (Vx1 m c) ((runPdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch's hypotheses, stated once -/

variable (ρ : Dev nD → PrngReg)

/-- The launch element: the pipeline library's at every pipeline's staging cells. -/
abbrev runU₀ : UR sig nD τ := initOf (Pipeline.cells cfgs cellOf_inj) (Pipeline.launchToks cfgs cellOf_inj)

/-- No ghost resource of our own beside the library's. -/
abbrev runG : Dev nD → sProp 𝕄 := fun _ => iprop(emp)

theorem run_hu₀ : (ownU runU₀ : sProp 𝕄)
    ⊢ |={Set.univ}=> iprop(BI.own (emb₁ (initOf (Pipeline.cells cfgs cellOf_inj) (Pipeline.launchToks cfgs cellOf_inj))) ∗ bigSep Finset.univ (runG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: the generator register at its launch
    state, the core owing nothing. -/
theorem run_hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ runG (F := F) c)) ∗ levAts runL runLv)
    ⊢ (|={Set.univ}=> bigSep Finset.univ (runE (F := F) 0) : sProp 𝕄) := by
  refine Pipeline.initEach runL runLv fun c => ?_
  iintro ⟨⟨-, HO, -, Hp, -⟩, -⟩
  imodintro
  isplitl [Hp]; · iexists _; iexact Hp
  iexists ∅; iexact HO

theorem run_hE2 (c : Dev nD) : runE (F := F) 2 c ⊢ (iprop(∃ W, owes (c : Thread nD τ) (0 : CellTallies nD τ sig Unit) W) : sProp 𝕄) := by
  iintro ⟨-, H⟩; iexact H

theorem run_hpre0 (c : Dev nD) : iprop(StableHlo.held (c : Thread nD τ) (Pipeline.ucRefs τ sig) (Gen.V8 m c) ∗ runE 0 c) ⊢ (runReg0 m).pre c := .rfl
theorem run_hpost0 (c : Dev nD) : (runReg0 m).post c ⊢ iprop(StableHlo.held (c : Thread nD τ) (Pipeline.ucRefs τ sig) (Gen.V9 m (runOuts m) c) ∗ runE 1 c) := by
  rw [V9_eq]; exact .rfl
theorem run_hpre1 (c : Dev nD) : iprop(StableHlo.held (c : Thread nD τ) (Pipeline.ucRefs τ sig) (Gen.V10 m (runOuts m) c) ∗ runE 1 c) ⊢ (runReg1 m).pre c := by
  rw [V10_eq]; exact .rfl
theorem run_hpost1 (c : Dev nD) : (runReg1 m).post c ⊢ iprop(StableHlo.held (c : Thread nD τ) (Pipeline.ucRefs τ sig) (Gen.V11 m (runOuts m) c) ∗ runE 2 c) := by
  rw [V11_eq]; exact .rfl

/-! # The frame and the value run -/

set_option backward.isDefEq.respectTransparency.types false in
/-- THE FRAME: from any memory with zero counters every weakly fair execution of @main terminates and every final
    memory holds each argument array as launched — the generated conditional frame at the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () run𝒱 runL runLv (fun _ _ => rfl) ρ (runOuts m) (runPdats m) 0 runG runU₀ run_hu₀ runE (run_hE0 ρ) run_hE2
    (runReg0 m) (run_hpre0 m) (run_hpost0 m) (runReg1 m) (run_hpre1 m) (run_hpost1 m)

set_option backward.isDefEq.respectTransparency.types false in
/-- THE VALUE RUN: the same launch, the result array read off the last valuation as well — every final memory holds in
    `main_v58` what the normalisation region's write-backs fold to, and each argument array as launched. -/
theorem run_main : θ_run defs (onTc (τ := τ) (main (F := F))) ⟨m, fun _ => 0, ρ⟩ (fun r => ∀ c : Dev nD,
      r.2.mem ((c.tc : Thread nD τ).loc main_v58) = (dat1 (Vr1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (runPdats m) () cellOf_inj emb₁ defs₀ run𝒱 runL runLv m ρ main
    (Gen.segs m (runOuts m) run𝒱 runL runLv runE () (runPdats m) (runReg0 m) (runReg1 m))
    (fun c Q => by
      rewrite [main_chain c, Pipeline.Seg.run_eq_chain,
        show (Gen.segs m (runOuts m) run𝒱 runL runLv runE () (runPdats m) (runReg0 m) (runReg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl) runG runU₀ run_hu₀
    (T₀ := fun c => iprop(StableHlo.held (c : Thread nD τ) (Pipeline.ucRefs τ sig) (Gen.V0 m c) ∗ runE 0 c))
    (Tₙ := fun c => StableHlo.held (c : Thread nD τ) (Pipeline.ucRefs τ sig) (Gen.V11 m (runOuts m) c))
    (hch := fun c => ⟨.rfl, .rfl, .rfl, .rfl, .rfl, .rfl, .rfl, .rfl, run_hpre0 m c, run_hpost0 m c, run_hpre1 m c, (run_hpost1 m c).trans (sep_mono .rfl (run_hE2 c))⟩)
    (hinit := ?_) (QY := fun c s => s.mem ((c.tc : Thread nD τ).loc main_v58) = (dat1 (Vr1 m) c).arrAt 5 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes the rest state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ runG (F := F) c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ runG (F := F) c))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hjoin : iprop((bigSep Finset.univ fun c : Dev nD => StableHlo.held (c : Thread nD τ) (Pipeline.ucRefs τ sig) (Gen.V0 m c)) ∗ bigSep Finset.univ (runE (F := F) 0))
        ⊢ (bigSep Finset.univ fun c : Dev nD => iprop(StableHlo.held (c : Thread nD τ) (Pipeline.ucRefs τ sig) (Gen.V0 m c) ∗ runE 0 c) : sProp 𝕄) := by
      exact BIBase.Entails.of_eq (bigSep_sep' Finset.univ (fun c : Dev nD => StableHlo.held (c : Thread nD τ) (Pipeline.ucRefs τ sig) (Gen.V0 m c)) (runE (F := F) 0)).symm
    iintro ⟨H, Hla⟩
    ihave H' := hsplit $$ H
    icases H' with ⟨Hh, Hr⟩
    imod (run_hE0 ρ) $$ [Hr Hla] with HE
    · isplitl [Hr]; · iexact Hr
      iexact Hla
    imodintro
    iapply hjoin
    isplitl [Hh]; · iexact Hh
    iexact HE
  · -- the end: the result array and each argument's buffer read off the last valuation
    unfold StableHlo.held
    iintro ⟨Hh, HSI⟩
    ihave Hr := (pointsTo_read_all (Pipeline.ucRefs τ sig) (fun b => ((c : Thread nD τ).1, b)) (Gen.V11 m (runOuts m) c) s') $$ [Hh HSI]
    · isplitl [Hh] <;> iassumption
    icases Hr with ⟨%h, HSI⟩
    imodintro
    isplitr
    · ipureintro
      exact ⟨(h (Proc.devRef .tc main_v58) (Finset.mem_filter.mpr ⟨StableHlo.devRef_mem_tcRefs main_v58, by decide⟩)).trans ((congrFun (V11_eq m c) _).trans (W11_v58 m c)),
        (h (Proc.devRef .tc main_arg0) (Finset.mem_filter.mpr ⟨StableHlo.devRef_mem_tcRefs main_arg0, by decide⟩)).trans (Gen.V11_main_arg0 m (runOuts m) c),
        (h (Proc.devRef .tc main_arg1) (Finset.mem_filter.mpr ⟨StableHlo.devRef_mem_tcRefs main_arg1, by decide⟩)).trans (Gen.V11_main_arg1 m (runOuts m) c),
        (h (Proc.devRef .tc main_arg2) (Finset.mem_filter.mpr ⟨StableHlo.devRef_mem_tcRefs main_arg2, by decide⟩)).trans (Gen.V11_main_arg2 m (runOuts m) c),
        (h (Proc.devRef .tc main_arg3) (Finset.mem_filter.mpr ⟨StableHlo.devRef_mem_tcRefs main_arg3, by decide⟩)).trans (Gen.V11_main_arg3 m (runOuts m) c)⟩
    · iexact HSI

end Cert.Kernel.Hand

end
-- ==== Proof.R0Runs.lean ====
import proofs.«145460_j4363686773082_1_alg».proof.Proof.Gen.KernelIdeal.Launch
import proofs.«145460_j4363686773082_1_alg».proof.Proof.Gen.KernelIdeal.Skeleton
import proofs.«145460_j4363686773082_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))
/-! # Region 0 (the statistics pass): what its three control cases share

The kernel of region 0 visits the grid (8, 2, 7); along the last axis it accumulates, per (sample, channel),
the sum and the sum of squares of a block of `x` in two scratch accumulators, which it clears at the axis's
first coordinate and copies into the two output windows at its last. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the block of `x` at every point, for any proof data whose
    array is `V`'s and whose body leaves the block in place: the window is fetched at every point, uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first conditional (clear the accumulators): the last grid coordinate is 0. -/
abbrev cond0_0 (i : grid0.Coords) : Prop := (Scalar.cmpi .ne (Scalar.extui (Scalar.cmpi .eq (BitVec.ofNat 32 (i 2).val) 0#32)) 0#32) = 1#1
/-- It holds exactly at the points whose position is 0 modulo 7 (the last axis has extent 7 and varies fastest). -/
theorem hcond0_0 : ∀ t : Fin cfg0.N, cond0_0 (grid0.coords t) ↔ t.val % 7 = 0 :=
  (by decide +kernel : ∀ t : Fin grid0.N, cond0_0 (grid0.coords t) ↔ t.val % 7 = 0)

/-- The second conditional (copy the accumulators out): the last grid coordinate is 6. -/
abbrev cond0_1 (i : grid0.Coords) : Prop := k0_cond2 i = 1#1
/-- It holds exactly at the points whose position is 6 modulo 7. -/
theorem hcond0_1 : ∀ t : Fin cfg0.N, cond0_1 (grid0.coords t) ↔ t.val % 7 = 6 :=
  (by decide +kernel : ∀ t : Fin grid0.N, cond0_1 (grid0.coords t) ↔ t.val % 7 = 6)

/-! ## Where the output windows are idle

Three control cases occur on the grid. A: the first conditional holds, the second does not (position 0 mod 7).
B: neither holds (positions 1 … 5 mod 7). C: the second holds, the first does not (position 6 mod 7). -/

/-- The input window is never idle. -/
theorem liveAt0_0 : ∀ t : Fin cfg0.N, cfg0.idle 0 (grid0.coords t) = false := by decide +kernel
/-- In case A nothing is stored into output window 1, and its block is not written back. -/
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
/-- In case B likewise. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- In case C output window 1 is stored into. -/
theorem liveAt0_1_C : ∀ t : Fin cfg0.N, ¬cond0_0 (grid0.coords t) → cond0_1 (grid0.coords t) → cfg0.idle 1 (grid0.coords t) = false := by decide +kernel
/-- The same three facts for output window 2. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of each output window, through which its contents are stated (which one does not matter:
    a whole buffer read back through its own view). -/
abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S8x128x8x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The two accumulators: whole scoped buffers of the kernel's own, passed beside the windows and carried from
    point to point. -/
abbrev scM0_0 : Memref sig .tc .vmem S8x128 .f32 := Memref.whole cc0_scratch0
abbrev scM0_1 : Memref sig .tc .vmem S8x128 .f32 := Memref.whole cc0_scratch1
/-- The accumulators as views: what they hold is stated through these. -/
abbrev VS0_0 : View sig .tc .vmem S8x128 .f32 := scM0_0.view
abbrev VS0_1 : View sig .tc .vmem S8x128 .f32 := scM0_1.view

/-- The core's scoped buffers that region 0 neither stages through nor accumulates in (the staging buffers of
    the other region), each whole at some contents: region 0 carries them along untouched. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region invariant of the class with the two accumulators as memrefs owned at some contents, the other
    scoped buffers set apart. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

/-! ## The body's run in each control case

Each run is stated on any whole memrefs: the block of `x` at its contents `x0`; the pieces the body's stores leave
in the output windows (`L1`, `L2`) and in the two accumulators (`LS0`, `LS1`), last store first, are the witnesses
the symbolic execution finds. -/

set_option maxHeartbeats 1000000 in
/-- CASE A (last coordinate 0): both accumulators come in at anything, are cleared, then updated with the block's
    row sums (of `x` and of `x·x`); nothing is stored into the output windows, which are handed back as they came
    (`xi1`, `xi2`). -/
noncomputable def kernelRun0_A (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
/-- CASE B (last coordinate 1 … 5): both accumulators come in at what the point before left (`xs0`, `xs1`) and are
    updated with the block's row sums; the output windows are handed back as they came. -/
noncomputable def kernelRun0_B (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare xi1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

set_option maxHeartbeats 1000000 in
/-- CASE C (last coordinate 6): both accumulators come in at what the point before left, are updated with the
    block's row sums, and the updated accumulators are then copied whole into the two output windows, which come
    in at anything. -/
noncomputable def kernelRun0_C (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    Σ' (L1 : List (View.Piece (Elt F) S8x128 .f32)), Σ' (L2 : List (View.Piece (Elt F) S8x128 .f32)), Σ' (LS0 : List (View.Piece (Elt F) S8x128 .f32)), { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.KernelIdeal.Hand

end
-- ==== Proof.R0.lean ====
import proofs.«145460_j4363686773082_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))
/-! # Region 0 (the statistics pass): what the accumulators and the outputs hold, point by point, and the
body obligation

Per control case, the pieces the run found are read back through one fixed view; `outsAt0` threads them along
the grid: (output 1, output 2, accumulator 0, accumulator 1) after the body at position `n`. -/

/-- Case A stores nothing into output 1: no pieces. A placeholder nothing consults, the window being neither
    written back at these points nor read at the next. -/
def out0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VO0_1.read (Elt F) (VO0_1.writes (Elt F) VO0_1.junk (kernelRun0_A c i arg3 harg3 arg4 harg4 arg5 harg5 arg6 harg6 arg7 harg7 hc0 hc1 x0).1)

/-- Case A stores nothing into output 2: no pieces. A placeholder nothing consults, the window being neither
    written back at these points nor read at the next. -/
def out0_A_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VO0_2.read (Elt F) (VO0_2.writes (Elt F) VO0_2.junk (kernelRun0_A c i arg3 harg3 arg4 harg4 arg5 harg5 arg6 harg6 arg7 harg7 hc0 hc1 x0).2.1)

/-- Case A's stores into accumulator 0 are of the whole buffer: its pieces cover it. -/
theorem scover0_A_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) (y : S8x128.Idx) :
    ∃ pc ∈ (kernelRun0_A c i arg3 harg3 arg4 harg4 arg5 harg5 arg6 harg6 arg7 harg7 hc0 hc1 x0).2.2.1, y ∈ pc.1.set :=
  View.cover_of_tiledL (kernelRun0_A c i arg3 harg3 arg4 harg4 arg5 harg5 arg6 harg6 arg7 harg7 hc0 hc1 x0).2.2.1 S8x128.size (by sl_kernel_rfl) y

/-- What case A leaves in accumulator 0: its pieces read back. -/
def sout0_A_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VS0_0.read (Elt F) (VS0_0.writes (Elt F) VS0_0.junk (kernelRun0_A c i arg3 harg3 arg4 harg4 arg5 harg5 arg6 harg6 arg7 harg7 hc0 hc1 x0).2.2.1)

/-- Case A's stores into accumulator 1 are of the whole buffer: its pieces cover it. -/
theorem scover0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) (y : S8x128.Idx) :
    ∃ pc ∈ (kernelRun0_A c i arg3 harg3 arg4 harg4 arg5 harg5 arg6 harg6 arg7 harg7 hc0 hc1 x0).2.2.2.1, y ∈ pc.1.set :=
  View.cover_of_tiledL (kernelRun0_A c i arg3 harg3 arg4 harg4 arg5 harg5 arg6 harg6 arg7 harg7 hc0 hc1 x0).2.2.2.1 S8x128.size (by sl_kernel_rfl) y

/-- What case A leaves in accumulator 1: its pieces read back. -/
def sout0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) : Vec F S8x128 .f32 :=
  VS0_1.read (Elt F) (VS0_1.writes (Elt F) VS0_1.junk (kernelRun0_A c i arg3 harg3 arg4 harg4 arg5 harg5 arg6 harg6 arg7 harg7 hc0 hc1 x0).2.2.2.1)

/-- Case B stores nothing into output 1: no pieces. A placeholder nothing consults, the window being neither
    written back at these points nor read at the next. -/
def out0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VO0_1.read (Elt F) (VO0_1.writes (Elt F) VO0_1.junk (kernelRun0_B c i arg3 harg3 arg4 harg4 arg5 harg5 arg6 harg6 arg7 harg7 hc0 hc1 x0 xs0 xs1).1)

/-- Case B stores nothing into output 2: no pieces. A placeholder nothing consults, the window being neither
    written back at these points nor read at the next. -/
def out0_B_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VO0_2.read (Elt F) (VO0_2.writes (Elt F) VO0_2.junk (kernelRun0_B c i arg3 harg3 arg4 harg4 arg5 harg5 arg6 harg6 arg7 harg7 hc0 hc1 x0 xs0 xs1).2.1)

/-- Case B's stores into accumulator 0 are of the whole buffer: its pieces cover it. -/
theorem scover0_B_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) (y : S8x128.Idx) :
    ∃ pc ∈ (kernelRun0_B c i arg3 harg3 arg4 harg4 arg5 harg5 arg6 harg6 arg7 harg7 hc0 hc1 x0 xs0 xs1).2.2.1, y ∈ pc.1.set :=
  View.cover_of_tiledL (kernelRun0_B c i arg3 harg3 arg4 harg4 arg5 harg5 arg6 harg6 arg7 harg7 hc0 hc1 x0 xs0 xs1).2.2.1 S8x128.size (by sl_kernel_rfl) y

/-- What case B leaves in accumulator 0: its pieces read back. -/
def sout0_B_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VS0_0.read (Elt F) (VS0_0.writes (Elt F) VS0_0.junk (kernelRun0_B c i arg3 harg3 arg4 harg4 arg5 harg5 arg6 harg6 arg7 harg7 hc0 hc1 x0 xs0 xs1).2.2.1)

/-- Case B's stores into accumulator 1 are of the whole buffer: its pieces cover it. -/
theorem scover0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) (y : S8x128.Idx) :
    ∃ pc ∈ (kernelRun0_B c i arg3 harg3 arg4 harg4 arg5 harg5 arg6 harg6 arg7 harg7 hc0 hc1 x0 xs0 xs1).2.2.2.1, y ∈ pc.1.set :=
  View.cover_of_tiledL (kernelRun0_B c i arg3 harg3 arg4 harg4 arg5 harg5 arg6 harg6 arg7 harg7 hc0 hc1 x0 xs0 xs1).2.2.2.1 S8x128.size (by sl_kernel_rfl) y

/-- What case B leaves in accumulator 1: its pieces read back. -/
def sout0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) : Vec F S8x128 .f32 :=
  VS0_1.read (Elt F) (VS0_1.writes (Elt F) VS0_1.junk (kernelRun0_B c i arg3 harg3 arg4 harg4 arg5 harg5 arg6 harg6 arg7 harg7 hc0 hc1 x0 xs0 xs1).2.2.2.1)

/-- Case C's one store into output 1 is of the whole block: its pieces cover it. -/
theorem cover0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).1, y ∈ pc.1.set :=
  View.cover_of_tiledL (kernelRun0_C c i arg3 harg3 arg4 harg4 arg5 harg5 arg6 harg6 arg7 harg7 hc0 hc1 x0 xs0 xs1).1 S8x128.size (by sl_kernel_rfl) y

/-- What case C leaves in output 1's staging buffer: its pieces read back. -/
def out0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VO0_1.read (Elt F) (VO0_1.writes (Elt F) VO0_1.junk (kernelRun0_C c i arg3 harg3 arg4 harg4 arg5 harg5 arg6 harg6 arg7 harg7 hc0 hc1 x0 xs0 xs1).1)

/-- Case C's one store into output 2 is of the whole block: its pieces cover it. -/
theorem cover0_C_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.1, y ∈ pc.1.set :=
  View.cover_of_tiledL (kernelRun0_C c i arg3 harg3 arg4 harg4 arg5 harg5 arg6 harg6 arg7 harg7 hc0 hc1 x0 xs0 xs1).2.1 S8x128.size (by sl_kernel_rfl) y

/-- What case C leaves in output 2's staging buffer: its pieces read back. -/
def out0_C_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VO0_2.read (Elt F) (VO0_2.writes (Elt F) VO0_2.junk (kernelRun0_C c i arg3 harg3 arg4 harg4 arg5 harg5 arg6 harg6 arg7 harg7 hc0 hc1 x0 xs0 xs1).2.1)

/-- Case C's stores into accumulator 0 are of the whole buffer: its pieces cover it. -/
theorem scover0_C_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.2.1, y ∈ pc.1.set :=
  View.cover_of_tiledL (kernelRun0_C c i arg3 harg3 arg4 harg4 arg5 harg5 arg6 harg6 arg7 harg7 hc0 hc1 x0 xs0 xs1).2.2.1 S8x128.size (by sl_kernel_rfl) y

/-- What case C leaves in accumulator 0: its pieces read back. -/
def sout0_C_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VS0_0.read (Elt F) (VS0_0.writes (Elt F) VS0_0.junk (kernelRun0_C c i arg3 harg3 arg4 harg4 arg5 harg5 arg6 harg6 arg7 harg7 hc0 hc1 x0 xs0 xs1).2.2.1)

/-- Case C's stores into accumulator 1 are of the whole buffer: its pieces cover it. -/
theorem scover0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) (y : S8x128.Idx) :
    ∃ pc ∈ (kernelRun0_C c i arg3 harg3 arg4 harg4 arg5 harg5 arg6 harg6 arg7 harg7 hc0 hc1 x0 xs0 xs1).2.2.2.1, y ∈ pc.1.set :=
  View.cover_of_tiledL (kernelRun0_C c i arg3 harg3 arg4 harg4 arg5 harg5 arg6 harg6 arg7 harg7 hc0 hc1 x0 xs0 xs1).2.2.2.1 S8x128.size (by sl_kernel_rfl) y

/-- What case C leaves in accumulator 1: its pieces read back. -/
def sout0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) : Vec F S8x128 .f32 :=
  VS0_1.read (Elt F) (VS0_1.writes (Elt F) VS0_1.junk (kernelRun0_C c i arg3 harg3 arg4 harg4 arg5 harg5 arg6 harg6 arg7 harg7 hc0 hc1 x0 xs0 xs1).2.2.2.1)

/-! ## What the outputs and the accumulators hold after each point -/

/-- THE ACCUMULATION. After the body at position `n`: (output 1, output 2, accumulator 0, accumulator 1), by the
    case the position's residue modulo 7 selects, run at the point's memrefs and block of `x`; in cases B and C
    the accumulators come in at what position `n - 1` left. -/
def outsAt0 (c : Dev nD) : (n : ℕ) → n < cfg0.N → Vec F S8x128 .f32 × Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod 7)) (fun h => (by decide : ¬(0 % 7 = 6)) ((hcond0_1 ⟨0, hn⟩).mp h)) (iblk0 V c 0 ⟨0, hn⟩))
  | n + 1, hn =>
    if h0 : (n + 1) % 7 = 0 then
      if h1 : (n + 1) % 7 = 6 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 7 = 6 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 7 = 0) (h1 : ¬t.val % 7 = 6) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left in the accumulators. -/
theorem outsAt0_B (c : Dev nD) (t : Fin cfg0.N) (h0 : ¬t.val % 7 = 0) (h1 : ¬t.val % 7 = 6) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulators. -/
theorem outsAt0_C (c : Dev nD) (t : Fin cfg0.N) (h0 : ¬t.val % 7 = 0) (h1 : t.val % 7 = 6) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant along the grid -/

/-- Before position `n`: at the region's entry the class's invariant (every scoped buffer at anything);
    afterwards the two accumulators at what position `n - 1` left in them, the other scoped buffers at anything,
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- Region 0's proof data on core `c`: the arrays as the region finds them; after the body at point `t` the
    input's buffer at its block of `x` and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block of `x` at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds the block of `x`; the position's residue modulo 7 says which
    case the point is in. The invariant hands the body the two accumulators — at anything at the region's first
    point, else at what the point before left — and takes them back at this point's contents (the stores cover
    them); in cases A and B the output windows are idle and go back as they came, in case C they come in at
    anything and leave at the copied accumulators; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 112 := lt_of_lt_of_eq t.isLt (show cfg0.N = 112 from N_0)
  rw [show (dat0 V c).leavesExact 0 t = owns (c : Thread nD τ) (ms0_0 t) fullShare ((dat0 V c).after 0 t) from by
    unfold Dat.leavesExact; rw [liveAt0_0 t], after0_0]
  by_cases h0 : t.val % 7 = 0
  · have h1 : ¬t.val % 7 = 6 := by omega
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ ((hcond0_0 t).mpr h0) (fun h => h1 ((hcond0_1 t).mp h)) (iblk0 V c 0 t)).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact HR
        iexact Hg
      isplitl [Ho]; · iexact Ho
      isplitl [H0]; · iexact H0
      isplitl [H1]; · iexists _; iexact H1
      iexists _; iexact H2
  · have hz : t.val ≠ 0 := by omega
    by_cases h1 : t.val % 7 = 6
    · rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_1 out0_C_2 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 112 := N_0; omega)

end Cert.KernelIdeal.Hand

end
-- ==== Proof.R1.lean ====
import proofs.«145460_j4363686773082_1_alg».proof.Proof.Gen.KernelIdeal.Launch
import proofs.«145460_j4363686773082_1_alg».proof.Proof.Gen.KernelIdeal.Skeleton
import proofs.«145460_j4363686773082_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-! # The normalising region (pipeline 1) at its entry contents

The second kernel region walks the grid (8,2,7). At a point it reads five blocks whole — the block of the
input tensor, the matching blocks of the per-channel mean and inverse deviation, and the matching halves of
the weight and the bias — and overwrites the whole output block with one value computed from those five.
Nothing else is touched: no scratch, no branch. So the buffer the body leaves for the output window is a
function of the five input blocks alone, and each input buffer is left as it was found. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetches it or not
    (where it is not fetched its block index has not moved since the last fetch), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether the point fetches it or not
    (where it is not fetched its block index has not moved since the last fetch), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether the point fetches it or not
    (where it is not fetched its block index has not moved since the last fetch), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether the point fetches it or not
    (where it is not fetched its block index has not moved since the last fetch), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether the point fetches it or not
    (where it is not fetched its block index has not moved since the last fetch), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_X : Rect S8x128x8x56 := Rect.unit (s := S8x128x8x56) ![0, 0, 0, 0] S8x128x8x56.size inb_S8x128x8x56_S8x128x8x56_0_0_0_0
abbrev r1_C : Rect S8x128 := Rect.unit (s := S8x128) ![0, 0] S8x128.size inb_S8x128_S8x128_0_0
abbrev r1_W : Rect S128 := Rect.unit (s := S128) ![0] S128.size inb_S128_S128_0

/-! ## What the body leaves in the output window's buffer -/

/-- The output buffer after the body, from the five input blocks: its one store, of the value computed from
    what the five loads read. -/
def out1_5 (x0 : Vec F S8x128x8x56 .f32) (x1 x2 : Vec F S8x128 .f32) (x3 x4 : Vec F S128 .f32) : Vec F S8x128x8x56 .f32 :=
  View.canon [⟨r1_X, k1_pay1 (View.ld x0 r1_X) (View.ld x1 r1_C) (View.ld x2 r1_C) (View.ld x3 r1_W) (View.ld x4 r1_W)⟩]

/-- The one store is of the whole buffer, so it covers it. -/
theorem cover1_5 (p0 : Vec F S8x128x8x56 .f32) (y : S8x128x8x56.Idx) :
    ∃ pc ∈ ([⟨r1_X, p0⟩] : List (View.Piece (Elt F) S8x128x8x56 .f32)), y ∈ pc.1.set :=
  View.cover_of_tiled [⟨r1_X, p0⟩] S8x128x8x56.size (by rfl) y

/-! ## The body's triple -/

set_option maxHeartbeats 1000000 in
/-- The body on whole buffers — the five inputs' at contents `x0 … x4`, the output's at anything — runs to a
    continuation that holds the inputs' as they were and the output's at `out1_5` of them: five whole loads, a
    load of the output buffer whose value is not used, and one whole store. -/
theorem sound_kernel1 (c : Dev nD) (E : Set ℕ) (i : grid1.Coords)
    (arg3 : Memref sig .tc .vmem S8x128x8x56 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S128 .f32) (harg6 : arg6.IsWhole)
    (arg7 : Memref sig .tc .vmem S128 .f32) (harg7 : arg7.IsWhole) (arg8 : Memref sig .tc .vmem S8x128x8x56 .f32) (harg8 : arg8.IsWhole)
    (x0 : Vec F S8x128x8x56 .f32) (x1 x2 : Vec F S8x128 .f32) (x3 x4 : Vec F S128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out1_5 x0 x1 x2 x3 x4)) -∗ K ⟨⟩))
      ⊢ wp frame (wpE (defs₀ (F := F)) Variants.none c none) E (cc1__norm_kernel i arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the five input blocks; the invariant says
    only that the scoped rest and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output buffer's value -/

/-- The whole-buffer accesses sit at offset zero on every axis. -/
theorem hz1_X : (![0, 0, 0, 0] : Fin 4 → Nat) = fun _ => 0 := funext fun a => by fin_cases a <;> rfl
theorem hz1_C : (![0, 0] : Fin 2 → Nat) = fun _ => 0 := funext fun a => by fin_cases a <;> rfl
theorem hz1_W : (![0] : Fin 1 → Nat) = fun _ => 0 := funext fun a => by fin_cases a <;> rfl

/-- A whole load reads the buffer and a whole store leaves its value, so what the body leaves in the output
    buffer is the computed value of the five input blocks themselves. -/
theorem out1_5_eq (x0 : Vec F S8x128x8x56 .f32) (x1 x2 : Vec F S8x128 .f32) (x3 x4 : Vec F S128 .f32) :
    out1_5 x0 x1 x2 x3 x4 = k1_pay1 x0 x1 x2 x3 x4 := by
  unfold out1_5
  rw [View.canon_unit_zero hz1_X]
  simp only [View.ld_unit_zero (S := S8x128x8x56) hz1_X, View.ld_unit_zero (S := S8x128) hz1_C,
    View.ld_unit_zero (S := S128) hz1_W]

end Cert.KernelIdeal.Hand

end
-- ==== Proof.Run.lean ====
import proofs.«145460_j4363686773082_1_alg».proof.Proof.Gen.KernelIdeal.Launch
import proofs.«145460_j4363686773082_1_alg».proof.Proof.Gen.KernelIdeal.Skeleton
import proofs.«145460_j4363686773082_1_alg».proof.Proof.Gen.KernelIdeal.Points
import proofs.«145460_j4363686773082_1_alg».proof.Proof.Gen.KernelIdeal.Regions
import proofs.«145460_j4363686773082_1_alg».proof.Proof.R0
import proofs.«145460_j4363686773082_1_alg».proof.Proof.R1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents between the items of @main

The launch memory `m` is carried through the eight host stretches that compute the channel→group table (the
generated valuations `Gen.V1 … Gen.V8`); the statistics region then leaves its two output arrays at what its
write-backs fold to and every other buffer as it found it; the host stretch `hostOps1` computes the per-channel mean
and inverse deviation from those; the normalisation region leaves its output array at what its write-backs fold to. -/

variable (m : (ℓ : Loc nD τ sig) → Buf (Elt F) ℓ)

/-- Region 0's entry contents, read at the TensorCore's references. -/
abbrev Vr0 : (c : Dev nD) → (b : Ref sig .tc) → Buf (Elt F) ((c : Thread nD τ).loc b) := fun c b => Gen.V8 m c b

/-- Region 0's exit contents: its arrays at what the pipeline leaves (the input as entered, each output's write-backs
    folded), every other buffer as entered. -/
def W9 (c : Dev nD) : Valuation τ sig (Elt F) :=
  Pipeline.withArrays spec0 c (Gen.V8 m c) fun w => (dat0 (Vr0 m) c).arrAt w cfg0.N

theorem W9_arr (c : Dev nD) (w : Fin cfg0.W) :
    W9 m c (Proc.devRef .tc (Pipeline.arrRef spec0 w)) = (dat0 (Vr0 m) c).arrAt w cfg0.N := by
  unfold W9; exact Pipeline.withArrays_arr spec0 launch0.win.arr_inj c _ _ w

theorem W9_v18_0 (c : Dev nD) : W9 m c (Proc.devRef .tc main_v18_0) = (dat0 (Vr0 m) c).arrAt 1 cfg0.N := W9_arr m c 1
theorem W9_v18_1 (c : Dev nD) : W9 m c (Proc.devRef .tc main_v18_1) = (dat0 (Vr0 m) c).arrAt 2 cfg0.N := W9_arr m c 2

/-- The input array of region 0 is never written: the fold of its write-backs is its entry contents. -/
theorem W9_arg0 (c : Dev nD) : W9 m c (Proc.devRef .tc main_arg0) = Gen.V8 m c (Proc.devRef .tc main_arg0) :=
  (W9_arr m c 0).trans (((dat0 (Vr0 m) c).arrAt_in 0 rfl _).trans (A_eq0 (Vr0 m) c 0))

/-- Off the two output arrays region 0 leaves every buffer as it found it. -/
theorem W9_of_ne (c : Dev nD) (b : Ref sig .tc) (h0 : b ≠ main_v18_0) (h1 : b ≠ main_v18_1) :
    W9 m c (Proc.devRef .tc b) = Gen.V8 m c (Proc.devRef .tc b) := by
  by_cases ha : b = main_arg0
  · subst ha; exact W9_arg0 m c
  · unfold W9
    refine Pipeline.withArrays_of_ne spec0 c _ _ b fun w => ?_
    match w with
    | ⟨0, _⟩ => exact fun e => ha e.symm
    | ⟨1, _⟩ => exact fun e => h0 e.symm
    | ⟨2, _⟩ => exact fun e => h1 e.symm

/-- Region 0's exit contents read at the TensorCore's references. -/
abbrev Vx0 : (c : Dev nD) → (b : Ref sig .tc) → Buf (Elt F) ((c : Thread nD τ).loc b) := fun c b => W9 m c b

/-- Region 1's entry contents: the host stretch `hostOps1` run from region 0's exit contents. -/
abbrev Vr1 : (c : Dev nD) → (b : Ref sig .tc) → Buf (Elt F) ((c : Thread nD τ).loc b) := fun c b => StableHlo.after hostOps1 (W9 m c) b

/-- Region 1's exit contents: its arrays at what the pipeline leaves, every other buffer as entered. -/
def W11 (c : Dev nD) : Valuation τ sig (Elt F) :=
  Pipeline.withArrays spec1 c (StableHlo.after hostOps1 (W9 m c)) fun w => (dat1 (Vr1 m) c).arrAt w cfg1.N

theorem W11_arr (c : Dev nD) (w : Fin cfg1.W) :
    W11 m c (Proc.devRef .tc (Pipeline.arrRef spec1 w)) = (dat1 (Vr1 m) c).arrAt w cfg1.N := by
  unfold W11; exact Pipeline.withArrays_arr spec1 launch1.win.arr_inj c _ _ w

theorem W11_v58 (c : Dev nD) : W11 m c (Proc.devRef .tc main_v58) = (dat1 (Vr1 m) c).arrAt 5 cfg1.N := W11_arr m c 5

/-- Region 1's exit contents read at the TensorCore's references. -/
abbrev Vx1 : (c : Dev nD) → (b : Ref sig .tc) → Buf (Elt F) ((c : Thread nD τ).loc b) := fun c b => W11 m c b

/-! ## The arguments are never written -/

theorem Vr0_arg0 (c : Dev nD) : Vr0 m c main_arg0 = m ((c.tc : Thread nD τ).loc main_arg0) :=
  (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem Vr0_arg1 (c : Dev nD) : Vr0 m c main_arg1 = m ((c.tc : Thread nD τ).loc main_arg1) :=
  (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem Vr0_arg2 (c : Dev nD) : Vr0 m c main_arg2 = m ((c.tc : Thread nD τ).loc main_arg2) :=
  (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl

/-- Neither `hostOps1` nor region 0 writes an argument. -/
theorem Vr1_arg0 (c : Dev nD) : Vr1 m c main_arg0 = m ((c.tc : Thread nD τ).loc main_arg0) :=
  (StableHlo.after_of_writes_sub hostOps1 _ Gen.hostOps1_writes (by decide)).trans <|
    (W9_of_ne m c main_arg0 (by decide) (by decide)).trans (Vr0_arg0 m c)
theorem Vr1_arg1 (c : Dev nD) : Vr1 m c main_arg1 = m ((c.tc : Thread nD τ).loc main_arg1) :=
  (StableHlo.after_of_writes_sub hostOps1 _ Gen.hostOps1_writes (by decide)).trans <|
    (W9_of_ne m c main_arg1 (by decide) (by decide)).trans (Vr0_arg1 m c)
theorem Vr1_arg2 (c : Dev nD) : Vr1 m c main_arg2 = m ((c.tc : Thread nD τ).loc main_arg2) :=
  (StableHlo.after_of_writes_sub hostOps1 _ Gen.hostOps1_writes (by decide)).trans <|
    (W9_of_ne m c main_arg2 (by decide) (by decide)).trans (Vr0_arg2 m c)

/-! ## The contents the regions leave, as the generated valuations' unknowns -/

/-- What the regions leave in the buffers they may change: up to item 9 region 0's exit contents, after it
    region 1's. -/
def runOuts : Gen.Outs (F := F) := fun J r c => if J ≤ 9 then W9 m c r else W11 m c r

/-- The generated valuation after region 0 is region 0's exit contents: the two updated buffers by definition,
    the input array because it is never written, every other buffer because the region bypasses it. -/
theorem V9_eq (c : Dev nD) : Gen.V9 m (runOuts m) c = W9 m c := by
  funext b
  by_cases h1 : b = Proc.devRef .tc main_v18_1
  · subst h1
    exact Function.update_self ..
  · refine (Function.update_of_ne h1 ..).trans ?_
    by_cases h0 : b = Proc.devRef .tc main_v18_0
    · subst h0
      exact Function.update_self ..
    · refine (Function.update_of_ne h0 ..).trans ?_
      by_cases h : ∃ w, Proc.devRef .tc (Pipeline.arrRef spec0 w) = b
      · obtain ⟨w, rfl⟩ := h
        match w with
        | ⟨0, _⟩ => exact (W9_arg0 m c).symm
        | ⟨1, _⟩ => exact absurd rfl h0
        | ⟨2, _⟩ => exact absurd rfl h1
      · unfold W9 Pipeline.withArrays
        rw [dif_neg h]

/-- The generated valuation before region 1 is `hostOps1` run from region 0's exit contents. -/
theorem V10_eq (c : Dev nD) : Gen.V10 m (runOuts m) c = StableHlo.after hostOps1 (W9 m c) :=
  congrArg (StableHlo.after hostOps1) (V9_eq m c)

/-- The generated valuation after region 1 is region 1's exit contents: the updated buffer by definition, the
    five input arrays because they are never written, every other buffer because the region bypasses it. -/
theorem V11_eq (c : Dev nD) : Gen.V11 m (runOuts m) c = W11 m c := by
  funext b
  by_cases h1 : b = Proc.devRef .tc main_v58
  · subst h1
    exact Function.update_self ..
  · refine (Function.update_of_ne h1 ..).trans ?_
    rw [V10_eq]
    by_cases h : ∃ w, Proc.devRef .tc (Pipeline.arrRef spec1 w) = b
    · obtain ⟨w, rfl⟩ := h
      refine Eq.symm ((W11_arr m c w).trans ?_)
      match w with
      | ⟨0, _⟩ => exact ((dat1 (Vr1 m) c).arrAt_in 0 rfl _).trans (A_eq1 (Vr1 m) c 0)
      | ⟨1, _⟩ => exact ((dat1 (Vr1 m) c).arrAt_in 1 rfl _).trans (A_eq1 (Vr1 m) c 1)
      | ⟨2, _⟩ => exact ((dat1 (Vr1 m) c).arrAt_in 2 rfl _).trans (A_eq1 (Vr1 m) c 2)
      | ⟨3, _⟩ => exact ((dat1 (Vr1 m) c).arrAt_in 3 rfl _).trans (A_eq1 (Vr1 m) c 3)
      | ⟨4, _⟩ => exact ((dat1 (Vr1 m) c).arrAt_in 4 rfl _).trans (A_eq1 (Vr1 m) c 4)
      | ⟨5, _⟩ => exact absurd rfl h1
    · unfold W11 Pipeline.withArrays
      rw [dif_neg h]

/-- At region 0's exit each of its arrays holds what the pipeline leaves and every other buffer what it held at entry. -/
theorem hF0 (c : Dev nD) (w : Fin cfg0.W) : (dat0 (Vr0 m) c).arrAt w cfg0.N = Vx0 m c (Pipeline.arrRef spec0 w) :=
  (W9_arr m c w).symm
theorem W9_off (c : Dev nD) (b : Ref sig .tc) (hb : ∀ w, Pipeline.arrRef spec0 w ≠ b) :
    W9 m c (Proc.devRef .tc b) = Gen.V8 m c (Proc.devRef .tc b) := by
  unfold W9; exact Pipeline.withArrays_of_ne spec0 c _ _ b hb
theorem hrest0 (c : Dev nD) : ∀ b, b ∉ Finset.univ.image (Pipeline.arrRef spec0) → Vx0 m c b = Vr0 m c b :=
  fun b hb => W9_off m c b fun w e => hb (Finset.mem_image.mpr ⟨w, Finset.mem_univ _, e⟩)
/-- The same of region 1. -/
theorem hF1 (c : Dev nD) (w : Fin cfg1.W) : (dat1 (Vr1 m) c).arrAt w cfg1.N = Vx1 m c (Pipeline.arrRef spec1 w) :=
  (W11_arr m c w).symm
theorem W11_off (c : Dev nD) (b : Ref sig .tc) (hb : ∀ w, Pipeline.arrRef spec1 w ≠ b) :
    W11 m c (Proc.devRef .tc b) = StableHlo.after hostOps1 (W9 m c) (Proc.devRef .tc b) := by
  unfold W11; exact Pipeline.withArrays_of_ne spec1 c _ _ b hb
theorem hrest1 (c : Dev nD) : ∀ b, b ∉ Finset.univ.image (Pipeline.arrRef spec1) → Vx1 m c b = Vr1 m c b :=
  fun b hb => W11_off m c b fun w e => hb (Finset.mem_image.mpr ⟨w, Finset.mem_univ _, e⟩)

/-! # The launch: the proof data family, the rest state, the two regions as segments -/

/-- Every pipeline's proof data, each at its region's entry contents — a literal `match`, so that the pinned
    configuration at a numeral reduces to the printed one. -/
def runPdats : (p : Fin 2) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c

abbrev run𝒱 : Variants := Variants.none
/-- No core owes another anything: no level is assigned. -/
abbrev runL : GSem nD τ sig → Finset Unit := fun _ => ∅
abbrev runLv : GSem nD τ sig → Unit → ℕ := fun _ _ => 0

/-- What rides beside the buffers through every item: the core's generator register at some state (a region's
    invariant takes it in and gives it back) and the core owing nothing. -/
abbrev runRest (c : Dev nD) : sProp 𝕄 :=
  iprop((∃ r, prngReg c r) ∗ ∃ W, owes (c : Thread nD τ) (0 : CellTallies nD τ sig Unit) W)

/-- The rest state is the same between any two items. -/
abbrev runE : Fin 3 → Dev nD → sProp 𝕄 := fun _ c => runRest (F := F) c

theorem q_eq0 (c : Dev nD) (w : Fin cfg0.W) : (dat0 (Vr0 m) c).q w = fullShare := by dsimp only [dat0]
theorem q_eq1 (c : Dev nD) (w : Fin cfg1.W) : (dat1 (Vr1 m) c).q w = fullShare := by dsimp only [dat1]
theorem owed_eq0 (c : Dev nD) (t : Fin (cfg0.N + 1)) : (dat0 (Vr0 m) c).owed t = 0 := by dsimp only [dat0]
theorem owed_eq1 (c : Dev nD) (t : Fin (cfg1.N + 1)) : (dat1 (Vr1 m) c).owed t = 0 := by dsimp only [dat1]

set_option backward.isDefEq.respectTransparency.types false in
/-- REGION 0 (the statistics kernel) over the thread state: entered from every unscoped buffer at `Gen.V8`, left at
    `W9`. Its arrays are split out of the unscoped buffers and put back at the exit contents; the generator register
    and the kernel's scratch enter the tracked invariant through the class invariant (`hin0`) and come back out of it
    (`hout0`); nothing owed; no semaphore of the kernel's own. -/
def runReg0 : Pipeline.RegionSeg (pcfgs (F := F)) Gen.adm (runPdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ runL runLv 0 fun c t => owed_eq0 m c t
  pre c := iprop(StableHlo.held (c : Thread nD τ) (Pipeline.ucRefs τ sig) (Gen.V8 m c) ∗ runRest c)
  post c := iprop(StableHlo.held (c : Thread nD τ) (Pipeline.ucRefs τ sig) (W9 m c) ∗ runRest c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (runPdats m) launch0.win launch0.arr_whole c
      ((runPdats m 0 c).share_full fun w => q_eq0 m c w) (Vr0 m c) fun w => A_eq0 (Vr0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (runPdats m) ((runPdats m 0 c).share_full fun w => q_eq0 m c w)
      (Vr0 m c) (Vx0 m c) ((runPdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the normalisation kernel) over the thread state: entered from every unscoped buffer at `hostOps1` run
    from `W9`, left at `W11`. Its invariant is the class invariant itself. -/
def runReg1 : Pipeline.RegionSeg (pcfgs (F := F)) Gen.adm (runPdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ runL runLv 1 fun c t => owed_eq1 m c t
  pre c := iprop(StableHlo.held (c : Thread nD τ) (Pipeline.ucRefs τ sig) (StableHlo.after hostOps1 (W9 m c)) ∗ runRest c)
  post c := iprop(StableHlo.held (c : Thread nD τ) (Pipeline.ucRefs τ sig) (W11 m c) ∗ runRest c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) Gen.adm (runPdats m) launch1.win launch1.arr_whole c
      ((runPdats m 1 c).share_full fun w => q_eq1 m c w) (Vr1 m c) fun w => A_eq1 (Vr1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runPdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (runPdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (runPdats m) ((runPdats m 1 c).share_full fun w => q_eq1 m c w)
      (Vr1 m c) (Vx1 m c) ((runPdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch's hypotheses, stated once -/

variable (ρ : Dev nD → PrngReg)

/-- The launch element: the pipeline library's at every pipeline's staging cells. -/
abbrev runU₀ : UR sig nD τ := initOf (Pipeline.cells cfgs cellOf_inj) (Pipeline.launchToks cfgs cellOf_inj)

/-- No ghost resource of our own beside the library's. -/
abbrev runG : Dev nD → sProp 𝕄 := fun _ => iprop(emp)

theorem run_hu₀ : (ownU runU₀ : sProp 𝕄)
    ⊢ |={Set.univ}=> iprop(BI.own (emb₁ (initOf (Pipeline.cells cfgs cellOf_inj) (Pipeline.launchToks cfgs cellOf_inj))) ∗ bigSep Finset.univ (runG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: the generator register at its launch
    state, the core owing nothing. -/
theorem run_hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ runG (F := F) c)) ∗ levAts runL runLv)
    ⊢ (|={Set.univ}=> bigSep Finset.univ (runE (F := F) 0) : sProp 𝕄) := by
  refine Pipeline.initEach runL runLv fun c => ?_
  iintro ⟨⟨-, HO, -, Hp, -⟩, -⟩
  imodintro
  isplitl [Hp]; · iexists _; iexact Hp
  iexists ∅; iexact HO

theorem run_hE2 (c : Dev nD) : runE (F := F) 2 c ⊢ (iprop(∃ W, owes (c : Thread nD τ) (0 : CellTallies nD τ sig Unit) W) : sProp 𝕄) := by
  iintro ⟨-, H⟩; iexact H

theorem run_hpre0 (c : Dev nD) : iprop(StableHlo.held (c : Thread nD τ) (Pipeline.ucRefs τ sig) (Gen.V8 m c) ∗ runE 0 c) ⊢ (runReg0 m).pre c := .rfl
theorem run_hpost0 (c : Dev nD) : (runReg0 m).post c ⊢ iprop(StableHlo.held (c : Thread nD τ) (Pipeline.ucRefs τ sig) (Gen.V9 m (runOuts m) c) ∗ runE 1 c) := by
  rw [V9_eq]; exact .rfl
theorem run_hpre1 (c : Dev nD) : iprop(StableHlo.held (c : Thread nD τ) (Pipeline.ucRefs τ sig) (Gen.V10 m (runOuts m) c) ∗ runE 1 c) ⊢ (runReg1 m).pre c := by
  rw [V10_eq]; exact .rfl
theorem run_hpost1 (c : Dev nD) : (runReg1 m).post c ⊢ iprop(StableHlo.held (c : Thread nD τ) (Pipeline.ucRefs τ sig) (Gen.V11 m (runOuts m) c) ∗ runE 2 c) := by
  rw [V11_eq]; exact .rfl

/-! # The frame and the value run -/

set_option backward.isDefEq.respectTransparency.types false in
/-- THE FRAME: from any memory with zero counters every weakly fair execution of @main terminates and every final
    memory holds each argument array as launched — the generated conditional frame at the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () run𝒱 runL runLv (fun _ _ => rfl) ρ (runOuts m) (runPdats m) 0 runG runU₀ run_hu₀ runE (run_hE0 ρ) run_hE2
    (runReg0 m) (run_hpre0 m) (run_hpost0 m) (runReg1 m) (run_hpre1 m) (run_hpost1 m)

set_option backward.isDefEq.respectTransparency.types false in
/-- THE VALUE RUN: the same launch, the result array read off the last valuation as well — every final memory holds in
    `main_v58` what the normalisation region's write-backs fold to, and each argument array as launched. -/
theorem run_main : θ_run defs (onTc (τ := τ) (main (F := F))) ⟨m, fun _ => 0, ρ⟩ (fun r => ∀ c : Dev nD,
      r.2.mem ((c.tc : Thread nD τ).loc main_v58) = (dat1 (Vr1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (runPdats m) () cellOf_inj emb₁ defs₀ run𝒱 runL runLv m ρ main
    (Gen.segs m (runOuts m) run𝒱 runL runLv runE () (runPdats m) (runReg0 m) (runReg1 m))
    (fun c Q => by
      rewrite [main_chain c, Pipeline.Seg.run_eq_chain,
        show (Gen.segs m (runOuts m) run𝒱 runL runLv runE () (runPdats m) (runReg0 m) (runReg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide) 0 (fun _ _ => rfl) runG runU₀ run_hu₀
    (T₀ := fun c => iprop(StableHlo.held (c : Thread nD τ) (Pipeline.ucRefs τ sig) (Gen.V0 m c) ∗ runE 0 c))
    (Tₙ := fun c => StableHlo.held (c : Thread nD τ) (Pipeline.ucRefs τ sig) (Gen.V11 m (runOuts m) c))
    (hch := fun c => ⟨.rfl, .rfl, .rfl, .rfl, .rfl, .rfl, .rfl, .rfl, run_hpre0 m c, run_hpost0 m c, run_hpre1 m c, (run_hpost1 m c).trans (sep_mono .rfl (run_hE2 c))⟩)
    (hinit := ?_) (QY := fun c s => s.mem ((c.tc : Thread nD τ).loc main_v58) = (dat1 (Vr1 m) c).arrAt 5 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes the rest state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ runG (F := F) c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ runG (F := F) c))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hjoin : iprop((bigSep Finset.univ fun c : Dev nD => StableHlo.held (c : Thread nD τ) (Pipeline.ucRefs τ sig) (Gen.V0 m c)) ∗ bigSep Finset.univ (runE (F := F) 0))
        ⊢ (bigSep Finset.univ fun c : Dev nD => iprop(StableHlo.held (c : Thread nD τ) (Pipeline.ucRefs τ sig) (Gen.V0 m c) ∗ runE 0 c) : sProp 𝕄) := by
      exact BIBase.Entails.of_eq (bigSep_sep' Finset.univ (fun c : Dev nD => StableHlo.held (c : Thread nD τ) (Pipeline.ucRefs τ sig) (Gen.V0 m c)) (runE (F := F) 0)).symm
    iintro ⟨H, Hla⟩
    ihave H' := hsplit $$ H
    icases H' with ⟨Hh, Hr⟩
    imod (run_hE0 ρ) $$ [Hr Hla] with HE
    · isplitl [Hr]; · iexact Hr
      iexact Hla
    imodintro
    iapply hjoin
    isplitl [Hh]; · iexact Hh
    iexact HE
  · -- the end: the result array and each argument's buffer read off the last valuation
    unfold StableHlo.held
    iintro ⟨Hh, HSI⟩
    ihave Hr := (pointsTo_read_all (Pipeline.ucRefs τ sig) (fun b => ((c : Thread nD τ).1, b)) (Gen.V11 m (runOuts m) c) s') $$ [Hh HSI]
    · isplitl [Hh] <;> iassumption
    icases Hr with ⟨%h, HSI⟩
    imodintro
    isplitr
    · ipureintro
      exact ⟨(h (Proc.devRef .tc main_v58) (Finset.mem_filter.mpr ⟨StableHlo.devRef_mem_tcRefs main_v58, by decide⟩)).trans ((congrFun (V11_eq m c) _).trans (W11_v58 m c)),
        (h (Proc.devRef .tc main_arg0) (Finset.mem_filter.mpr ⟨StableHlo.devRef_mem_tcRefs main_arg0, by decide⟩)).trans (Gen.V11_main_arg0 m (runOuts m) c),
        (h (Proc.devRef .tc main_arg1) (Finset.mem_filter.mpr ⟨StableHlo.devRef_mem_tcRefs main_arg1, by decide⟩)).trans (Gen.V11_main_arg1 m (runOuts m) c),
        (h (Proc.devRef .tc main_arg2) (Finset.mem_filter.mpr ⟨StableHlo.devRef_mem_tcRefs main_arg2, by decide⟩)).trans (Gen.V11_main_arg2 m (runOuts m) c),
        (h (Proc.devRef .tc main_arg3) (Finset.mem_filter.mpr ⟨StableHlo.devRef_mem_tcRefs main_arg3, by decide⟩)).trans (Gen.V11_main_arg3 m (runOuts m) c)⟩
    · iexact HSI

end Cert.KernelIdeal.Hand

end
-- ==== Proof.R0Pieces.lean ====
import proofs.«145460_j4363686773082_1_alg».proof.Proof.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))
/-! # Region 0: each found piece as a payload of the point's block of `x` and of the incoming accumulators

The update payloads are `k0_pay3 x acc` (acc plus the block's sums over its last two axes) and `k0_pay4 x acc`
(the same of `x·x`); the reset payloads `k0_pay1`, `k0_pay2` are the zero vectors. -/

/-- The zero offsets of the whole-buffer rectangles, as constant functions. -/
theorem hz2 : (![0, 0] : Fin 2 → Nat) = fun _ => 0 := funext fun a => by fin_cases a <;> rfl
theorem hz4 : (![0, 0, 0, 0] : Fin 4 → Nat) = fun _ => 0 := funext fun a => by fin_cases a <;> rfl

set_option maxHeartbeats 400000 in
/-- Case A leaves in accumulator 0 the update of the cleared accumulator: the reset's store is overwritten whole by the update's, which read the reset's payload back. -/
theorem piece_sout0_A_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) :
    sout0_A_0 c i arg3 harg3 arg4 harg4 arg5 harg5 arg6 harg6 arg7 harg7 hc0 hc1 x0 = k0_pay3 x0 k0_pay1 := by
  unfold sout0_A_0
  rw [View.read_writes_eq_canon _ _ _ (scover0_A_0 c i arg3 harg3 arg4 harg4 arg5 harg5 arg6 harg6 arg7 harg7 hc0 hc1 x0)]
  unfold kernelRun0_A
  dsimp only
  try sl_unfold_words
  rw [View.canon_cons_unit_zero (S := S8x128) hz2, View.readCov_unit_zero (S := S8x128) _ hz2]
  simp only [View.readAt_eq_ld, harg3.read_unread, harg6.read_unread, harg7.read_unread, View.ld_unit_zero (S := S8x128x8x56) hz4, View.ld_unit_zero (S := S8x128) hz2]

set_option maxHeartbeats 400000 in
/-- Case A leaves in accumulator 1 the update of the cleared accumulator. -/
theorem piece_sout0_A_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S8x128x8x56 .f32) :
    sout0_A_1 c i arg3 harg3 arg4 harg4 arg5 harg5 arg6 harg6 arg7 harg7 hc0 hc1 x0 = k0_pay4 x0 k0_pay2 := by
  unfold sout0_A_1
  rw [View.read_writes_eq_canon _ _ _ (scover0_A_1 c i arg3 harg3 arg4 harg4 arg5 harg5 arg6 harg6 arg7 harg7 hc0 hc1 x0)]
  unfold kernelRun0_A
  dsimp only
  try sl_unfold_words
  rw [View.canon_cons_unit_zero (S := S8x128) hz2, View.readCov_unit_zero (S := S8x128) _ hz2]
  simp only [View.readAt_eq_ld, harg3.read_unread, harg6.read_unread, harg7.read_unread, View.ld_unit_zero (S := S8x128x8x56) hz4, View.ld_unit_zero (S := S8x128) hz2]

set_option maxHeartbeats 400000 in
/-- Case B leaves in accumulator 0 the update of what it held. -/
theorem piece_sout0_B_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) :
    sout0_B_0 c i arg3 harg3 arg4 harg4 arg5 harg5 arg6 harg6 arg7 harg7 hc0 hc1 x0 xs0 xs1 = k0_pay3 x0 xs0 := by
  unfold sout0_B_0
  rw [View.read_writes_eq_canon _ _ _ (scover0_B_0 c i arg3 harg3 arg4 harg4 arg5 harg5 arg6 harg6 arg7 harg7 hc0 hc1 x0 xs0 xs1)]
  unfold kernelRun0_B
  dsimp only
  try sl_unfold_words
  rw [View.canon_unit_zero (S := S8x128) hz2]
  simp only [View.readAt_eq_ld, harg3.read_unread, harg6.read_unread, harg7.read_unread, View.ld_unit_zero (S := S8x128x8x56) hz4, View.ld_unit_zero (S := S8x128) hz2]

set_option maxHeartbeats 400000 in
/-- Case B leaves in accumulator 1 the update of what it held. -/
theorem piece_sout0_B_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S8x128x8x56 .f32) (xs0 xs1 : Vec F S8x128 .f32) :
    sout0_B_1 c i arg3 harg3 arg4 harg4 arg5 harg5 arg6 harg6 arg7 harg7 hc0 hc1 x0 xs0 xs1 = k0_pay4 x0 xs1 := by
  unfold sout0_B_1
  rw [View.read_writes_eq_canon _ _ _ (scover0_B_1 c i arg3 harg3 arg4 harg4 arg5 harg5 arg6 harg6 arg7 harg7 hc0 hc1 x0 xs0 xs1)]
  unfold kernelRun0_B
  dsimp only
  try sl_unfold_words
  rw [View.canon_unit_zero (S := S8x128) hz2]
  simp only [View.readAt_eq_ld, harg3.read_unread, harg6.read_unread, harg7.read_unread, View.ld_unit_zero (S := S8x128x8x56) hz4, View.ld_unit_zero (S := S8x128) hz2]

set_option maxHeartbeats 400000 in
/-- Case C stores into output 1 the UPDATED accumulator 0: the copy loads what the update's store just left. -/
theorem piece_out0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    out0_C_1 c i arg3 harg3 arg4 harg4 arg5 harg5 arg6 harg6 arg7 harg7 hc0 hc1 x0 xs0 xs1 = k0_pay3 x0 xs0 := by
  unfold out0_C_1
  rw [View.read_writes_eq_canon _ _ _ (cover0_C_1 c i arg3 harg3 arg4 harg4 arg5 harg5 arg6 harg6 arg7 harg7 hc0 hc1 x0 xs0 xs1)]
  unfold kernelRun0_C
  dsimp only
  try sl_unfold_words
  rw [View.canon_unit_zero (S := S8x128) hz2, View.readCov_unit_zero (S := S8x128) _ hz2]
  simp only [View.readAt_eq_ld, harg3.read_unread, harg6.read_unread, harg7.read_unread, View.ld_unit_zero (S := S8x128x8x56) hz4, View.ld_unit_zero (S := S8x128) hz2]

set_option maxHeartbeats 400000 in
/-- Case C stores into output 2 the updated accumulator 1. -/
theorem piece_out0_C_2 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    out0_C_2 c i arg3 harg3 arg4 harg4 arg5 harg5 arg6 harg6 arg7 harg7 hc0 hc1 x0 xs0 xs1 = k0_pay4 x0 xs1 := by
  unfold out0_C_2
  rw [View.read_writes_eq_canon _ _ _ (cover0_C_2 c i arg3 harg3 arg4 harg4 arg5 harg5 arg6 harg6 arg7 harg7 hc0 hc1 x0 xs0 xs1)]
  unfold kernelRun0_C
  dsimp only
  try sl_unfold_words
  rw [View.canon_unit_zero (S := S8x128) hz2, View.readCov_unit_zero (S := S8x128) _ hz2]
  simp only [View.readAt_eq_ld, harg3.read_unread, harg6.read_unread, harg7.read_unread, View.ld_unit_zero (S := S8x128x8x56) hz4, View.ld_unit_zero (S := S8x128) hz2]

set_option maxHeartbeats 400000 in
/-- Case C leaves in accumulator 0 the update of what it held. -/
theorem piece_sout0_C_0 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    sout0_C_0 c i arg3 harg3 arg4 harg4 arg5 harg5 arg6 harg6 arg7 harg7 hc0 hc1 x0 xs0 xs1 = k0_pay3 x0 xs0 := by
  unfold sout0_C_0
  rw [View.read_writes_eq_canon _ _ _ (scover0_C_0 c i arg3 harg3 arg4 harg4 arg5 harg5 arg6 harg6 arg7 harg7 hc0 hc1 x0 xs0 xs1)]
  unfold kernelRun0_C
  dsimp only
  try sl_unfold_words
  rw [View.canon_unit_zero (S := S8x128) hz2]
  simp only [View.readAt_eq_ld, harg3.read_unread, harg6.read_unread, harg7.read_unread, View.ld_unit_zero (S := S8x128x8x56) hz4, View.ld_unit_zero (S := S8x128) hz2]

set_option maxHeartbeats 400000 in
/-- Case C leaves in accumulator 1 the update of what it held. -/
theorem piece_sout0_C_1 (c : Dev nD) (i : grid0.Coords) (arg3 : Memref sig .tc .vmem S8x128x8x56 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S8x128x8x56 .f32) (xs0 xs1 : Vec F S8x128 .f32) :
    sout0_C_1 c i arg3 harg3 arg4 harg4 arg5 harg5 arg6 harg6 arg7 harg7 hc0 hc1 x0 xs0 xs1 = k0_pay4 x0 xs1 := by
  unfold sout0_C_1
  rw [View.read_writes_eq_canon _ _ _ (scover0_C_1 c i arg3 harg3 arg4 harg4 arg5 harg5 arg6 harg6 arg7 harg7 hc0 hc1 x0 xs0 xs1)]
  unfold kernelRun0_C
  dsimp only
  try sl_unfold_words
  rw [View.canon_unit_zero (S := S8x128) hz2]
  simp only [View.readAt_eq_ld, harg3.read_unread, harg6.read_unread, harg7.read_unread, View.ld_unit_zero (S := S8x128x8x56) hz4, View.ld_unit_zero (S := S8x128) hz2]

end Cert.KernelIdeal.Hand

end
-- ==== Proof.Val0Pure.lean ====
/-
  The arithmetic of the statistics pass, at the extended reals.

  The accumulators' reset value is zero at every index. One update of the sum accumulator adds, at (p, q), the
  sum of the block x[p, q, r, w] over its 8 rows r and 56 lanes w (two single-axis sums: the lanes first, then the
  rows); the update of the sum-of-squares accumulator adds the same sum of x·x. A sum over 56 rows is the sum over
  7 groups of 8 consecutive rows, which is how seven updates make up a full spatial sum.

  The grid is (8, 2, 7), its last axis fastest: position t = (a·2 + b)·7 + k reads the block
  x[8a .. 8a+8, 128b .. 128b+128, 8k .. 8k+8, 0 .. 56]. A quantity that is reset and updated at k = 0 and updated
  at k = 1 … 6 therefore holds, after k = 6, at (p, q) the sum over all 56 × 56 spatial positions of sample 8a + p,
  channel 128b + q. The two output windows' blocks at t are [8a .. 8a+8, 128b .. 128b+128] of the statistics arrays; they
  are written back at k = 6, and those 16 blocks fill the arrays.
-/
import proofs.«145460_j4363686773082_1_alg».proof.Proof.Gen.KernelIdeal.Launch
import proofs.«145460_j4363686773082_1_alg».proof.Proof.Gen.KernelIdeal.Skeleton
import proofs.«145460_j4363686773082_1_alg».proof.Proof.Gen.KernelIdeal.Points
import Idealize.ShloMosaic.PureOps.Ideal.Laws
import Idealize.ShloMosaic.Lib.ValueIdx
import Idealize.ShloMosaic.Lib.Pipeline.Value
import Mathlib.Logic.Equiv.Fin.Basic
import Mathlib.Algebra.BigOperators.Fin
import Mathlib.Algebra.BigOperators.Group.Finset.Basic
import Mathlib.Data.Fintype.BigOperators

set_option maxRecDepth 16384

noncomputable section

open scoped BigOperators

namespace Cert.KernelIdeal.Hand.Val0

open Cert.KernelIdeal Cert.KernelIdeal.Gen
open Idealize.ShloMosaic Idealize.ShloMosaic.TcCoe Idealize.ShloMosaic.ValueIdx
open Idealize.SL.Sem

/-- The reset value of an accumulator is zero everywhere. -/
theorem pay1_apply (p : Fin 8) (q : Fin 128) : k0_pay1 (F := Ideal) (ix2 p q) = 0 := by
  unfold k0_pay1
  rw [shapeCast_self]
  exact Ideal.ofBits_zero_f32

/-- The other accumulator's reset value is zero everywhere too. -/
theorem pay2_apply (p : Fin 8) (q : Fin 128) : k0_pay2 (F := Ideal) (ix2 p q) = 0 := by
  unfold k0_pay2
  rw [shapeCast_self]
  exact Ideal.ofBits_zero_f32

/-- The index over (p, q, r) with lane w inserted on the last axis is (p, q, r, w). -/
theorem lift3 (p : Fin 8) (q : Fin 128) (r : Fin 8) (w : Fin 56) :
    reduces_S8x128x8x56_S8x128x8.lift (ix3 p q r) w = ix4 p q r w := by
  funext a; apply Fin.ext
  match a with
  | ⟨0, _⟩ => rfl
  | ⟨1, _⟩ => rfl
  | ⟨2, _⟩ => rfl
  | ⟨3, _⟩ => rfl

/-- The index over (p, q) with row r inserted on the last axis is (p, q, r). -/
theorem lift2 (p : Fin 8) (q : Fin 128) (r : Fin 8) :
    reduces_S8x128x8_S8x128.lift (ix2 p q) r = ix3 p q r := by
  funext a; apply Fin.ext
  match a with
  | ⟨0, _⟩ => rfl
  | ⟨1, _⟩ => rfl
  | ⟨2, _⟩ => rfl

/-- The lane sum of a block over its last axis, at an index. -/
theorem red3_apply (x : FVec Ideal S8x128x8x56 .f32) (p : Fin 8) (q : Fin 128) (r : Fin 8) :
    multiReduction .add [3] S8x128x8 x 0x00000000#32 reduces_S8x128x8x56_S8x128x8 (.inl rfl) rfl (ix3 p q r)
      = ∑ w : Fin 56, x (ix4 p q r w) := by
  refine (Ideal.multiReduction_add_single x 0x00000000#32 reduces_S8x128x8x56_S8x128x8 (.inl rfl) rfl (ix3 p q r)).trans ?_
  exact Finset.sum_congr rfl fun w _ => congrArg x (lift3 p q r w)

/-- The sum of a [8,128,8] vector over its last axis, at an index. -/
theorem red2_apply (y : FVec Ideal S8x128x8 .f32) (p : Fin 8) (q : Fin 128) :
    multiReduction .add [2] S8x128 y 0x00000000#32 reduces_S8x128x8_S8x128 (.inl rfl) rfl (ix2 p q)
      = ∑ r : Fin 8, y (ix3 p q r) := by
  refine (Ideal.multiReduction_add_single y 0x00000000#32 reduces_S8x128x8_S8x128 (.inl rfl) rfl (ix2 p q)).trans ?_
  exact Finset.sum_congr rfl fun r _ => congrArg y (lift2 p q r)

/-- The updated sum accumulator: what it held plus the block's sum over its rows and lanes. -/
theorem pay3_apply (x : Vec Ideal S8x128x8x56 .f32) (acc : Vec Ideal S8x128 .f32) (p : Fin 8) (q : Fin 128) :
    k0_pay3 x acc (ix2 p q) = acc (ix2 p q) + ∑ r : Fin 8, ∑ w : Fin 56, x (ix4 p q r w) := by
  unfold k0_pay3
  rw [shapeCast_self, addf_apply, red2_apply]
  exact congrArg (acc (ix2 p q) + ·) (Finset.sum_congr rfl fun r _ => red3_apply x p q r)

/-- The updated sum-of-squares accumulator: what it held plus the block's sum of squares over its rows and lanes. -/
theorem pay4_apply (x : Vec Ideal S8x128x8x56 .f32) (acc : Vec Ideal S8x128 .f32) (p : Fin 8) (q : Fin 128) :
    k0_pay4 x acc (ix2 p q) = acc (ix2 p q) + ∑ r : Fin 8, ∑ w : Fin 56, x (ix4 p q r w) * x (ix4 p q r w) := by
  unfold k0_pay4
  rw [shapeCast_self, addf_apply, red2_apply]
  refine congrArg (acc (ix2 p q) + ·) (Finset.sum_congr rfl fun r _ => ?_)
  rw [red3_apply]
  rfl

/-- A sum over 56 rows is the sum over 7 groups of 8 consecutive rows. -/
theorem sum56_split {M : Type*} [AddCommMonoid M] (h : Fin 56 → M) :
    ∑ i : Fin 56, h i = ∑ k : Fin 7, ∑ r : Fin 8, h ⟨8 * k.val + r.val, by omega⟩ := by
  rw [← Equiv.sum_comp (finProdFinEquiv (m := 7) (n := 8)) h, Fintype.sum_prod_type]
  refine Finset.sum_congr rfl fun k _ => Finset.sum_congr rfl fun r _ => congrArg h (Fin.ext ?_)
  show r.val + 8 * k.val = 8 * k.val + r.val
  omega

/-- The grid is (8, 2, 7) with the last axis fastest: at position t the input window's block index is
    (t / 14, t / 7 mod 2, t mod 7, 0). -/
theorem idx_facts0 : ∀ t : Fin cfg0.N, win0_0.index t (0 : Fin 4) = t.val / 14 ∧ win0_0.index t (1 : Fin 4) = t.val / 7 % 2
    ∧ win0_0.index t (2 : Fin 4) = t.val % 7 ∧ win0_0.index t (3 : Fin 4) = 0 :=
  (by decide +kernel : ∀ t : Fin grid0.N, _)

set_option maxHeartbeats 400000 in
/-- The input block at position t, at (p, q, r, w), is the array at (8·(t/14) + p, 128·(t/7 mod 2) + q, 8·(t mod 7) + r, w). -/
theorem blk0_read (A : S64x256x56x56.Idx → EReal) (t : Fin cfg0.N) (p : Fin 8) (q : Fin 128) (r : Fin 8) (w : Fin 56)
    (i : S64x256x56x56.Idx) (h0 : (i 0).val = 8 * (t.val / 14) + p.val) (h1 : (i 1).val = 128 * (t.val / 7 % 2) + q.val)
    (h2 : (i 2).val = 8 * (t.val % 7) + r.val) (h3 : (i 3).val = w.val) :
    (((cfg0.win 0).blk t).view.read (Elt Ideal) A : Vec Ideal S8x128x8x56 .f32) (ix4 p q r w) = A i := by
  obtain ⟨e0, e1, e2, e3⟩ := idx_facts0 t
  rw [View.read_apply]
  show A _ = A i
  congr 1
  funext a
  apply Fin.ext
  match a with
  | ⟨0, _⟩ => show win0_0.index t (0 : Fin 4) * 8 + 1 * p.val = (i 0).val; rw [e0, h0]; omega
  | ⟨1, _⟩ => show win0_0.index t (1 : Fin 4) * 128 + 1 * q.val = (i 1).val; rw [e1, h1]; omega
  | ⟨2, _⟩ => show win0_0.index t (2 : Fin 4) * 8 + 1 * r.val = (i 2).val; rw [e2, h2]; omega
  | ⟨3, _⟩ => show win0_0.index t (3 : Fin 4) * 56 + 1 * w.val = (i 3).val; rw [e3, h3]; omega

/-- The input window's block at position t, read off an array A. -/
abbrev blkOf (A : S64x256x56x56.Idx → EReal) (t : Fin cfg0.N) : Vec Ideal S8x128x8x56 .f32 :=
  ((cfg0.win 0).blk t).view.read (Elt Ideal) A

set_option maxHeartbeats 800000 in
/-- SEVEN UPDATES MAKE A SPATIAL SUM. A quantity carried along the grid that is reset-and-updated at the positions
    0 mod 7 and updated from its predecessor elsewhere, each update adding at (p, q) the sum of φ over the
    position's block of A, holds at a position 6 mod 7 the sum of φ(A) over all 56 × 56 spatial positions of the
    (sample, channel) that (p, q) is in that position's block. -/
theorem fold_sum (A : S64x256x56x56.Idx → EReal) (φ : EReal → EReal)
    (f : (n : ℕ) → n < cfg0.N → Vec Ideal S8x128 .f32)
    (upd : Vec Ideal S8x128x8x56 .f32 → Vec Ideal S8x128 .f32 → Vec Ideal S8x128 .f32) (init : Vec Ideal S8x128 .f32)
    (hupd : ∀ (x : Vec Ideal S8x128x8x56 .f32) (acc : Vec Ideal S8x128 .f32) (p : Fin 8) (q : Fin 128),
      upd x acc (ix2 p q) = acc (ix2 p q) + ∑ r : Fin 8, ∑ w : Fin 56, φ (x (ix4 p q r w)))
    (hinit : ∀ (p : Fin 8) (q : Fin 128), init (ix2 p q) = 0)
    (h0 : ∀ (n : ℕ) (h : n < cfg0.N), n % 7 = 0 → f n h = upd (blkOf A ⟨n, h⟩) init)
    (hs : ∀ (n : ℕ) (h : n + 1 < cfg0.N), ¬(n + 1) % 7 = 0 → f (n + 1) h = upd (blkOf A ⟨n + 1, h⟩) (f n (Nat.lt_of_succ_lt h)))
    (t : Fin cfg0.N) (ht : t.val % 7 = 6) (p : Fin 8) (q : Fin 128)
    (i0 : Fin 64) (i1 : Fin 256) (hi0 : i0.val = 8 * (t.val / 14) + p.val) (hi1 : i1.val = 128 * (t.val / 7 % 2) + q.val) :
    f t.val t.isLt (ix2 p q) = ∑ h : Fin 56, ∑ w : Fin 56, φ (A (ix4 i0 i1 h w)) := by
  have hN : cfg0.N = 112 := N_0
  have htN : t.val < 112 := hN ▸ t.isLt
  have h' : 7 * (t.val / 7) + t.val % 7 < cfg0.N := by rw [Nat.div_add_mod]; exact t.isLt
  rw [Pipeline.eq_accAt_of_mod f 7 (fun n h => upd (blkOf A ⟨n, h⟩) init) (fun n h acc => upd (blkOf A ⟨n, h⟩) acc) h0 hs
    (by decide) t.val t.isLt h']
  -- position n's addend at (p, q): the sum of φ over its block
  let M : ℕ → S8x128.Idx → EReal := fun n j =>
    if h : n < cfg0.N then ∑ r : Fin 8, ∑ w : Fin 56, φ (blkOf A ⟨n, h⟩ (ix4 (n0 := 8) (n1 := 128) (j 0) (j 1) r w)) else 0
  have key := Pipeline.accAt_add_apply (fun n h => upd (blkOf A ⟨n, h⟩) init) (fun n h acc => upd (blkOf A ⟨n, h⟩) acc)
    (fun _ => (0 : EReal)) M (7 * (t.val / 7)) 6
    (fun h j => by
      obtain ⟨p, q, rfl⟩ : ∃ (p : Fin 8) (q : Fin 128), j = ix2 p q := ⟨j 0, j 1, eq_ix2 j⟩
      show upd (blkOf A ⟨_, h⟩) init (ix2 p q) = 0 + (if h : _ < cfg0.N then _ else 0)
      rw [hupd, hinit, dif_pos h])
    (fun n h acc j _ _ => by
      obtain ⟨p, q, rfl⟩ : ∃ (p : Fin 8) (q : Fin 128), j = ix2 p q := ⟨j 0, j 1, eq_ix2 j⟩
      show upd (blkOf A ⟨n, h⟩) acc (ix2 p q) = acc (ix2 p q) + (if h : n < cfg0.N then _ else 0)
      rw [hupd, dif_pos h])
    (t.val % 7) (by omega) h' (ix2 p q)
  rw [key, ht, zero_add, Finset.sum_range, sum56_split]
  refine Finset.sum_congr rfl fun k _ => ?_
  have hk : k.val < 7 := k.isLt
  have hn : 7 * (t.val / 7) + k.val < cfg0.N := lt_of_lt_of_eq (by omega : 7 * (t.val / 7) + k.val < 112) hN.symm
  show (if h : 7 * (t.val / 7) + k.val < cfg0.N then _ else 0) = _
  rw [dif_pos hn]
  refine Finset.sum_congr rfl fun r _ => Finset.sum_congr rfl fun w _ => congrArg φ ?_
  have hr : r.val < 8 := r.isLt
  refine blk0_read A ⟨7 * (t.val / 7) + k.val, hn⟩ p q r w _ ?_ ?_ ?_ rfl
  · show i0.val = 8 * ((7 * (t.val / 7) + k.val) / 14) + p.val; omega
  · show i1.val = 128 * ((7 * (t.val / 7) + k.val) / 7 % 2) + q.val; omega
  · show 8 * k.val + r.val = 8 * ((7 * (t.val / 7) + k.val) % 7) + r.val; omega

/-! ## The two output windows: which block a position writes back, and that the written blocks fill the arrays -/

/-- Both output windows' block index at position t is (t / 14, t / 7 mod 2). -/
theorem idx_facts1 : ∀ t : Fin cfg0.N, win0_1.index t (0 : Fin 2) = t.val / 14 ∧ win0_1.index t (1 : Fin 2) = t.val / 7 % 2 :=
  (by decide +kernel : ∀ t : Fin grid0.N, _)
theorem idx_facts2 : ∀ t : Fin cfg0.N, win0_2.index t (0 : Fin 2) = t.val / 14 ∧ win0_2.index t (1 : Fin 2) = t.val / 7 % 2 :=
  (by decide +kernel : ∀ t : Fin grid0.N, _)

/-- An index of the first statistics array is in position t's block iff each coordinate is in the block's range. -/
theorem mem_blk1 (t : Fin cfg0.N) (i : S64x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v18_0).slice (win0_1.rect t)).set ↔ _
  rw [View.set_slice_whole, Rect.mem_set_unit]
  exact Iff.rfl
/-- The same for the second statistics array. -/
theorem mem_blk2 (t : Fin cfg0.N) (i : S64x256.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v18_1).slice (win0_2.rect t)).set ↔ _
  rw [View.set_slice_whole, Rect.mem_set_unit]
  exact Iff.rfl

/-- Every (sample n, channel c') lies in the block written back at position ((n / 8)·2 + c' / 128)·7 + 6. -/
theorem cover1 (i : S64x256.Idx) : ∃ t : Fin cfg0.N, (cfg0.win 1).flush t = true ∧ i ∈ ((cfg0.win 1).blk t).view.set := by
  have hN : cfg0.N = 112 := N_0
  have hi0 : (i 0).val < 64 := (i 0).isLt
  have hi1 : (i 1).val < 256 := (i 1).isLt
  have ht : ((i 0).val / 8 * 2 + (i 1).val / 128) * 7 + 6 < cfg0.N := lt_of_lt_of_eq (by omega) hN.symm
  refine ⟨⟨_, ht⟩, (flush0_1 _).mpr (by show (((i 0).val / 8 * 2 + (i 1).val / 128) * 7 + 6) % 7 = 6; omega), ?_⟩
  rw [mem_blk1]
  obtain ⟨e0, e1⟩ := idx_facts1 ⟨_, ht⟩
  intro a
  match a with
  | ⟨0, _⟩ =>
    show win0_1.index ⟨_, ht⟩ (0 : Fin 2) * 8 ≤ (i 0).val ∧ (i 0).val < win0_1.index ⟨_, ht⟩ (0 : Fin 2) * 8 + 8
    rw [e0]; show (((i 0).val / 8 * 2 + (i 1).val / 128) * 7 + 6) / 14 * 8 ≤ _ ∧ _ < (((i 0).val / 8 * 2 + (i 1).val / 128) * 7 + 6) / 14 * 8 + 8; omega
  | ⟨1, _⟩ =>
    show win0_1.index ⟨_, ht⟩ (1 : Fin 2) * 128 ≤ (i 1).val ∧ (i 1).val < win0_1.index ⟨_, ht⟩ (1 : Fin 2) * 128 + 128
    rw [e1]; show (((i 0).val / 8 * 2 + (i 1).val / 128) * 7 + 6) / 7 % 2 * 128 ≤ _ ∧ _ < (((i 0).val / 8 * 2 + (i 1).val / 128) * 7 + 6) / 7 % 2 * 128 + 128; omega
theorem cover2 (i : S64x256.Idx) : ∃ t : Fin cfg0.N, (cfg0.win 2).flush t = true ∧ i ∈ ((cfg0.win 2).blk t).view.set := by
  have hN : cfg0.N = 112 := N_0
  have hi0 : (i 0).val < 64 := (i 0).isLt
  have hi1 : (i 1).val < 256 := (i 1).isLt
  have ht : ((i 0).val / 8 * 2 + (i 1).val / 128) * 7 + 6 < cfg0.N := lt_of_lt_of_eq (by omega) hN.symm
  refine ⟨⟨_, ht⟩, (flush0_2 _).mpr (by show (((i 0).val / 8 * 2 + (i 1).val / 128) * 7 + 6) % 7 = 6; omega), ?_⟩
  rw [mem_blk2]
  obtain ⟨e0, e1⟩ := idx_facts2 ⟨_, ht⟩
  intro a
  match a with
  | ⟨0, _⟩ =>
    show win0_2.index ⟨_, ht⟩ (0 : Fin 2) * 8 ≤ (i 0).val ∧ (i 0).val < win0_2.index ⟨_, ht⟩ (0 : Fin 2) * 8 + 8
    rw [e0]; show (((i 0).val / 8 * 2 + (i 1).val / 128) * 7 + 6) / 14 * 8 ≤ _ ∧ _ < (((i 0).val / 8 * 2 + (i 1).val / 128) * 7 + 6) / 14 * 8 + 8; omega
  | ⟨1, _⟩ =>
    show win0_2.index ⟨_, ht⟩ (1 : Fin 2) * 128 ≤ (i 1).val ∧ (i 1).val < win0_2.index ⟨_, ht⟩ (1 : Fin 2) * 128 + 128
    rw [e1]; show (((i 0).val / 8 * 2 + (i 1).val / 128) * 7 + 6) / 7 % 2 * 128 ≤ _ ∧ _ < (((i 0).val / 8 * 2 + (i 1).val / 128) * 7 + 6) / 7 % 2 * 128 + 128; omega

/-- A (sample, channel)-indexed array read through output window 1's block at position t, at (p, q): the array at
    (8·(t/14) + p, 128·(t/7 mod 2) + q). -/
theorem blk1_read (G : S64x256.Idx → EReal) (t : Fin cfg0.N) (p : Fin 8) (q : Fin 128) (i : S64x256.Idx)
    (h0 : (i 0).val = 8 * (t.val / 14) + p.val) (h1 : (i 1).val = 128 * (t.val / 7 % 2) + q.val) :
    (((cfg0.win 1).blk t).view.read (Elt Ideal) G : Vec Ideal S8x128 .f32) (ix2 p q) = G i := by
  obtain ⟨e0, e1⟩ := idx_facts1 t
  rw [View.read_apply]
  show G _ = G i
  congr 1
  funext a
  apply Fin.ext
  match a with
  | ⟨0, _⟩ => show win0_1.index t (0 : Fin 2) * 8 + 1 * p.val = (i 0).val; rw [e0, h0]; omega
  | ⟨1, _⟩ => show win0_1.index t (1 : Fin 2) * 128 + 1 * q.val = (i 1).val; rw [e1, h1]; omega
theorem blk2_read (G : S64x256.Idx → EReal) (t : Fin cfg0.N) (p : Fin 8) (q : Fin 128) (i : S64x256.Idx)
    (h0 : (i 0).val = 8 * (t.val / 14) + p.val) (h1 : (i 1).val = 128 * (t.val / 7 % 2) + q.val) :
    (((cfg0.win 2).blk t).view.read (Elt Ideal) G : Vec Ideal S8x128 .f32) (ix2 p q) = G i := by
  obtain ⟨e0, e1⟩ := idx_facts2 t
  rw [View.read_apply]
  show G _ = G i
  congr 1
  funext a
  apply Fin.ext
  match a with
  | ⟨0, _⟩ => show win0_2.index t (0 : Fin 2) * 8 + 1 * p.val = (i 0).val; rw [e0, h0]; omega
  | ⟨1, _⟩ => show win0_2.index t (1 : Fin 2) * 128 + 1 * q.val = (i 1).val; rw [e1, h1]; omega

end Cert.KernelIdeal.Hand.Val0

end
-- ==== Proof.Spec.lean ====
/-
  The mathematics both programs compute, stated once over the extended reals and over literal shapes.

  For an input x of shape [64, 256, 56, 56]: the per-(sample, channel) sum of x and of x² over the 56 × 56
  spatial positions; and, given per-(sample, channel) statistics mu and iv and per-channel weight and bias,
  the normalised output ((x − mu) · iv) · weight + bias, the statistics and the affine terms broadcast
  over the spatial positions.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![64, 256, 56, 56]⟩
abbrev SC : Shape := ⟨2, ![64, 256]⟩
abbrev SW : Shape := ⟨1, ![256]⟩

/-- The sum of `x n c h w` over all spatial positions `(h, w)`, for each sample `n` and channel `c`. -/
def chSum (x : SX.Idx → EReal) : SC.Idx → EReal :=
  fun j => ∑ h : Fin 56, ∑ w : Fin 56, x (ix4 (n0 := 64) (n1 := 256) (j 0) (j 1) h w)

/-- The sum of `(x n c h w)²` over all spatial positions, for each sample and channel. -/
def chSq (x : SX.Idx → EReal) : SC.Idx → EReal :=
  fun j => ∑ h : Fin 56, ∑ w : Fin 56,
    x (ix4 (n0 := 64) (n1 := 256) (j 0) (j 1) h w) * x (ix4 (n0 := 64) (n1 := 256) (j 0) (j 1) h w)

/-- The normalised, affinely transformed tensor: `((x − mu) · iv) · weight + bias`, with `mu`, `iv` indexed by
    (sample, channel) and `weight`, `bias` by channel. -/
def normOut (x : SX.Idx → EReal) (mu iv : SC.Idx → EReal) (wt bs : SW.Idx → EReal) : SX.Idx → EReal :=
  fun i => (x i - mu (ix2 (n0 := 64) (n1 := 256) (i 0) (i 1))) * iv (ix2 (n0 := 64) (n1 := 256) (i 0) (i 1))
    * wt (ix1 (n := 256) (i 1)) + bs (ix1 (n := 256) (i 1))

end Cert.Spec

end
-- ==== Proof.Val0.lean ====
/-
  What the statistics pass leaves in its two output arrays: for every sample n and channel c, the sum of x[n, c, ·, ·]
  and the sum of x[n, c, ·, ·]² over the 56 × 56 spatial positions.

  Along each run of seven grid positions (a, b, 0 … 6) the first accumulator is cleared and updated at the first
  position and updated from what the position before left at the others, each update adding the sum of the
  position's block of x over its 8 rows and 56 lanes; the second accumulator likewise with squares. At the seventh
  position the updated accumulators are copied into the output windows, whose blocks [8a .. 8a+8, 128b .. 128b+128]
  are written back there; these sixteen blocks fill the two [64, 256] arrays.
-/
import proofs.«145460_j4363686773082_1_alg».proof.Proof.R0Pieces
import proofs.«145460_j4363686773082_1_alg».proof.Proof.Val0Pure
import proofs.«145460_j4363686773082_1_alg».proof.Proof.Spec
import Idealize.ShloMosaic.Lib.Pipeline.Value

set_option maxRecDepth 16384

noncomputable section

open scoped BigOperators

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

-- the TensorCore's buffer contents when the region is entered
variable (V : (c : Dev nD) → (b : Ref sig .tc) → Buf (Elt Ideal) ((c : Thread nD τ).loc b))

/-- The input array x as the region finds it. -/
abbrev X (c : Dev nD) : S64x256x56x56.Idx → EReal := V c main_arg0

/-- The two accumulators after the body at position n. -/
abbrev acc0 (c : Dev nD) (n : ℕ) (h : n < cfg0.N) : Vec Ideal S8x128 .f32 := (outsAt0 V c n h).2.2.1
abbrev acc1 (c : Dev nD) (n : ℕ) (h : n < cfg0.N) : Vec Ideal S8x128 .f32 := (outsAt0 V c n h).2.2.2

/-- The input window's block at a position is that block of x. -/
theorem iblk0_eq (c : Dev nD) (t : Fin cfg0.N) : (iblk0 V c 0 t : Vec Ideal S8x128x8x56 .f32) = blkOf (X V c) t := rfl

/-! ## The accumulators along the grid -/

/-- At a position 0 mod 7 the first accumulator is cleared, then updated with the position's block. -/
theorem acc0_reset (c : Dev nD) (n : ℕ) (h : n < cfg0.N) (hn : n % 7 = 0) :
    acc0 V c n h = k0_pay3 (blkOf (X V c) ⟨n, h⟩) (k0_pay1 (F := Ideal)) := by
  show (outsAt0 V c (⟨n, h⟩ : Fin cfg0.N).val (⟨n, h⟩ : Fin cfg0.N).isLt).2.2.1 = _
  rw [outsAt0_A V c ⟨n, h⟩ hn (by show ¬n % 7 = 6; omega)]
  dsimp only
  rw [piece_sout0_A_0, iblk0_eq]

/-- At every other position it is updated, with the position's block, from what the position before left. -/
theorem acc0_step (c : Dev nD) (n : ℕ) (h : n + 1 < cfg0.N) (hn : ¬(n + 1) % 7 = 0) :
    acc0 V c (n + 1) h = k0_pay3 (blkOf (X V c) ⟨n + 1, h⟩) (acc0 V c n (Nat.lt_of_succ_lt h)) := by
  show (outsAt0 V c (⟨n + 1, h⟩ : Fin cfg0.N).val (⟨n + 1, h⟩ : Fin cfg0.N).isLt).2.2.1 = _
  by_cases h6 : (n + 1) % 7 = 6
  · rw [outsAt0_C V c ⟨n + 1, h⟩ hn h6]
    dsimp only
    rw [piece_sout0_C_0, iblk0_eq]
    rfl
  · rw [outsAt0_B V c ⟨n + 1, h⟩ hn h6]
    dsimp only
    rw [piece_sout0_B_0, iblk0_eq]
    rfl

/-- The second accumulator: the same with the sum-of-squares update. -/
theorem acc1_reset (c : Dev nD) (n : ℕ) (h : n < cfg0.N) (hn : n % 7 = 0) :
    acc1 V c n h = k0_pay4 (blkOf (X V c) ⟨n, h⟩) (k0_pay2 (F := Ideal)) := by
  show (outsAt0 V c (⟨n, h⟩ : Fin cfg0.N).val (⟨n, h⟩ : Fin cfg0.N).isLt).2.2.2 = _
  rw [outsAt0_A V c ⟨n, h⟩ hn (by show ¬n % 7 = 6; omega)]
  dsimp only
  rw [piece_sout0_A_1, iblk0_eq]

theorem acc1_step (c : Dev nD) (n : ℕ) (h : n + 1 < cfg0.N) (hn : ¬(n + 1) % 7 = 0) :
    acc1 V c (n + 1) h = k0_pay4 (blkOf (X V c) ⟨n + 1, h⟩) (acc1 V c n (Nat.lt_of_succ_lt h)) := by
  show (outsAt0 V c (⟨n + 1, h⟩ : Fin cfg0.N).val (⟨n + 1, h⟩ : Fin cfg0.N).isLt).2.2.2 = _
  by_cases h6 : (n + 1) % 7 = 6
  · rw [outsAt0_C V c ⟨n + 1, h⟩ hn h6]
    dsimp only
    rw [piece_sout0_C_1, iblk0_eq]
    rfl
  · rw [outsAt0_B V c ⟨n + 1, h⟩ hn h6]
    dsimp only
    rw [piece_sout0_B_1, iblk0_eq]
    rfl

/-- At a position 6 mod 7 the output windows receive the updated accumulators. -/
theorem out1_eq (c : Dev nD) (t : Fin cfg0.N) (h6 : t.val % 7 = 6) :
    (outsAt0 V c t.val t.isLt).1 = acc0 V c t.val t.isLt := by
  show (outsAt0 V c t.val t.isLt).1 = (outsAt0 V c t.val t.isLt).2.2.1
  rw [outsAt0_C V c t (by omega) h6]
  dsimp only
  rw [piece_out0_C_1, piece_sout0_C_0]

theorem out2_eq (c : Dev nD) (t : Fin cfg0.N) (h6 : t.val % 7 = 6) :
    (outsAt0 V c t.val t.isLt).2.1 = acc1 V c t.val t.isLt := by
  show (outsAt0 V c t.val t.isLt).2.1 = (outsAt0 V c t.val t.isLt).2.2.2
  rw [outsAt0_C V c t (by omega) h6]
  dsimp only
  rw [piece_out0_C_2, piece_sout0_C_1]

/-! ## What a position 6 mod 7 writes back -/

/-- The block written back to the first statistics array is that block of the per-channel sums of x. -/
theorem flushed1_eq (c : Dev nD) (t : Fin cfg0.N) (hf : (cfg0.win 1).flush t = true) :
    (dat0 V c).flushed 1 t = ((cfg0.win 1).blk t).view.read (Elt Ideal) (Cert.Spec.chSum (X V c)) := by
  have h6 : t.val % 7 = 6 := (flush0_1 t).mp hf
  have htN : t.val < 112 := lt_of_lt_of_eq t.isLt N_0
  show (cfg0.win 1).cut (grid0.coords t) ((dat0 V c).after 1 t) = _
  rw [after0_1, out1_eq V c t h6]
  refine funext fun (j : S8x128.Idx) => ?_
  obtain ⟨p, q, rfl⟩ : ∃ (p : Fin 8) (q : Fin 128), j = ix2 p q := ⟨j 0, j 1, eq_ix2 j⟩
  have hp : p.val < 8 := p.isLt
  have hq : q.val < 128 := q.isLt
  refine Eq.trans ?_ (blk1_read (Cert.Spec.chSum (X V c)) t p q
    (ix2 (⟨8 * (t.val / 14) + p.val, by omega⟩ : Fin 64) (⟨128 * (t.val / 7 % 2) + q.val, by omega⟩ : Fin 256)) rfl rfl).symm
  exact fold_sum (X V c) id (acc0 V c) k0_pay3 (k0_pay1 (F := Ideal)) pay3_apply pay1_apply
    (acc0_reset V c) (acc0_step V c) t h6 p q _ _ rfl rfl

/-- The block written back to the second statistics array is that block of the per-channel sums of squares. -/
theorem flushed2_eq (c : Dev nD) (t : Fin cfg0.N) (hf : (cfg0.win 2).flush t = true) :
    (dat0 V c).flushed 2 t = ((cfg0.win 2).blk t).view.read (Elt Ideal) (Cert.Spec.chSq (X V c)) := by
  have h6 : t.val % 7 = 6 := (flush0_2 t).mp hf
  have htN : t.val < 112 := lt_of_lt_of_eq t.isLt N_0
  show (cfg0.win 2).cut (grid0.coords t) ((dat0 V c).after 2 t) = _
  rw [after0_2, out2_eq V c t h6]
  refine funext fun (j : S8x128.Idx) => ?_
  obtain ⟨p, q, rfl⟩ : ∃ (p : Fin 8) (q : Fin 128), j = ix2 p q := ⟨j 0, j 1, eq_ix2 j⟩
  have hp : p.val < 8 := p.isLt
  have hq : q.val < 128 := q.isLt
  refine Eq.trans ?_ (blk2_read (Cert.Spec.chSq (X V c)) t p q
    (ix2 (⟨8 * (t.val / 14) + p.val, by omega⟩ : Fin 64) (⟨128 * (t.val / 7 % 2) + q.val, by omega⟩ : Fin 256)) rfl rfl).symm
  exact fold_sum (X V c) (fun v => v * v) (acc1 V c) k0_pay4 (k0_pay2 (F := Ideal)) pay4_apply pay2_apply
    (acc1_reset V c) (acc1_step V c) t h6 p q _ _ rfl rfl

/-! ## The two output arrays after the region -/

/-- The first statistics array ends holding, per (sample, channel), the sum of x over the spatial positions. -/
theorem arr1_eq (c : Dev nD) : (dat0 V c).arrAt 1 cfg0.N = Cert.Spec.chSum (V c main_arg0) :=
  (dat0 V c).arrAt_eq_of_cover 1 (Cert.Spec.chSum (X V c)) (flushed1_eq V c) cover1

/-- The second ends holding the sum of x². -/
theorem arr2_eq (c : Dev nD) : (dat0 V c).arrAt 2 cfg0.N = Cert.Spec.chSq (V c main_arg0) :=
  (dat0 V c).arrAt_eq_of_cover 2 (Cert.Spec.chSq (X V c)) (flushed2_eq V c) cover2

end Cert.KernelIdeal.Hand.Val0

end
-- ==== Proof.Val1Pure.lean ====
/-
  The value the normalisation kernel's body stores, read at one index of its block.

  For a block x of shape [8, 128, 8, 56], per-(sample, channel) statistics mu and iv of shape [8, 128] and
  per-channel weight and bias of shape [128], the stored value at (p, q, r, w) is
  ((x[p,q,r,w] - mu[p,q]) * iv[p,q]) * wt[q] + bs[q]: the statistics are viewed as [8, 128, 1, 1] and the
  affine terms as [1, 128, 1, 1], and each is repeated over the block's remaining axes.
-/
import proofs.«145460_j4363686773082_1_alg».proof.Proof.Gen.KernelIdeal.Skeleton
import Idealize.ShloMosaic.PureOps.Ideal
import Idealize.ShloMosaic.Lib.ValueIdx
import Idealize.ShloMosaic.Lib.Pipeline.Value
import Idealize.ShloMosaic.Lib.ValueLayout

set_option maxRecDepth 16384

noncomputable section

namespace Cert.KernelIdeal.Hand.Val1

open Cert.KernelIdeal Cert.KernelIdeal.Gen
open Idealize.ShloMosaic Idealize.ShloMosaic.ValueIdx

section Keepdims
variable {α : Type}

/-- An `[a, b]` array viewed as `[a, b, 1, 1]` reads, at `(i, j, u, v)`, the operand at `(i, j)`, whatever the two
    unit coordinates. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    simp only [hu, hv, Nat.mul_one, Nat.add_zero])

/-- A `[b]` array viewed as `[1, b, 1, 1]` reads, at `(t, j, u, v)`, the operand at `j`, whatever the three unit
    coordinates. -/
theorem shapeCast_b_1b11_apply {b : ℕ} (x : (⟨1, ![b]⟩ : Shape).Idx → α)
    (h : (⟨1, ![b]⟩ : Shape).ShapeCasts ⟨4, ![1, b, 1, 1]⟩) (t : Fin 1) (j : Fin b) (u v : Fin 1) :
    shapeCast ⟨4, ![1, b, 1, 1]⟩ x h (ix4 t j u v) = x (ix1 j) :=
  shapeCast_apply x h _ _ (by
    have ht : t.val = 0 := by omega
    have hu : u.val = 0 := by omega
    have hv : v.val = 0 := by omega
    rw [Shape.rowMajor_val_four, Shape.rowMajor_val_one]
    show j.val = ((t.val * b + j.val) * 1 + u.val) * 1 + v.val
    simp only [ht, hu, hv, Nat.zero_mul, Nat.zero_add, Nat.mul_one, Nat.add_zero])

/-- An `[a, b, 1, 1]` array repeated to `[a, b, c, d]` reads, at `(i, j, r, w)`, the operand at `(i, j, 0, 0)`. -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (r : Fin c) (w : Fin d) :
    broadcastTo ⟨4, ![a, b, c, d]⟩ x h (ix4 i j r w) = x (ix4 i j (0 : Fin 1) (0 : Fin 1)) := by
  refine broadcastTo_apply x h (ix4 i j r w) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- A `[1, b, 1, 1]` array repeated to `[a, b, c, d]` reads, at `(i, j, r, w)`, the operand at `(0, j, 0, 0)`. -/
theorem broadcastTo_1b11_abcd_apply {a b c d : ℕ} (x : (⟨4, ![1, b, 1, 1]⟩ : Shape).Idx → α)
    (h : (⟨4, ![1, b, 1, 1]⟩ : Shape).Broadcasts ⟨4, ![a, b, c, d]⟩) (i : Fin a) (j : Fin b) (r : Fin c) (w : Fin d) :
    broadcastTo ⟨4, ![a, b, c, d]⟩ x h (ix4 i j r w) = x (ix4 (0 : Fin 1) j (0 : Fin 1) (0 : Fin 1)) := by
  refine broadcastTo_apply x h (ix4 i j r w) (ix4 (0 : Fin 1) j (0 : Fin 1) (0 : Fin 1)) fun ax => ?_
  match ax with
  | ⟨0, _⟩ => rfl
  | ⟨1, _⟩ =>
    show j.val = if b = 1 then 0 else j.val
    split
    · have := j.isLt; omega
    · rfl
  | ⟨2, _⟩ => rfl
  | ⟨3, _⟩ => rfl

end Keepdims

/-- The body's stored value at `(p, q, r, w)` of its block: the input there, minus the mean of its (sample, channel), times
    the inverse deviation of its (sample, channel), times the channel's weight, plus the channel's bias. -/
theorem pay1_apply (x : Vec Ideal S8x128x8x56 .f32) (mu iv : Vec Ideal S8x128 .f32) (wt bs : Vec Ideal S128 .f32)
    (p : Fin 8) (q : Fin 128) (r : Fin 8) (w : Fin 56) :
    k1_pay1 x mu iv wt bs (ix4 p q r w)
      = (x (ix4 p q r w) - mu (ix2 p q)) * iv (ix2 p q) * wt (ix1 q) + bs (ix1 q) := by
  unfold k1_pay1
  rw [addf_apply, mulf_apply, mulf_apply, subf_apply]
  rw [broadcastTo_ab11_abcd_apply, broadcastTo_ab11_abcd_apply, broadcastTo_1b11_abcd_apply, broadcastTo_1b11_abcd_apply]
  rw [shapeCast_ab_ab11_apply, shapeCast_ab_ab11_apply, shapeCast_b_1b11_apply, shapeCast_b_1b11_apply]
  rw [shapeCast_self, shapeCast_self]

end Cert.KernelIdeal.Hand.Val1

end
-- ==== Proof.Val1.lean ====
/-
  The value the normalisation region leaves in its output array.

  The region walks the grid (8, 2, 7). At the point with coordinates (a, b, k) it reads block (a, b, k, 0) of the input
  tensor x, block (a, b) of the per-(sample, channel) statistics mu and iv, block (b) of the per-channel weight and bias,
  and writes back block (a, b, k, 0) of the output: ((x − mu) · iv) · weight + bias there. Each input block sits in its
  array exactly where the output block's rectangle says (a block's coordinate is its block index times the block's size
  plus the coordinate inside the block), so what a point writes back is its block of ONE tensor, the normalised tensor of
  the five arrays; the output's blocks tile [64, 256, 56, 56] (the index (n, ch, h, w) lies in block (n / 8, ch / 128, h / 8, 0)),
  so the array ends holding that tensor.
-/
import proofs.«145460_j4363686773082_1_alg».proof.Proof.Gen.KernelIdeal.Launch
import proofs.«145460_j4363686773082_1_alg».proof.Proof.Gen.KernelIdeal.Skeleton
import proofs.«145460_j4363686773082_1_alg».proof.Proof.Gen.KernelIdeal.Points
import proofs.«145460_j4363686773082_1_alg».proof.Proof.R1
import proofs.«145460_j4363686773082_1_alg».proof.Proof.Val1Pure
import proofs.«145460_j4363686773082_1_alg».proof.Proof.Spec
import Idealize.ShloMosaic.Lib.Pipeline.Value
import Idealize.ShloMosaic.Lib.ValueIdx

set_option maxRecDepth 16384

noncomputable section

namespace Cert.KernelIdeal.Hand.Val1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block index maps over the grid (8, 2, 7): at the point with coordinates (a, b, k) the input and the output
    sit at block (a, b, k, 0), the two statistics at block (a, b), the weight and the bias at block (b). -/
theorem idx_facts : ∀ t : Fin cfg1.N,
    win1_0.index t (0 : Fin 4) = win1_5.index t (0 : Fin 4)
    ∧ win1_0.index t (1 : Fin 4) = win1_5.index t (1 : Fin 4)
    ∧ win1_0.index t (2 : Fin 4) = win1_5.index t (2 : Fin 4)
    ∧ win1_0.index t (3 : Fin 4) = win1_5.index t (3 : Fin 4)
    ∧ win1_1.index t (0 : Fin 2) = win1_5.index t (0 : Fin 4)
    ∧ win1_1.index t (1 : Fin 2) = win1_5.index t (1 : Fin 4)
    ∧ win1_2.index t (0 : Fin 2) = win1_5.index t (0 : Fin 4)
    ∧ win1_2.index t (1 : Fin 2) = win1_5.index t (1 : Fin 4)
    ∧ win1_3.index t (0 : Fin 1) = win1_5.index t (1 : Fin 4)
    ∧ win1_4.index t (0 : Fin 1) = win1_5.index t (1 : Fin 4)
    ∧ win1_5.index t (0 : Fin 4) ≤ 7 ∧ win1_5.index t (1 : Fin 4) ≤ 1
    ∧ win1_5.index t (2 : Fin 4) ≤ 6 ∧ win1_5.index t (3 : Fin 4) = 0 :=
  (by decide +kernel : ∀ t : Fin grid1.N, _)

/-- Every block (a, b, k, 0) of the output is some point's. -/
theorem idx_onto : ∀ (q0 : Fin 8) (q1 : Fin 2) (q2 : Fin 7), ∃ t : Fin cfg1.N, win1_5.index t = ![q0.val, q1.val, q2.val, 0] :=
  (by decide +kernel : ∀ (q0 : Fin 8) (q1 : Fin 2) (q2 : Fin 7), ∃ t : Fin grid1.N, win1_5.index t = ![q0.val, q1.val, q2.val, 0])

/-- What point `t` writes back to the output array is block `t` of the normalised tensor of the five arrays as the
    region finds them: each input block sits in its array where the output block's rectangle says. -/
theorem flushed_eq (c : Dev nD) (t : Fin cfg1.N) :
    (dat1 V c).flushed 5 t = ((cfg1.win 5).blk t).view.read (Elt Ideal)
      (Cert.Spec.normOut (V c main_arg0) (V c main_v49) (V c main_v57) (V c main_arg1) (V c main_arg2)) := by
  show (cfg1.win 5).cut (grid1.coords t) ((dat1 V c).after 5 t) = _
  rw [after1_5, out1_5_eq]
  obtain ⟨e00, e01, e02, e03, e10, e11, e20, e21, e30, e40, b0, b1, b2, b3⟩ := idx_facts t
  funext j
  obtain ⟨p, q, r, w, rfl⟩ : ∃ (p : Fin 8) (q : Fin 128) (r : Fin 8) (w : Fin 56), j = ix4 p q r w :=
    ⟨j 0, j 1, j 2, j 3, eq_ix4 j⟩
  show k1_pay1 (iblk1 V c 0 t) (iblk1 V c 1 t) (iblk1 V c 2 t) (iblk1 V c 3 t) (iblk1 V c 4 t) (ix4 p q r w)
    = Cert.Spec.normOut (V c main_arg0) (V c main_v49) (V c main_v57) (V c main_arg1) (V c main_arg2)
        (((cfg1.win 5).blk t).view.emb (ix4 p q r w))
  rw [pay1_apply]
  -- the input block, at the output block's place
  have h0 : iblk1 V c 0 t (ix4 p q r w) = V c main_arg0 (((cfg1.win 5).blk t).view.emb (ix4 p q r w)) := by
    show V c main_arg0 (((cfg1.win 0).blk t).view.emb (ix4 p q r w)) = _
    refine congrArg (V c main_arg0) (funext fun a => Fin.ext ?_)
    match a with
    | ⟨0, _⟩ => show win1_0.index t (0 : Fin 4) * 8 + 1 * p.val = win1_5.index t (0 : Fin 4) * 8 + 1 * p.val; omega
    | ⟨1, _⟩ => show win1_0.index t (1 : Fin 4) * 128 + 1 * q.val = win1_5.index t (1 : Fin 4) * 128 + 1 * q.val; omega
    | ⟨2, _⟩ => show win1_0.index t (2 : Fin 4) * 8 + 1 * r.val = win1_5.index t (2 : Fin 4) * 8 + 1 * r.val; omega
    | ⟨3, _⟩ => show win1_0.index t (3 : Fin 4) * 56 + 1 * w.val = win1_5.index t (3 : Fin 4) * 56 + 1 * w.val; omega
  -- the statistics' blocks, at the output block's (sample, channel)
  have h1 : iblk1 V c 1 t (ix2 p q) = V c main_v49 (ix2 (n0 := 64) (n1 := 256)
      ((((cfg1.win 5).blk t).view.emb (ix4 p q r w)) 0) ((((cfg1.win 5).blk t).view.emb (ix4 p q r w)) 1)) := by
    show V c main_v49 (((cfg1.win 1).blk t).view.emb (ix2 p q)) = _
    refine congrArg (V c main_v49) (funext fun a => Fin.ext ?_)
    match a with
    | ⟨0, _⟩ => show win1_1.index t (0 : Fin 2) * 8 + 1 * p.val = win1_5.index t (0 : Fin 4) * 8 + 1 * p.val; omega
    | ⟨1, _⟩ => show win1_1.index t (1 : Fin 2) * 128 + 1 * q.val = win1_5.index t (1 : Fin 4) * 128 + 1 * q.val; omega
  have h2 : iblk1 V c 2 t (ix2 p q) = V c main_v57 (ix2 (n0 := 64) (n1 := 256)
      ((((cfg1.win 5).blk t).view.emb (ix4 p q r w)) 0) ((((cfg1.win 5).blk t).view.emb (ix4 p q r w)) 1)) := by
    show V c main_v57 (((cfg1.win 2).blk t).view.emb (ix2 p q)) = _
    refine congrArg (V c main_v57) (funext fun a => Fin.ext ?_)
    match a with
    | ⟨0, _⟩ => show win1_2.index t (0 : Fin 2) * 8 + 1 * p.val = win1_5.index t (0 : Fin 4) * 8 + 1 * p.val; omega
    | ⟨1, _⟩ => show win1_2.index t (1 : Fin 2) * 128 + 1 * q.val = win1_5.index t (1 : Fin 4) * 128 + 1 * q.val; omega
  -- the weight's and the bias's blocks, at the output block's channel
  have h3 : iblk1 V c 3 t (ix1 q) = V c main_arg1 (ix1 (n := 256) ((((cfg1.win 5).blk t).view.emb (ix4 p q r w)) 1)) := by
    show V c main_arg1 (((cfg1.win 3).blk t).view.emb (ix1 q)) = _
    refine congrArg (V c main_arg1) (funext fun a => Fin.ext ?_)
    match a with
    | ⟨0, _⟩ => show win1_3.index t (0 : Fin 1) * 128 + 1 * q.val = win1_5.index t (1 : Fin 4) * 128 + 1 * q.val; omega
  have h4 : iblk1 V c 4 t (ix1 q) = V c main_arg2 (ix1 (n := 256) ((((cfg1.win 5).blk t).view.emb (ix4 p q r w)) 1)) := by
    show V c main_arg2 (((cfg1.win 4).blk t).view.emb (ix1 q)) = _
    refine congrArg (V c main_arg2) (funext fun a => Fin.ext ?_)
    match a with
    | ⟨0, _⟩ => show win1_4.index t (0 : Fin 1) * 128 + 1 * q.val = win1_5.index t (1 : Fin 4) * 128 + 1 * q.val; omega
  rw [h0, h1, h2, h3, h4]
  rfl

/-- An index of the output array is in point `t`'s block iff each coordinate is in the block's range on its axis. -/
theorem mem_blk (t : Fin cfg1.N) (i : S64x256x56x56.Idx) :
    i ∈ ((cfg1.win 5).blk t).view.set ↔ ∀ a : Fin 4, win1_5.index t a * S8x128x8x56.size a ≤ (i a).val
      ∧ (i a).val < win1_5.index t a * S8x128x8x56.size a + S8x128x8x56.size a := by
  show i ∈ ((View.whole main_v58).slice (win1_5.rect t)).set ↔ _
  rw [View.set_slice_whole, Rect.mem_set_unit]
  exact Iff.rfl

/-- The output's blocks tile the array: the index (n, ch, h, w) is in the block of the point whose block index is
    (n / 8, ch / 128, h / 8, 0), and every point writes its block back. -/
theorem covered (i : S64x256x56x56.Idx) :
    ∃ t : Fin cfg1.N, (cfg1.win 5).flush t = true ∧ i ∈ ((cfg1.win 5).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ := idx_onto ⟨(i 0).val / 8, by omega⟩ ⟨(i 1).val / 128, by omega⟩ ⟨(i 2).val / 8, by omega⟩
  have q0 : win1_5.index t (0 : Fin 4) = (i 0).val / 8 := congrFun ht 0
  have q1 : win1_5.index t (1 : Fin 4) = (i 1).val / 128 := congrFun ht 1
  have q2 : win1_5.index t (2 : Fin 4) = (i 2).val / 8 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 8 ≤ (i 0).val ∧ (i 0).val < win1_5.index t (0 : Fin 4) * 8 + 8; omega
  | ⟨1, _⟩ => show win1_5.index t (1 : Fin 4) * 128 ≤ (i 1).val ∧ (i 1).val < win1_5.index t (1 : Fin 4) * 128 + 128; omega
  | ⟨2, _⟩ => show win1_5.index t (2 : Fin 4) * 8 ≤ (i 2).val ∧ (i 2).val < win1_5.index t (2 : Fin 4) * 8 + 8; omega
  | ⟨3, _⟩ => show win1_5.index t (3 : Fin 4) * 56 ≤ (i 3).val ∧ (i 3).val < win1_5.index t (3 : Fin 4) * 56 + 56; omega

/-- The output array after the region: the normalised, affinely transformed tensor of the five arrays the region
    reads, as it finds them. -/
theorem arr5_eq (c : Dev nD) :
    (dat1 V c).arrAt 5 cfg1.N
      = Cert.Spec.normOut (V c main_arg0) (V c main_v49) (V c main_v57) (V c main_arg1) (V c main_arg2) :=
  (dat1 V c).arrAt_eq_of_cover 5 _ (fun t _ => flushed_eq V c t) covered

end Cert.KernelIdeal.Hand.Val1

end
-- ==== Proof.RefRun.lean ====
import proofs.«145460_j4363686773082_1_alg».proof.Proof.Gen.ReferenceIdeal
import Idealize.ShloMosaic.Lib.StableHlo.Run
import Idealize.ShloMosaic.Lib.Pipeline.Frame

/-! # The reference program's run

The reference normalises `x : [64, 256, 56, 56]` over groups of channels of irregular sizes. Its `@main` is a
straight line of 119 host operations once the outlined functions are written at their calls: 52 that turn the
group sizes into the channel → group table, 6 that sum `x` and `x²` over each channel's 3136 positions, 50 that
add the channels of a group, divide by the group's count and come back with each channel's mean and inverse
deviation, and 11 that apply `((x − μ) · σ⁻¹) · weight + bias` elementwise. This module names the four stretches,
shows `@main` is their concatenation run in order, and reads the run back: every execution terminates with each
buffer at the fold of the operations over the launch contents, the four arguments untouched. -/

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The operations that build the channel → group table from the group sizes alone: the positions `0 … 7`, the sizes rolled by one with a zero put first and summed cumulatively (each group's first channel), a one scattered at each start, the cumulative sum less one (each channel's group), and the table read back at those indices — 52 operations, the outlined functions' lines written at their calls over the calls' buffers. -/
abbrev opsGid : List (HloOp τ sig (Elt F)) :=
  [ StableHlo.nullary main_v0 (iotaInDim S8 32 0),
    StableHlo.TRef.unary (.of main_arg3 : StableHlo.TRef sig ⟨S8, .i32⟩) main_call0.v0 (extractStridedSlice S1 ![7] · slices_S8_S1_7),
    StableHlo.TRef.unary (.of main_arg3 : StableHlo.TRef sig ⟨S8, .i32⟩) main_call0.v1 (extractStridedSlice S7 ![0] · slices_S8_S7_0),
    StableHlo.TRef.binary main_call0.v0 main_call0.v1 main_call0.v2 (fun a b => concatenate S8 0 [⟨S1, a⟩, ⟨S7, b⟩] concatenates_S1_S7_S8_d0),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v3 : StableHlo.TRef sig ⟨S8, .i32⟩) main_call1.call0.v0 main_call1.call0.v1 (fun x v => Host.reduceWindow IntOp.addi ![8] ![1] ![7] ![0] x v reduceWindows_S8_S8_w8s1p7_0 h_S_),
    StableHlo.nullary main_c_1 (constantI S_ 32 0#32),
    StableHlo.unary main_c_1 main_v5 (broadcastInDim S256 ![] bcast_S_S256 : (⟨S_, .i32⟩ : BufTy).Contents (Elt F) → (⟨S256, .i32⟩ : BufTy).Contents (Elt F)),
    StableHlo.nullary main_c_2 (constantI S_ 32 0#32),
    StableHlo.unary main_c_2 main_v6 (broadcastInDim S8 ![] bcast_S_S8 : (⟨S_, .i32⟩ : BufTy).Contents (Elt F) → (⟨S8, .i32⟩ : BufTy).Contents (Elt F)),
    StableHlo.binary main_v4 main_v6 main_v7 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 256#32),
    StableHlo.unary main_c_3 main_v8 (broadcastInDim S8 ![] bcast_S_S8 : (⟨S_, .i32⟩ : BufTy).Contents (Elt F) → (⟨S8, .i32⟩ : BufTy).Contents (Elt F)),
    StableHlo.binary main_v4 main_v8 main_v9 (addi : (⟨S8, .i32⟩ : BufTy).Contents (Elt F) → (⟨S8, .i32⟩ : BufTy).Contents (Elt F) → (⟨S8, .i32⟩ : BufTy).Contents (Elt F)),
    StableHlo.ternary main_v7 main_v9 main_v4 main_v10 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v10 main_v11 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v12 (broadcastInDim S8 ![] bcast_S_S8 : (⟨S_, .i32⟩ : BufTy).Contents (Elt F) → (⟨S8, .i32⟩ : BufTy).Contents (Elt F)),
    StableHlo.ternary main_v5 main_v11 main_v12 main_v13 ((fun x i u => Host.scatter scatter_S256_S8x1_S8_n_0_0_1 IntOp.addi x i u) : (⟨S256, .i32⟩ : BufTy).Contents (Elt F) → (⟨S8x1, .i32⟩ : BufTy).Contents (Elt F) → (⟨S8, .i32⟩ : BufTy).Contents (Elt F) → (⟨S256, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v13 : StableHlo.TRef sig ⟨S256, .i32⟩) main_call2.call0.v0 main_call2.call0.v1 (fun x v => Host.reduceWindow IntOp.addi ![256] ![1] ![255] ![0] x v reduceWindows_S256_S256_w256s1p255_0 h_S_),
    StableHlo.nullary main_c_5 (constantI S_ 32 1#32),
    StableHlo.unary main_c_5 main_v15 (broadcastInDim S256 ![] bcast_S_S256 : (⟨S_, .i32⟩ : BufTy).Contents (Elt F) → (⟨S256, .i32⟩ : BufTy).Contents (Elt F)),
    StableHlo.binary main_v14 main_v15 main_v16 (subi : (⟨S256, .i32⟩ : BufTy).Contents (Elt F) → (⟨S256, .i32⟩ : BufTy).Contents (Elt F) → (⟨S256, .i32⟩ : BufTy).Contents (Elt F)),
    StableHlo.TRef.nullary main_call3.c (constantI S_ 32 0#32),
    StableHlo.TRef.unary main_call3.c main_call3.v0 (broadcastInDim S256 ![] bcast_S_S256),
    StableHlo.TRef.binary (.of main_v16 : StableHlo.TRef sig ⟨S256, .i32⟩) main_call3.v0 main_call3.v1 (cmpi .slt),
    StableHlo.TRef.nullary main_call3.c_0 (constantI S_ 32 8#32),
    StableHlo.TRef.unary main_call3.c_0 main_call3.v2 (broadcastInDim S256 ![] bcast_S_S256),
    StableHlo.TRef.binary (.of main_v16 : StableHlo.TRef sig ⟨S256, .i32⟩) main_call3.v2 main_call3.v3 addi,
    StableHlo.TRef.ternary main_call3.v1 main_call3.v3 (.of main_v16 : StableHlo.TRef sig ⟨S256, .i32⟩) main_call3.call0.v0 select,
    StableHlo.TRef.unary main_call3.call0.v0 main_call3.v5 (broadcastInDim S256x1 ![0] bcast_S256_S256x1_0),
    StableHlo.TRef.nullary main_call3.c_1 (constantI S1 32 7#32),
    StableHlo.TRef.nullary main_call3.c_2 (constantI S_ 32 0#32),
    StableHlo.TRef.unary main_call3.c_2 main_call3.v6 (broadcastInDim S256x1 ![] bcast_S_S256x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S256x1 ![0, 1] bcast_S1x1_S256x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S256x1_S256_d1 h_S_),
    StableHlo.TRef.binary (.of main_v0 : StableHlo.TRef sig ⟨S8, .i32⟩) main_call3.v5 main_call3.v13 (fun x i => Host.gather gather_S8_S256x1_S256_n_0_n_n_0_1_1 x i),
    StableHlo.TRef.nullary main_call3.c_4 (constantI S_ 32 2147483648#32),
    StableHlo.TRef.unary main_call3.c_4 main_call3.v14 (broadcastInDim S256 ![] bcast_S_S256),
    StableHlo.TRef.ternary main_call3.v12 main_call3.v13 main_call3.v14 main_call3.v15 select ]

/-- The per-channel statistics: the input viewed as `[64, 256, 3136]`, its sum over the last axis from zero, its square, and the square's sum from zero. -/
abbrev opsStat : List (HloOp τ sig (Elt F)) :=
  [ StableHlo.reshape main_arg0 main_v18 rfl shapeCasts_S64x256x56x56_S64x256x3136,
    StableHlo.nullary main_cst (constant S_ .f32 0x00000000#32),
    StableHlo.binary main_v18 main_cst main_v19 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)),
    StableHlo.binary main_v18 main_v18 main_v20 (mulf : (⟨S64x256x3136, .f32⟩ : BufTy).Contents (Elt F) → (⟨S64x256x3136, .f32⟩ : BufTy).Contents (Elt F) → (⟨S64x256x3136, .f32⟩ : BufTy).Contents (Elt F)),
    StableHlo.nullary main_cst_6 (constant S_ .f32 0x00000000#32),
    StableHlo.binary main_v20 main_cst_6 main_v21 ((fun x v => Host.reduceAdd x v reducesTo_S64x256x3136_S64x256_d2 h_S_) : (⟨S64x256x3136, .f32⟩ : BufTy).Contents (Elt F) → (⟨S_, .f32⟩ : BufTy).Contents (Elt F) → (⟨S64x256, .f32⟩ : BufTy).Contents (Elt F)) ]

/-- From the per-channel sums to the per-channel mean and inverse deviation: transpose to channel-major, add the channels of a group together, divide by the group's element count, `E[x²] − E[x]²`, add ε, square root, reciprocal, read each channel's group row back, transpose back, and view both as `[64, 256, 1]`. -/
abbrev opsTail : List (HloOp τ sig (Elt F)) :=
  [ StableHlo.unary main_v19 main_v22 ((transpose S256x64 [1, 0] · transposes_S64x256_S256x64_1_0) : (⟨S64x256, .f32⟩ : BufTy).Contents (Elt F) → (⟨S256x64, .f32⟩ : BufTy).Contents (Elt F)),
    StableHlo.nullary main_cst_7 (constant S_ .f32 0x00000000#32),
    StableHlo.unary main_cst_7 main_v23 (broadcastInDim S8x64 ![] bcast_S_S8x64 : (⟨S_, .f32⟩ : BufTy).Contents (Elt F) → (⟨S8x64, .f32⟩ : BufTy).Contents (Elt F)),
    StableHlo.unary main_v17 main_v24 (broadcastInDim S256x1 ![0] bcast_S256_S256x1_0 : (⟨S256, .i32⟩ : BufTy).Contents (Elt F) → (⟨S256x1, .i32⟩ : BufTy).Contents (Elt F)),
    StableHlo.ternary main_v23 main_v24 main_v22 main_v25 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_v21 main_v26 ((transpose S256x64 [1, 0] · transposes_S64x256_S256x64_1_0) : (⟨S64x256, .f32⟩ : BufTy).Contents (Elt F) → (⟨S256x64, .f32⟩ : BufTy).Contents (Elt F)),
    StableHlo.nullary main_cst_8 (constant S_ .f32 0x00000000#32),
    StableHlo.unary main_cst_8 main_v27 (broadcastInDim S8x64 ![] bcast_S_S8x64 : (⟨S_, .f32⟩ : BufTy).Contents (Elt F) → (⟨S8x64, .f32⟩ : BufTy).Contents (Elt F)),
    StableHlo.unary main_v17 main_v28 (broadcastInDim S256x1 ![0] bcast_S256_S256x1_0 : (⟨S256, .i32⟩ : BufTy).Contents (Elt F) → (⟨S256x1, .i32⟩ : BufTy).Contents (Elt F)),
    StableHlo.ternary main_v27 main_v28 main_v26 main_v29 ((fun x i u => Host.scatterAdd scatter_S8x64_S256x1_S256x64_1_0_0_1 x i u) : (⟨S8x64, .f32⟩ : BufTy).Contents (Elt F) → (⟨S256x1, .i32⟩ : BufTy).Contents (Elt F) → (⟨S256x64, .f32⟩ : BufTy).Contents (Elt F) → (⟨S8x64, .f32⟩ : BufTy).Contents (Elt F)),
    StableHlo.unary main_arg3 main_v30 (sitofp .f32 : (⟨S8, .i32⟩ : BufTy).Contents (Elt F) → (⟨S8, .f32⟩ : BufTy).Contents (Elt F)),
    StableHlo.nullary main_cst_9 (constant S_ .f32 0x45440000#32),
    StableHlo.unary main_cst_9 main_v31 (broadcastInDim S8 ![] bcast_S_S8 : (⟨S_, .f32⟩ : BufTy).Contents (Elt F) → (⟨S8, .f32⟩ : BufTy).Contents (Elt F)),
    StableHlo.binary main_v30 main_v31 main_v32 (mulf : (⟨S8, .f32⟩ : BufTy).Contents (Elt F) → (⟨S8, .f32⟩ : BufTy).Contents (Elt F) → (⟨S8, .f32⟩ : BufTy).Contents (Elt F)),
    StableHlo.unary main_v32 main_v33 (broadcastInDim S8x1 ![0] bcast_S8_S8x1_0 : (⟨S8, .f32⟩ : BufTy).Contents (Elt F) → (⟨S8x1, .f32⟩ : BufTy).Contents (Elt F)),
    StableHlo.unary main_v33 main_v34 (broadcastInDim S8x64 ![0, 1] bcast_S8x1_S8x64_0_1 : (⟨S8x1, .f32⟩ : BufTy).Contents (Elt F) → (⟨S8x64, .f32⟩ : BufTy).Contents (Elt F)),
    StableHlo.binary main_v25 main_v34 main_v35 (Host.divf : (⟨S8x64, .f32⟩ : BufTy).Contents (Elt F) → (⟨S8x64, .f32⟩ : BufTy).Contents (Elt F) → (⟨S8x64, .f32⟩ : BufTy).Contents (Elt F)),
    StableHlo.unary main_v33 main_v36 (broadcastInDim S8x64 ![0, 1] bcast_S8x1_S8x64_0_1 : (⟨S8x1, .f32⟩ : BufTy).Contents (Elt F) → (⟨S8x64, .f32⟩ : BufTy).Contents (Elt F)),
    StableHlo.binary main_v29 main_v36 main_v37 (Host.divf : (⟨S8x64, .f32⟩ : BufTy).Contents (Elt F) → (⟨S8x64, .f32⟩ : BufTy).Contents (Elt F) → (⟨S8x64, .f32⟩ : BufTy).Contents (Elt F)),
    StableHlo.binary main_v35 main_v35 main_v38 (mulf : (⟨S8x64, .f32⟩ : BufTy).Contents (Elt F) → (⟨S8x64, .f32⟩ : BufTy).Contents (Elt F) → (⟨S8x64, .f32⟩ : BufTy).Contents (Elt F)),
    StableHlo.binary main_v37 main_v38 main_v39 (subf : (⟨S8x64, .f32⟩ : BufTy).Contents (Elt F) → (⟨S8x64, .f32⟩ : BufTy).Contents (Elt F) → (⟨S8x64, .f32⟩ : BufTy).Contents (Elt F)),
    StableHlo.nullary main_cst_10 (constant S_ .f32 0x2B8CBCCC#32),
    StableHlo.unary main_cst_10 main_v40 (broadcastInDim S8x64 ![] bcast_S_S8x64 : (⟨S_, .f32⟩ : BufTy).Contents (Elt F) → (⟨S8x64, .f32⟩ : BufTy).Contents (Elt F)),
    StableHlo.binary main_v39 main_v40 main_v41 (addf : (⟨S8x64, .f32⟩ : BufTy).Contents (Elt F) → (⟨S8x64, .f32⟩ : BufTy).Contents (Elt F) → (⟨S8x64, .f32⟩ : BufTy).Contents (Elt F)),
    StableHlo.unary main_v41 main_v42 (Host.sqrt : (⟨S8x64, .f32⟩ : BufTy).Contents (Elt F) → (⟨S8x64, .f32⟩ : BufTy).Contents (Elt F)),
    StableHlo.nullary main_cst_11 (constant S_ .f32 0x3F800000#32),
    StableHlo.unary main_cst_11 main_v43 (broadcastInDim S8x64 ![] bcast_S_S8x64 : (⟨S_, .f32⟩ : BufTy).Contents (Elt F) → (⟨S8x64, .f32⟩ : BufTy).Contents (Elt F)),
    StableHlo.binary main_v43 main_v42 main_v44 (Host.divf : (⟨S8x64, .f32⟩ : BufTy).Contents (Elt F) → (⟨S8x64, .f32⟩ : BufTy).Contents (Elt F) → (⟨S8x64, .f32⟩ : BufTy).Contents (Elt F)),
    StableHlo.nullary main_c_12 (constantI S_ 32 0#32),
    StableHlo.unary main_c_12 main_v45 (broadcastInDim S256 ![] bcast_S_S256 : (⟨S_, .i32⟩ : BufTy).Contents (Elt F) → (⟨S256, .i32⟩ : BufTy).Contents (Elt F)),
    StableHlo.binary main_v17 main_v45 main_v46 (cmpi .slt : (⟨S256, .i32⟩ : BufTy).Contents (Elt F) → (⟨S256, .i32⟩ : BufTy).Contents (Elt F) → (⟨S256, .i1⟩ : BufTy).Contents (Elt F)),
    StableHlo.nullary main_c_13 (constantI S_ 32 8#32),
    StableHlo.unary main_c_13 main_v47 (broadcastInDim S256 ![] bcast_S_S256 : (⟨S_, .i32⟩ : BufTy).Contents (Elt F) → (⟨S256, .i32⟩ : BufTy).Contents (Elt F)),
    StableHlo.binary main_v17 main_v47 main_v48 (addi : (⟨S256, .i32⟩ : BufTy).Contents (Elt F) → (⟨S256, .i32⟩ : BufTy).Contents (Elt F) → (⟨S256, .i32⟩ : BufTy).Contents (Elt F)),
    StableHlo.ternary main_v46 main_v48 main_v17 main_v49 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v49 main_v50 (broadcastInDim S256x1 ![0] bcast_S256_S256x1_0 : (⟨S256, .i32⟩ : BufTy).Contents (Elt F) → (⟨S256x1, .i32⟩ : BufTy).Contents (Elt F)),
    StableHlo.binary main_v35 main_v50 main_v51 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v51 main_v52 ((transpose S64x256 [1, 0] · transposes_S256x64_S64x256_1_0) : (⟨S256x64, .f32⟩ : BufTy).Contents (Elt F) → (⟨S64x256, .f32⟩ : BufTy).Contents (Elt F)),
    StableHlo.unary main_v52 main_v53 (broadcastInDim S64x256x1 ![0, 1] bcast_S64x256_S64x256x1_0_1 : (⟨S64x256, .f32⟩ : BufTy).Contents (Elt F) → (⟨S64x256x1, .f32⟩ : BufTy).Contents (Elt F)),
    StableHlo.nullary main_c_14 (constantI S_ 32 0#32),
    StableHlo.unary main_c_14 main_v54 (broadcastInDim S256 ![] bcast_S_S256 : (⟨S_, .i32⟩ : BufTy).Contents (Elt F) → (⟨S256, .i32⟩ : BufTy).Contents (Elt F)),
    StableHlo.binary main_v17 main_v54 main_v55 (cmpi .slt : (⟨S256, .i32⟩ : BufTy).Contents (Elt F) → (⟨S256, .i32⟩ : BufTy).Contents (Elt F) → (⟨S256, .i1⟩ : BufTy).Contents (Elt F)),
    StableHlo.nullary main_c_15 (constantI S_ 32 8#32),
    StableHlo.unary main_c_15 main_v56 (broadcastInDim S256 ![] bcast_S_S256 : (⟨S_, .i32⟩ : BufTy).Contents (Elt F) → (⟨S256, .i32⟩ : BufTy).Contents (Elt F)),
    StableHlo.binary main_v17 main_v56 main_v57 (addi : (⟨S256, .i32⟩ : BufTy).Contents (Elt F) → (⟨S256, .i32⟩ : BufTy).Contents (Elt F) → (⟨S256, .i32⟩ : BufTy).Contents (Elt F)),
    StableHlo.ternary main_v55 main_v57 main_v17 main_v58 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v58 main_v59 (broadcastInDim S256x1 ![0] bcast_S256_S256x1_0 : (⟨S256, .i32⟩ : BufTy).Contents (Elt F) → (⟨S256x1, .i32⟩ : BufTy).Contents (Elt F)),
    StableHlo.binary main_v44 main_v59 main_v60 ((fun x i => Host.gather gather_S8x64_S256x1_S256x64_1_0_n_n_0_1_164 x i) : (⟨S8x64, .f32⟩ : BufTy).Contents (Elt F) → (⟨S256x1, .i32⟩ : BufTy).Contents (Elt F) → (⟨S256x64, .f32⟩ : BufTy).Contents (Elt F)),
    StableHlo.unary main_v60 main_v61 ((transpose S64x256 [1, 0] · transposes_S256x64_S64x256_1_0) : (⟨S256x64, .f32⟩ : BufTy).Contents (Elt F) → (⟨S64x256, .f32⟩ : BufTy).Contents (Elt F)),
    StableHlo.unary main_v61 main_v62 (broadcastInDim S64x256x1 ![0, 1] bcast_S64x256_S64x256x1_0_1 : (⟨S64x256, .f32⟩ : BufTy).Contents (Elt F) → (⟨S64x256x1, .f32⟩ : BufTy).Contents (Elt F)) ]

/-- The normalisation, elementwise on `[64, 256, 3136]`: `((x − μ) · σ⁻¹) · weight + bias`, each operand broadcast along the axes it lacks, and the result viewed as `[64, 256, 56, 56]`. -/
abbrev opsFin : List (HloOp τ sig (Elt F)) :=
  [ StableHlo.unary main_v53 main_v63 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v18 main_v63 main_v64 (subf : (⟨S64x256x3136, .f32⟩ : BufTy).Contents (Elt F) → (⟨S64x256x3136, .f32⟩ : BufTy).Contents (Elt F) → (⟨S64x256x3136, .f32⟩ : BufTy).Contents (Elt F)),
    StableHlo.unary main_v62 main_v65 (broadcastInDim S64x256x3136 ![0, 1, 2] bcast_S64x256x1_S64x256x3136_0_1_2 : (⟨S64x256x1, .f32⟩ : BufTy).Contents (Elt F) → (⟨S64x256x3136, .f32⟩ : BufTy).Contents (Elt F)),
    StableHlo.binary main_v64 main_v65 main_v66 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg1 main_v67 (broadcastInDim S1x256x1 ![1] bcast_S256_S1x256x1_1 : (⟨S256, .f32⟩ : BufTy).Contents (Elt F) → (⟨S1x256x1, .f32⟩ : BufTy).Contents (Elt F)),
    StableHlo.unary main_v67 main_v68 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v66 main_v68 main_v69 (mulf : (⟨S64x256x3136, .f32⟩ : BufTy).Contents (Elt F) → (⟨S64x256x3136, .f32⟩ : BufTy).Contents (Elt F) → (⟨S64x256x3136, .f32⟩ : BufTy).Contents (Elt F)),
    StableHlo.unary main_arg2 main_v70 (broadcastInDim S1x256x1 ![1] bcast_S256_S1x256x1_1 : (⟨S256, .f32⟩ : BufTy).Contents (Elt F) → (⟨S1x256x1, .f32⟩ : BufTy).Contents (Elt F)),
    StableHlo.unary main_v70 main_v71 (broadcastInDim S64x256x3136 ![0, 1, 2] bcast_S1x256x1_S64x256x3136_0_1_2 : (⟨S1x256x1, .f32⟩ : BufTy).Contents (Elt F) → (⟨S64x256x3136, .f32⟩ : BufTy).Contents (Elt F)),
    StableHlo.binary main_v69 main_v71 main_v72 (addf : (⟨S64x256x3136, .f32⟩ : BufTy).Contents (Elt F) → (⟨S64x256x3136, .f32⟩ : BufTy).Contents (Elt F) → (⟨S64x256x3136, .f32⟩ : BufTy).Contents (Elt F)),
    StableHlo.reshape main_v72 main_v73 rfl shapeCasts_S64x256x3136_S64x256x56x56 ]

/-- All 119, in program order. -/
abbrev ops : List (HloOp τ sig (Elt F)) := opsGid ++ opsStat ++ opsTail ++ opsFin

/-! ## `@main` is that straight line -/

set_option maxRecDepth 8192 in
set_option maxHeartbeats 4000000 in
/-- The outlined functions' bodies unfolded at their calls and the calls' records at their fields, the two windows
    of `@main` one after the other, and sequencing re-associated to the right: both sides are the same chain of
    119 steps ending in the return. -/
theorem main_eq (c : Dev nD) : main (F := F) c = StableHlo.seq ops := by
  simp only [main, main_part0, main_part1, fn_roll_static.body, fn_cumsum.body, fn_cumsum_0.body, fn_cumsum_1.body,
    fn_cumsum_2.body, fn_take.body, fn_where.body, ops, opsGid, opsStat, opsTail, opsFin, List.cons_append, List.nil_append,
    StableHlo.seq, bind_assoc, pure_bind]

/-! ## Every operation touches tensor values' buffers only -/

theorem opsGid_sub : (opsGid : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.nullary_bufs_sub .., StableHlo.unary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

theorem opsStat_sub : (opsStat : List (HloOp τ sig (Elt F))).Forall fun op => op.bufs ⊆ StableHlo.tcRefs τ sig :=
  ⟨StableHlo.reshape_bufs_sub .., StableHlo.nullary_bufs_sub .., StableHlo.binary_bufs_sub .., StableHlo.binary_bufs_sub .., StableHlo.nullary_bufs_sub .., StableHlo.binary_bufs_sub ..⟩

theorem opsTail_sub : (opsTail : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub ..⟩

theorem opsFin_sub : (opsFin : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub ..⟩

theorem ops_sub : (ops : List (HloOp τ sig (Elt F))).Forall fun op => op.bufs ⊆ StableHlo.tcRefs τ sig :=
  List.forall_append.2 ⟨List.forall_append.2 ⟨List.forall_append.2 ⟨opsGid_sub, opsStat_sub⟩, opsTail_sub⟩, opsFin_sub⟩

/-! ## The run -/

theorem scopedRefs_eq : (Finset.univ.filter fun b : Ref sig .tc => b.isScoped) = ∅ := by decide
theorem scopedSems_eq : (Finset.univ.filter fun sm : SemLoc sig => sm.isScoped .tc) = ∅ := by decide

/-- No operation allocates: each determines its result from its operands. -/
theorem ops_fresh : ∀ op ∈ (ops : List (HloOp τ sig (Elt F))), op.fresh = ∅ := by
  intro op h
  simp only [ops, List.mem_append] at h
  rcases h with ((h | h) | h) | h <;>
    · (repeat (cases h with | head => rfl | tail _ h => ?_)); exact nomatch h

/-- On every device, for any float values, from any memory with zero counters: every weakly fair execution of
    `@main` terminates, and every final state has each buffer at the fold of the 119 operations over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

/-! ## The fold, stretch by stretch -/

/-- The fold over all 119 is the four stretches' folds in turn. -/
theorem after_ops (V : Valuation τ sig (Elt F)) :
    StableHlo.after ops V = StableHlo.after opsFin (StableHlo.after opsTail (StableHlo.after opsStat (StableHlo.after opsGid V))) := by
  rw [ops, StableHlo.after_append, StableHlo.after_append, StableHlo.after_append]

/-! ## No operation writes an argument

Each operation rewrites the one buffer of its result and leaves the rest: at an argument's buffer every one of
them is the identity, which the fold computes. The reductions, the gathers and the scatters are kept folded
meanwhile: the equation never looks inside them. -/

section Args

attribute [local irreducible] Host.reduce Host.reduceAdd Host.reduceWindow Host.gather Host.scatter Host.scatterAdd
set_option maxRecDepth 8192

theorem opsGid_arg0 (V : Valuation τ sig (Elt F)) :
    StableHlo.after opsGid V (main_arg0 : DevRef τ sig) = V (main_arg0 : DevRef τ sig) := by
  simp only [StableHlo.after_cons, StableHlo.after_nil]
  rfl

theorem opsGid_arg1 (V : Valuation τ sig (Elt F)) :
    StableHlo.after opsGid V (main_arg1 : DevRef τ sig) = V (main_arg1 : DevRef τ sig) := by
  simp only [StableHlo.after_cons, StableHlo.after_nil]
  rfl

theorem opsGid_arg2 (V : Valuation τ sig (Elt F)) :
    StableHlo.after opsGid V (main_arg2 : DevRef τ sig) = V (main_arg2 : DevRef τ sig) := by
  simp only [StableHlo.after_cons, StableHlo.after_nil]
  rfl

theorem opsGid_arg3 (V : Valuation τ sig (Elt F)) :
    StableHlo.after opsGid V (main_arg3 : DevRef τ sig) = V (main_arg3 : DevRef τ sig) := by
  simp only [StableHlo.after_cons, StableHlo.after_nil]
  rfl

theorem opsStat_arg0 (V : Valuation τ sig (Elt F)) :
    StableHlo.after opsStat V (main_arg0 : DevRef τ sig) = V (main_arg0 : DevRef τ sig) := by
  simp only [StableHlo.after_cons, StableHlo.after_nil]
  rfl

theorem opsStat_arg1 (V : Valuation τ sig (Elt F)) :
    StableHlo.after opsStat V (main_arg1 : DevRef τ sig) = V (main_arg1 : DevRef τ sig) := by
  simp only [StableHlo.after_cons, StableHlo.after_nil]
  rfl

theorem opsStat_arg2 (V : Valuation τ sig (Elt F)) :
    StableHlo.after opsStat V (main_arg2 : DevRef τ sig) = V (main_arg2 : DevRef τ sig) := by
  simp only [StableHlo.after_cons, StableHlo.after_nil]
  rfl

theorem opsStat_arg3 (V : Valuation τ sig (Elt F)) :
    StableHlo.after opsStat V (main_arg3 : DevRef τ sig) = V (main_arg3 : DevRef τ sig) := by
  simp only [StableHlo.after_cons, StableHlo.after_nil]
  rfl

theorem opsTail_arg0 (V : Valuation τ sig (Elt F)) :
    StableHlo.after opsTail V (main_arg0 : DevRef τ sig) = V (main_arg0 : DevRef τ sig) := by
  simp only [StableHlo.after_cons, StableHlo.after_nil]
  rfl

theorem opsTail_arg1 (V : Valuation τ sig (Elt F)) :
    StableHlo.after opsTail V (main_arg1 : DevRef τ sig) = V (main_arg1 : DevRef τ sig) := by
  simp only [StableHlo.after_cons, StableHlo.after_nil]
  rfl

theorem opsTail_arg2 (V : Valuation τ sig (Elt F)) :
    StableHlo.after opsTail V (main_arg2 : DevRef τ sig) = V (main_arg2 : DevRef τ sig) := by
  simp only [StableHlo.after_cons, StableHlo.after_nil]
  rfl

theorem opsTail_arg3 (V : Valuation τ sig (Elt F)) :
    StableHlo.after opsTail V (main_arg3 : DevRef τ sig) = V (main_arg3 : DevRef τ sig) := by
  simp only [StableHlo.after_cons, StableHlo.after_nil]
  rfl

theorem opsFin_arg0 (V : Valuation τ sig (Elt F)) :
    StableHlo.after opsFin V (main_arg0 : DevRef τ sig) = V (main_arg0 : DevRef τ sig) := by
  simp only [StableHlo.after_cons, StableHlo.after_nil]
  rfl

theorem opsFin_arg1 (V : Valuation τ sig (Elt F)) :
    StableHlo.after opsFin V (main_arg1 : DevRef τ sig) = V (main_arg1 : DevRef τ sig) := by
  simp only [StableHlo.after_cons, StableHlo.after_nil]
  rfl

theorem opsFin_arg2 (V : Valuation τ sig (Elt F)) :
    StableHlo.after opsFin V (main_arg2 : DevRef τ sig) = V (main_arg2 : DevRef τ sig) := by
  simp only [StableHlo.after_cons, StableHlo.after_nil]
  rfl

theorem opsFin_arg3 (V : Valuation τ sig (Elt F)) :
    StableHlo.after opsFin V (main_arg3 : DevRef τ sig) = V (main_arg3 : DevRef τ sig) := by
  simp only [StableHlo.after_cons, StableHlo.after_nil]
  rfl

end Args

theorem after_ops_arg0 (V : Valuation τ sig (Elt F)) :
    StableHlo.after ops V (main_arg0 : DevRef τ sig) = V (main_arg0 : DevRef τ sig) := by
  rw [after_ops, opsFin_arg0, opsTail_arg0, opsStat_arg0, opsGid_arg0]

theorem after_ops_arg1 (V : Valuation τ sig (Elt F)) :
    StableHlo.after ops V (main_arg1 : DevRef τ sig) = V (main_arg1 : DevRef τ sig) := by
  rw [after_ops, opsFin_arg1, opsTail_arg1, opsStat_arg1, opsGid_arg1]

theorem after_ops_arg2 (V : Valuation τ sig (Elt F)) :
    StableHlo.after ops V (main_arg2 : DevRef τ sig) = V (main_arg2 : DevRef τ sig) := by
  rw [after_ops, opsFin_arg2, opsTail_arg2, opsStat_arg2, opsGid_arg2]

theorem after_ops_arg3 (V : Valuation τ sig (Elt F)) :
    StableHlo.after ops V (main_arg3 : DevRef τ sig) = V (main_arg3 : DevRef τ sig) := by
  rw [after_ops, opsFin_arg3, opsTail_arg3, opsStat_arg3, opsGid_arg3]

end Cert.ReferenceIdeal.Hand

end
-- ==== Proof.RefValPure.lean ====
/-
  The reference's array operations read at one index, over literal shapes and the extended reals.

  The reference views `x : [64, 256, 56, 56]` as `[64, 256, 3136]`: position `(h, w)` of a channel's plane is flat
  position `56·h + w`. Summing the view over its last axis from zero is the double sum over `(h, w)`; the same holds for
  the squares. The elementwise tail `((x − μ) · σ⁻¹) · weight + bias`, its statistics stored as `[64, 256, 1]` columns and
  its affine terms as `[256]` vectors spread over samples and positions, reads at `(n, c, h, w)` the entries
  `(n, c, 56·h + w)`, `(n, c, 0)` and `c`.
-/
import Idealize.ShloMosaic.Lib.IdealHost
import Idealize.ShloMosaic.Lib.Pipeline.Value
import Idealize.ShloMosaic.Lib.ValueLayout
import Mathlib.Algebra.BigOperators.Fin
import Mathlib.Logic.Equiv.Fin.Basic
import proofs.«145460_j4363686773082_1_alg».proof.Proof.Spec

noncomputable section

open scoped BigOperators

namespace Cert.ReferenceIdeal.Hand.Val

open Idealize.ShloMosaic Idealize.ShloMosaic.ValueIdx Cert.Spec

abbrev S3 : Shape := ⟨3, ![64, 256, 3136]⟩
abbrev S3u : Shape := ⟨3, ![64, 256, 1]⟩
abbrev SWu : Shape := ⟨3, ![1, 256, 1]⟩
abbrev S0 : Shape := ⟨0, ![]⟩

/-- The flat spatial position of row `h`, column `w`. -/
abbrev flat (h w : Fin 56) : Fin 3136 := ⟨56 * h.val + w.val, by omega⟩

theorem reshape43_apply {α : Type} (x : SX.Idx → α) (hc : SX.ShapeCasts S3) (a : Fin 64) (b : Fin 256) (h w : Fin 56) :
    shapeCast S3 x hc (ix3 a b (flat h w)) = x (ix4 a b h w) :=
  shapeCast_apply x hc _ _ (by
    rw [Shape.rowMajor_val_four, Shape.rowMajor_val_three]
    show ((a.val * 256 + b.val) * 56 + h.val) * 56 + w.val = (a.val * 256 + b.val) * 3136 + (56 * h.val + w.val)
    omega)

theorem reshape34_apply {α : Type} (y : S3.Idx → α) (hc : S3.ShapeCasts SX) (a : Fin 64) (b : Fin 256) (h w : Fin 56) :
    shapeCast SX y hc (ix4 a b h w) = y (ix3 a b (flat h w)) :=
  shapeCast_apply y hc _ _ (by
    rw [Shape.rowMajor_val_four, Shape.rowMajor_val_three]
    show (a.val * 256 + b.val) * 3136 + (56 * h.val + w.val) = ((a.val * 256 + b.val) * 56 + h.val) * 56 + w.val
    omega)

theorem lift_eq (hr : S3.Reduces [2] SC) (a : Fin 64) (b : Fin 256) (k : Fin 3136) :
    hr.lift (ix2 a b) k = ix3 a b k := by
  funext c
  match c with
  | ⟨0, _⟩ => exact Fin.ext rfl
  | ⟨1, _⟩ => exact Fin.ext rfl
  | ⟨2, _⟩ => exact Fin.ext rfl

theorem flat_eq (h w : Fin 56) : (finProdFinEquiv (h, w) : Fin (56 * 56)) = flat h w :=
  Fin.ext (by show w.val + 56 * h.val = 56 * h.val + w.val; omega)

/-- Sum over the 3136 flat positions = double sum over rows and columns. -/
theorem sum_flat {M : Type*} [AddCommMonoid M] (f : Fin 3136 → M) :
    ∑ k : Fin 3136, f k = ∑ h : Fin 56, ∑ w : Fin 56, f (flat h w) := by
  have e := (Equiv.sum_comp (finProdFinEquiv (m := 56) (n := 56)) f).symm
  rw [Fintype.sum_prod_type] at e
  rw [show (∑ k : Fin 3136, f k) = ∑ k : Fin (56 * 56), f k from rfl, e]
  exact Finset.sum_congr rfl fun h _ => Finset.sum_congr rfl fun w _ => congrArg f (flat_eq h w)

theorem reduce_reshape (x : SX.Idx → EReal) (hc : SX.ShapeCasts S3) (hr' : S3.ReducesTo [2] SC) (hu : 0 < S0.numel) :
    Host.reduceAdd (F := Ideal) (φ := .f32) (shapeCast S3 x hc) (constant (F := Ideal) S0 .f32 0x00000000#32) hr' hu
      = chSum x := by
  funext j
  obtain ⟨a, b, rfl⟩ : ∃ (a : Fin 64) (b : Fin 256), j = ix2 a b := ⟨j 0, j 1, eq_ix2 j⟩
  have hr : S3.Reduces [2] SC := by decide
  rw [hostReduceAdd_apply, Ideal.hostReduceAdd_single hr' hr, constant_apply, Ideal.ofBits_zero_f32, zero_add]
  show ∑ k : Fin 3136, shapeCast S3 x hc (hr.lift (ix2 a b) k) = ∑ h : Fin 56, ∑ w : Fin 56, x (ix4 a b h w)
  rw [sum_flat]
  refine Finset.sum_congr rfl fun h _ => Finset.sum_congr rfl fun w _ => ?_
  rw [lift_eq, reshape43_apply]

theorem reduce_sq_reshape (x : SX.Idx → EReal) (hc : SX.ShapeCasts S3) (hr' : S3.ReducesTo [2] SC) (hu : 0 < S0.numel) :
    Host.reduceAdd (F := Ideal) (φ := .f32)
        (mulf (F := Ideal) (φ := .f32) (shapeCast S3 x hc) (shapeCast S3 x hc))
        (constant (F := Ideal) S0 .f32 0x00000000#32) hr' hu
      = chSq x := by
  funext j
  obtain ⟨a, b, rfl⟩ : ∃ (a : Fin 64) (b : Fin 256), j = ix2 a b := ⟨j 0, j 1, eq_ix2 j⟩
  have hr : S3.Reduces [2] SC := by decide
  rw [hostReduceAdd_apply, Ideal.hostReduceAdd_single hr' hr, constant_apply, Ideal.ofBits_zero_f32, zero_add]
  show ∑ k : Fin 3136, mulf (F := Ideal) (φ := .f32) (shapeCast S3 x hc) (shapeCast S3 x hc) (hr.lift (ix2 a b) k)
      = ∑ h : Fin 56, ∑ w : Fin 56, x (ix4 a b h w) * x (ix4 a b h w)
  rw [sum_flat]
  refine Finset.sum_congr rfl fun h _ => Finset.sum_congr rfl fun w _ => ?_
  rw [lift_eq, mulf_apply, reshape43_apply]

/-- A per-(sample, channel) column `[64, 256, 1]` spread over the 3136 positions reads its one entry. -/
theorem bcast_col_apply {α : Type} (m : S3u.Idx → α) (hb : S3u.BroadcastsInDim S3 ![0, 1, 2])
    (a : Fin 64) (b : Fin 256) (k : Fin 3136) :
    broadcastInDim S3 ![0, 1, 2] hb m (ix3 a b k) = m (ix3 a b 0) :=
  broadcastInDim_apply _ hb m _ _ (by
    intro c
    match c with
    | ⟨0, _⟩ => rfl
    | ⟨1, _⟩ => rfl
    | ⟨2, _⟩ => rfl)

/-- A per-channel vector viewed as `[1, 256, 1]` and spread over samples and positions reads the channel's entry. -/
theorem bcast_chan_apply {α : Type} (v : SW.Idx → α) (hb1 : SW.BroadcastsInDim SWu ![1]) (hb2 : SWu.BroadcastsInDim S3 ![0, 1, 2])
    (a : Fin 64) (b : Fin 256) (k : Fin 3136) :
    broadcastInDim S3 ![0, 1, 2] hb2 (broadcastInDim SWu ![1] hb1 v) (ix3 a b k) = v (ix1 b) := by
  rw [broadcastInDim_apply _ hb2 _ _ (ix3 (0 : Fin 1) b (0 : Fin 1)) (by
    intro c
    match c with
    | ⟨0, _⟩ => rfl
    | ⟨1, _⟩ => rfl
    | ⟨2, _⟩ => rfl)]
  exact broadcastInDim_apply _ hb1 v _ _ (by
    intro c
    match c with
    | ⟨0, _⟩ => rfl)

/-- A `[64, 256]` table viewed as `[64, 256, 1]` reads the same entry. -/
theorem bcast_unit_apply {α : Type} (m : SC.Idx → α) (hb : SC.BroadcastsInDim S3u ![0, 1]) (a : Fin 64) (b : Fin 256) :
    broadcastInDim S3u ![0, 1] hb m (ix3 a b 0) = m (ix2 a b) :=
  broadcastInDim_apply _ hb m _ _ (by
    intro c
    match c with
    | ⟨0, _⟩ => rfl
    | ⟨1, _⟩ => rfl)

/-- The elementwise tail at an index: `((x − μ) · σ⁻¹) · weight + bias`. -/
theorem fin_apply (x3 : S3.Idx → EReal) (m3 i3 : S3u.Idx → EReal) (wt bs : SW.Idx → EReal)
    (hb : S3u.BroadcastsInDim S3 ![0, 1, 2]) (hb1 : SW.BroadcastsInDim SWu ![1]) (hb2 : SWu.BroadcastsInDim S3 ![0, 1, 2])
    (hc : S3.ShapeCasts SX) (a : Fin 64) (b : Fin 256) (h w : Fin 56) :
    shapeCast SX
        (addf (F := Ideal) (φ := .f32)
          (mulf (F := Ideal) (φ := .f32)
            (mulf (F := Ideal) (φ := .f32)
              (subf (F := Ideal) (φ := .f32) x3 (broadcastInDim S3 ![0, 1, 2] hb m3))
              (broadcastInDim S3 ![0, 1, 2] hb i3))
            (broadcastInDim S3 ![0, 1, 2] hb2 (broadcastInDim SWu ![1] hb1 wt)))
          (broadcastInDim S3 ![0, 1, 2] hb2 (broadcastInDim SWu ![1] hb1 bs))) hc (ix4 a b h w)
      = (x3 (ix3 a b (flat h w)) - m3 (ix3 a b 0)) * i3 (ix3 a b 0) * wt (ix1 b) + bs (ix1 b) := by
  rw [reshape34_apply, addf_apply, mulf_apply, mulf_apply, subf_apply, bcast_col_apply, bcast_col_apply,
    bcast_chan_apply, bcast_chan_apply]

end Cert.ReferenceIdeal.Hand.Val
end
-- ==== Proof.RefVal.lean ====
/-
  The reference's statistics chunk and final chunk read at an index, in the terms of the specification.

  The reference views `x : [64, 256, 56, 56]` as `[64, 256, 3136]` (position `(h, w)` at `56·h + w`), sums the view and
  its square over the last axis from zero — the per-(sample, channel) sums `chSum x` and `chSq x` —, turns these into
  per-(sample, channel) tables of means and inverse deviations, views the two tables as `[64, 256, 1]` columns, and ends
  with `((x − μ) · σ⁻¹) · weight + bias` elementwise on the view, reshaped back to `[64, 256, 56, 56]`. Each chunk
  leaves alone the buffers it does not write, so the result is `normOut x μ σ⁻¹ weight bias` with `μ`, `σ⁻¹` the two
  `[64, 256]` tables the middle chunk leaves.
-/
import proofs.«145460_j4363686773082_1_alg».proof.Proof.Gen.ReferenceIdeal
import proofs.«145460_j4363686773082_1_alg».proof.Proof.RefValPure
import proofs.«145460_j4363686773082_1_alg».proof.Proof.RefRun

noncomputable section

namespace Cert.ReferenceIdeal.Hand.Val

open Cert.ReferenceIdeal Cert.ReferenceIdeal.Gen Cert.ReferenceIdeal.Hand Idealize.ShloMosaic Idealize.ShloMosaic.TcCoe Idealize.SL.Sem
open Idealize.ShloMosaic.ValueIdx Idealize.ShloMosaic.StableHlo

/-! ## The statistics chunk -/

/-- After the statistics chunk, the first reduction holds each channel's sum of `x` over its 56 × 56 positions. -/
theorem stat_sum (V : Valuation τ sig (Elt Ideal)) :
    (StableHlo.after opsStat V (main_v19 : DevRef τ sig) : Cert.Spec.SC.Idx → EReal)
      = Cert.Spec.chSum (V (main_arg0 : DevRef τ sig) : Cert.Spec.SX.Idx → EReal) := by
  dsimp only [opsStat]
  after_results
  exact reduce_reshape _ _ _ _

/-- … and the second each channel's sum of `x²`. -/
theorem stat_sq (V : Valuation τ sig (Elt Ideal)) :
    (StableHlo.after opsStat V (main_v21 : DevRef τ sig) : Cert.Spec.SC.Idx → EReal)
      = Cert.Spec.chSq (V (main_arg0 : DevRef τ sig) : Cert.Spec.SX.Idx → EReal) := by
  dsimp only [opsStat]
  after_results
  exact reduce_sq_reshape _ _ _ _

/-- The `[64, 256, 3136]` view of `x` at flat position `56·h + w` is `x` at `(h, w)`. -/
theorem stat_x3 (V : Valuation τ sig (Elt Ideal)) (a : Fin 64) (b : Fin 256) (h w : Fin 56) :
    (StableHlo.after opsStat V (main_v18 : DevRef τ sig) : S3.Idx → EReal) (ix3 a b (flat h w))
      = (V (main_arg0 : DevRef τ sig) : Cert.Spec.SX.Idx → EReal) (ix4 a b h w) := by
  dsimp only [opsStat]
  after_results
  exact reshape43_apply _ _ a b h w

/-- The references the statistics chunk writes. -/
abbrev opsStat_W : List (Ref sig .tc) := [main_v18, main_cst, main_v19, main_v20, main_cst_6, main_v21]

theorem opsStat_writes : (opsStat : List (HloOp τ sig (Elt Ideal))).Forall fun op =>
    op.writes ⊆ (opsStat_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the statistics chunk does not write keeps its contents. -/
theorem stat_keep (V : Valuation τ sig (Elt Ideal)) (b : Ref sig .tc) (hb : b ∉ opsStat_W) :
    StableHlo.after opsStat V (b : DevRef τ sig) = V (b : DevRef τ sig) :=
  StableHlo.after_of_writes_sub opsStat V opsStat_writes hb

/-! ## The chunk between: from the sums to the per-channel mean and inverse deviation -/

/-- The `[64, 256, 1]` view of the means reads the `[64, 256]` table of means. -/
theorem tail_v53 (V : Valuation τ sig (Elt Ideal)) (a : Fin 64) (b : Fin 256) :
    (StableHlo.after opsTail V (main_v53 : DevRef τ sig) : S3u.Idx → EReal) (ix3 a b 0)
      = (StableHlo.after opsTail V (main_v52 : DevRef τ sig) : Cert.Spec.SC.Idx → EReal) (ix2 a b) := by
  rw [← List.take_append_drop 38 (opsTail : List (HloOp τ sig (Elt Ideal))), StableHlo.after_append]
  generalize StableHlo.after (List.take 38 (opsTail : List (HloOp τ sig (Elt Ideal)))) V = V'
  simp only [opsTail, List.drop_succ_cons, List.drop_zero]
  after_results
  exact bcast_unit_apply _ _ a b

/-- The `[64, 256, 1]` view of the inverse deviations reads their `[64, 256]` table. -/
theorem tail_v62 (V : Valuation τ sig (Elt Ideal)) (a : Fin 64) (b : Fin 256) :
    (StableHlo.after opsTail V (main_v62 : DevRef τ sig) : S3u.Idx → EReal) (ix3 a b 0)
      = (StableHlo.after opsTail V (main_v61 : DevRef τ sig) : Cert.Spec.SC.Idx → EReal) (ix2 a b) := by
  rw [← List.take_append_drop 49 (opsTail : List (HloOp τ sig (Elt Ideal))), StableHlo.after_append]
  generalize StableHlo.after (List.take 49 (opsTail : List (HloOp τ sig (Elt Ideal)))) V = V'
  simp only [opsTail, List.drop_succ_cons, List.drop_zero]
  after_results
  exact bcast_unit_apply _ _ a b

/-- The references that chunk writes. -/
abbrev opsTail_W : List (Ref sig .tc) := [main_v22, main_cst_7, main_v23, main_v24, main_v25, main_v26, main_cst_8, main_v27, main_v28, main_v29, main_v30, main_cst_9, main_v31, main_v32, main_v33, main_v34, main_v35, main_v36, main_v37, main_v38, main_v39, main_cst_10, main_v40, main_v41, main_v42, main_cst_11, main_v43, main_v44, main_c_12, main_v45, main_v46, main_c_13, main_v47, main_v48, main_v49, main_v50, main_v51, main_v52, main_v53, main_c_14, main_v54, main_v55, main_c_15, main_v56, main_v57, main_v58, main_v59, main_v60, main_v61, main_v62]

theorem opsTail_writes : (opsTail : List (HloOp τ sig (Elt Ideal))).Forall fun op =>
    op.writes ⊆ (opsTail_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer that chunk does not write keeps its contents. -/
theorem tail_keep (V : Valuation τ sig (Elt Ideal)) (b : Ref sig .tc) (hb : b ∉ opsTail_W) :
    StableHlo.after opsTail V (b : DevRef τ sig) = V (b : DevRef τ sig) :=
  StableHlo.after_of_writes_sub opsTail V opsTail_writes hb

theorem tail_keep_v18 (V : Valuation τ sig (Elt Ideal)) :
    StableHlo.after opsTail V (main_v18 : DevRef τ sig) = V (main_v18 : DevRef τ sig) := tail_keep V main_v18 (by decide)
theorem tail_keep_arg1 (V : Valuation τ sig (Elt Ideal)) :
    StableHlo.after opsTail V (main_arg1 : DevRef τ sig) = V (main_arg1 : DevRef τ sig) := tail_keep V main_arg1 (by decide)
theorem tail_keep_arg2 (V : Valuation τ sig (Elt Ideal)) :
    StableHlo.after opsTail V (main_arg2 : DevRef τ sig) = V (main_arg2 : DevRef τ sig) := tail_keep V main_arg2 (by decide)

/-! ## The final chunk -/

/-- `((x − μ) · σ⁻¹) · weight + bias` over the arrays as the final chunk reads them: `x` through its `[64, 256, 3136]` view,
    the statistics as `[64, 256, 1]` columns, the affine terms as `[256]` vectors. -/
def finVal (x3 : S3.Idx → EReal) (m3 i3 : S3u.Idx → EReal) (wt bs : Cert.Spec.SW.Idx → EReal) : Cert.Spec.SX.Idx → EReal :=
  fun i =>
    (x3 (ix3 (n0 := 64) (n1 := 256) (i 0) (i 1) (flat (i 2) (i 3))) - m3 (ix3 (n0 := 64) (n1 := 256) (i 0) (i 1) (0 : Fin 1)))
      * i3 (ix3 (n0 := 64) (n1 := 256) (i 0) (i 1) (0 : Fin 1)) * wt (ix1 (n := 256) (i 1)) + bs (ix1 (n := 256) (i 1))

theorem finVal_apply (x3 : S3.Idx → EReal) (m3 i3 : S3u.Idx → EReal) (wt bs : Cert.Spec.SW.Idx → EReal)
    (a : Fin 64) (b : Fin 256) (h w : Fin 56) :
    finVal x3 m3 i3 wt bs (ix4 a b h w)
      = (x3 (ix3 a b (flat h w)) - m3 (ix3 a b 0)) * i3 (ix3 a b 0) * wt (ix1 b) + bs (ix1 b) := rfl

theorem normOut_apply (x : Cert.Spec.SX.Idx → EReal) (mu iv : Cert.Spec.SC.Idx → EReal) (wt bs : Cert.Spec.SW.Idx → EReal)
    (a : Fin 64) (b : Fin 256) (h w : Fin 56) :
    Cert.Spec.normOut x mu iv wt bs (ix4 a b h w)
      = (x (ix4 a b h w) - mu (ix2 a b)) * iv (ix2 a b) * wt (ix1 b) + bs (ix1 b) := rfl

/-- The result of the final chunk, from the buffers it reads. -/
theorem fin_eq (V : Valuation τ sig (Elt Ideal)) :
    (StableHlo.after opsFin V (main_v73 : DevRef τ sig) : Cert.Spec.SX.Idx → EReal)
      = finVal (V (main_v18 : DevRef τ sig)) (V (main_v53 : DevRef τ sig)) (V (main_v62 : DevRef τ sig))
          (V (main_arg1 : DevRef τ sig)) (V (main_arg2 : DevRef τ sig)) := by
  funext i
  obtain ⟨a, b, h, w, rfl⟩ : ∃ (a : Fin 64) (b : Fin 256) (h w : Fin 56), i = ix4 a b h w :=
    ⟨i 0, i 1, i 2, i 3, eq_ix4 i⟩
  rw [finVal_apply]
  dsimp only [opsFin]
  after_results
  exact fin_apply _ _ _ _ _ _ _ _ _ a b h w

/-- The reference's result in the terms of the specification: the normalised, affinely transformed input, its mean and
    inverse-deviation tables the two `[64, 256]` arrays the middle chunk leaves. -/
theorem ref_out (V : Valuation τ sig (Elt Ideal)) :
    (StableHlo.after opsFin (StableHlo.after opsTail (StableHlo.after opsStat V)) (main_v73 : DevRef τ sig)
        : Cert.Spec.SX.Idx → EReal)
      = Cert.Spec.normOut (V (main_arg0 : DevRef τ sig))
          (StableHlo.after opsTail (StableHlo.after opsStat V) (main_v52 : DevRef τ sig))
          (StableHlo.after opsTail (StableHlo.after opsStat V) (main_v61 : DevRef τ sig))
          (V (main_arg1 : DevRef τ sig)) (V (main_arg2 : DevRef τ sig)) := by
  rw [fin_eq]
  funext i
  obtain ⟨a, b, h, w, rfl⟩ : ∃ (a : Fin 64) (b : Fin 256) (h w : Fin 56), i = ix4 a b h w :=
    ⟨i 0, i 1, i 2, i 3, eq_ix4 i⟩
  rw [finVal_apply, normOut_apply, tail_v53, tail_v62, tail_keep_v18, tail_keep_arg1, tail_keep_arg2, stat_x3,
    stat_keep V main_arg1 (by decide), stat_keep V main_arg2 (by decide)]

end Cert.ReferenceIdeal.Hand.Val

end
-- ==== Proof.ChainGid.lean ====
import proofs.«145460_j4363686773082_1_alg».proof.Proof.Gen.KernelIdeal.Launch
import proofs.«145460_j4363686773082_1_alg».proof.Proof.Gen.KernelIdeal.Regions
import proofs.«145460_j4363686773082_1_alg».proof.Proof.RefRun
import Idealize.ShloMosaic.Lib.StableHlo.Run
import Idealize.ShloMosaic.Lib.Pipeline.Frame
import Idealize.ShloMosaic.PureOps.Ideal

noncomputable section

/-! # The channel → group table, on both sides

Both programs turn the eight group sizes into the table that sends each of the 256 channels to its group by the same
fifty-two host operations: the positions `0 … 7`; the sizes rolled by one place; a zero written over the first entry; the
running sum (each group's first channel); a one added at each of those starts in a zero vector of length 256; the running
sum of that, less one (each channel's group index); and the positions read back at those indices, out-of-range ones
replaced by the least integer. The kernel program runs them as eight consecutive stretches, the reference as one line.

The equality is proved stretch by stretch. For each stretch, from ANY two buffer contents (one per program) that agree on
what the stretch reads, the stretch's result buffers agree: each side's fold is rewritten to the composed term of its
operations over the contents read, the hypotheses identify the contents, and the two terms are then the same term up to
the two programs' separately declared (equal) shape and dimension records. The reductions, windows, gathers and scatters
stay folded throughout: nothing is evaluated. Chaining the eight steps, with the facts that the positions `0 … 7` and the
group sizes are not overwritten in between, gives the statement. -/

namespace Cert.Chain

open Idealize.ShloMosaic Idealize.ShloMosaic.TcCoe Idealize.SL.Sem
open Idealize.ShloMosaic.StableHlo (after after_cons after_nil after_append)

variable {F : FTy → Type} [FloatOps F]

local notation "K.τ" => Cert.KernelIdeal.τ
local notation "K.sig" => Cert.KernelIdeal.sig
local notation "R.τ" => Cert.ReferenceIdeal.τ
local notation "R.sig" => Cert.ReferenceIdeal.sig
local notation "VK" => Valuation Cert.KernelIdeal.τ Cert.KernelIdeal.sig (Elt F)
local notation "VR" => Valuation Cert.ReferenceIdeal.τ Cert.ReferenceIdeal.sig (Elt F)

/-- The reference's fifty-two operations, cut where the kernel program's stretches end: after 1, 4, 8, 11, 24, 27, 30. -/
theorem opsGid_cut (B : VR) :
    after (Cert.ReferenceIdeal.Hand.opsGid (F := F)) B
      = after (Cert.ReferenceIdeal.Hand.opsGid.drop 30)
          (after ((Cert.ReferenceIdeal.Hand.opsGid.drop 27).take 3)
            (after ((Cert.ReferenceIdeal.Hand.opsGid.drop 24).take 3)
              (after ((Cert.ReferenceIdeal.Hand.opsGid.drop 11).take 13)
                (after ((Cert.ReferenceIdeal.Hand.opsGid.drop 8).take 3)
                  (after ((Cert.ReferenceIdeal.Hand.opsGid.drop 4).take 4)
                    (after ((Cert.ReferenceIdeal.Hand.opsGid.drop 1).take 3)
                      (after (Cert.ReferenceIdeal.Hand.opsGid.take 1) B))))))) := by
  simp only [← after_append]
  rfl

section Stages

attribute [local irreducible] Host.reduce Host.reduceWindow Host.gather Host.scatter Host.scatterAdd

set_option maxRecDepth 8192
set_option maxHeartbeats 1000000

/-! ## One step per stretch: agreeing inputs give agreeing results -/

/-- The positions `0 … 7`. -/
theorem st0 (A : VK) (B : VR) :
    (after Cert.KernelIdeal.Gen.hostOps0 A (Cert.KernelIdeal.main_v0 : DevRef K.τ K.sig) : Vec F Cert.KernelIdeal.S8 .i32)
      = after (Cert.ReferenceIdeal.Hand.opsGid.take 1) B (Cert.ReferenceIdeal.main_v0 : DevRef R.τ R.sig) := by
  simp only [List.take, List.drop]
  after_results_simp

/-- The sizes rolled by one place: the last entry, then the first seven. -/
theorem st1 (A : VK) (B : VR)
    (h : (A (Cert.KernelIdeal.main_arg3 : DevRef K.τ K.sig) : Vec F Cert.KernelIdeal.S8 .i32) = B (Cert.ReferenceIdeal.main_arg3 : DevRef R.τ R.sig)) :
    (after Cert.KernelIdeal.Gen.hostOps0_1 A (Cert.KernelIdeal.main_v1 : DevRef K.τ K.sig) : Vec F Cert.KernelIdeal.S8 .i32)
      = after ((Cert.ReferenceIdeal.Hand.opsGid.drop 1).take 3) B (Cert.ReferenceIdeal.main_v1 : DevRef R.τ R.sig) := by
  simp only [List.take, List.drop]
  after_results
  rw [h]

/-- A zero written at position 0 of the rolled sizes. -/
theorem st2 (A : VK) (B : VR)
    (h : (A (Cert.KernelIdeal.main_v1 : DevRef K.τ K.sig) : Vec F Cert.KernelIdeal.S8 .i32) = B (Cert.ReferenceIdeal.main_v1 : DevRef R.τ R.sig)) :
    (after Cert.KernelIdeal.Gen.hostOps0_2 A (Cert.KernelIdeal.main_v3 : DevRef K.τ K.sig) : Vec F Cert.KernelIdeal.S8 .i32)
      = after ((Cert.ReferenceIdeal.Hand.opsGid.drop 4).take 4) B (Cert.ReferenceIdeal.main_v3 : DevRef R.τ R.sig) := by
  simp only [List.take, List.drop]
  after_results_simp
  rw [h]
  rfl

/-- Its running sum: each group's first channel. -/
theorem st3 (A : VK) (B : VR)
    (h : (A (Cert.KernelIdeal.main_v3 : DevRef K.τ K.sig) : Vec F Cert.KernelIdeal.S8 .i32) = B (Cert.ReferenceIdeal.main_v3 : DevRef R.τ R.sig)) :
    (after Cert.KernelIdeal.Gen.hostOps0_3 A (Cert.KernelIdeal.main_v4 : DevRef K.τ K.sig) : Vec F Cert.KernelIdeal.S8 .i32)
      = after ((Cert.ReferenceIdeal.Hand.opsGid.drop 8).take 3) B (Cert.ReferenceIdeal.main_v4 : DevRef R.τ R.sig) := by
  simp only [List.take, List.drop]
  after_results_simp
  rw [h]

/-- A one added at each group's first channel (a negative start counted from the end) into 256 zeros. -/
theorem st4 (A : VK) (B : VR)
    (h : (A (Cert.KernelIdeal.main_v4 : DevRef K.τ K.sig) : Vec F Cert.KernelIdeal.S8 .i32) = B (Cert.ReferenceIdeal.main_v4 : DevRef R.τ R.sig)) :
    (after Cert.KernelIdeal.Gen.hostOps0_4 A (Cert.KernelIdeal.main_v13 : DevRef K.τ K.sig) : Vec F Cert.KernelIdeal.S256 .i32)
      = after ((Cert.ReferenceIdeal.Hand.opsGid.drop 11).take 13) B (Cert.ReferenceIdeal.main_v13 : DevRef R.τ R.sig) := by
  simp only [List.take, List.drop]
  after_results_simp
  rw [h]
  rfl

/-- The running sum of those marks. -/
theorem st5 (A : VK) (B : VR)
    (h : (A (Cert.KernelIdeal.main_v13 : DevRef K.τ K.sig) : Vec F Cert.KernelIdeal.S256 .i32) = B (Cert.ReferenceIdeal.main_v13 : DevRef R.τ R.sig)) :
    (after Cert.KernelIdeal.Gen.hostOps0_5 A (Cert.KernelIdeal.main_v14 : DevRef K.τ K.sig) : Vec F Cert.KernelIdeal.S256 .i32)
      = after ((Cert.ReferenceIdeal.Hand.opsGid.drop 24).take 3) B (Cert.ReferenceIdeal.main_v14 : DevRef R.τ R.sig) := by
  simp only [List.take, List.drop]
  after_results_simp
  rw [h]

/-- Less one: each channel's group index. -/
theorem st6 (A : VK) (B : VR)
    (h : (A (Cert.KernelIdeal.main_v14 : DevRef K.τ K.sig) : Vec F Cert.KernelIdeal.S256 .i32) = B (Cert.ReferenceIdeal.main_v14 : DevRef R.τ R.sig)) :
    (after Cert.KernelIdeal.Gen.hostOps0_6 A (Cert.KernelIdeal.main_v16 : DevRef K.τ K.sig) : Vec F Cert.KernelIdeal.S256 .i32)
      = after ((Cert.ReferenceIdeal.Hand.opsGid.drop 27).take 3) B (Cert.ReferenceIdeal.main_v16 : DevRef R.τ R.sig) := by
  simp only [List.take, List.drop]
  after_results_simp
  rw [h]

/-- The positions read back at the group indices (negative ones counted from the end, out-of-range ones giving the
    least integer): the table. -/
theorem st7 (A : VK) (B : VR)
    (h0 : (A (Cert.KernelIdeal.main_v0 : DevRef K.τ K.sig) : Vec F Cert.KernelIdeal.S8 .i32) = B (Cert.ReferenceIdeal.main_v0 : DevRef R.τ R.sig))
    (h16 : (A (Cert.KernelIdeal.main_v16 : DevRef K.τ K.sig) : Vec F Cert.KernelIdeal.S256 .i32) = B (Cert.ReferenceIdeal.main_v16 : DevRef R.τ R.sig)) :
    (after Cert.KernelIdeal.Gen.hostOps0_7 A (Cert.KernelIdeal.main_v17 : DevRef K.τ K.sig) : Vec F Cert.KernelIdeal.S256 .i32)
      = after (Cert.ReferenceIdeal.Hand.opsGid.drop 30) B (Cert.ReferenceIdeal.main_v17 : DevRef R.τ R.sig) := by
  simp only [List.take, List.drop]
  after_results_simp
  rw [h0, h16]
  rfl

/-! ## What the reference's pieces leave alone -/

/-- The first piece writes only the positions: the group sizes stay. -/
theorem keepR0_arg3 (B : VR) :
    after (Cert.ReferenceIdeal.Hand.opsGid.take 1) B (Cert.ReferenceIdeal.main_arg3 : DevRef R.τ R.sig) = B (Cert.ReferenceIdeal.main_arg3 : DevRef R.τ R.sig) := by
  simp only [List.take, List.drop]
  after_results_simp

/-- The six pieces between the first and the last do not write the positions `0 … 7`. -/
theorem keepR_v0 (B : VR) :
    after ((Cert.ReferenceIdeal.Hand.opsGid.drop 27).take 3)
        (after ((Cert.ReferenceIdeal.Hand.opsGid.drop 24).take 3)
          (after ((Cert.ReferenceIdeal.Hand.opsGid.drop 11).take 13)
            (after ((Cert.ReferenceIdeal.Hand.opsGid.drop 8).take 3)
              (after ((Cert.ReferenceIdeal.Hand.opsGid.drop 4).take 4)
                (after ((Cert.ReferenceIdeal.Hand.opsGid.drop 1).take 3) B))))) (Cert.ReferenceIdeal.main_v0 : DevRef R.τ R.sig)
      = B (Cert.ReferenceIdeal.main_v0 : DevRef R.τ R.sig) := by
  simp only [List.take, List.drop]
  after_results_simp

end Stages

/-! ## What the kernel program's stretches leave alone -/

open Cert.KernelIdeal.Gen in
/-- The first stretch writes only the positions: the group sizes stay. -/
theorem keepK0_arg3 (A : VK) :
    after Cert.KernelIdeal.Gen.hostOps0 A (Cert.KernelIdeal.main_arg3 : DevRef K.τ K.sig) = A (Cert.KernelIdeal.main_arg3 : DevRef K.τ K.sig) :=
  StableHlo.after_of_writes_sub hostOps0 A hostOps0_writes (by decide)

open Cert.KernelIdeal.Gen in
/-- The six stretches between the first and the last do not write the positions `0 … 7`. -/
theorem keepK_v0 (A : VK) :
    after Cert.KernelIdeal.Gen.hostOps0_6 (after Cert.KernelIdeal.Gen.hostOps0_5 (after Cert.KernelIdeal.Gen.hostOps0_4 (after Cert.KernelIdeal.Gen.hostOps0_3
        (after Cert.KernelIdeal.Gen.hostOps0_2 (after Cert.KernelIdeal.Gen.hostOps0_1 A))))) (Cert.KernelIdeal.main_v0 : DevRef K.τ K.sig)
      = A (Cert.KernelIdeal.main_v0 : DevRef K.τ K.sig) :=
  (StableHlo.after_of_writes_sub hostOps0_6 _ hostOps0_6_writes (by decide)).trans <|
  (StableHlo.after_of_writes_sub hostOps0_5 _ hostOps0_5_writes (by decide)).trans <|
  (StableHlo.after_of_writes_sub hostOps0_4 _ hostOps0_4_writes (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide))

/-! ## The table -/

/-- From the same group sizes the two programs build the same channel → group table. -/
theorem gid_eq (Vk : Valuation Cert.KernelIdeal.τ Cert.KernelIdeal.sig (Elt Ideal)) (Vr : Valuation Cert.ReferenceIdeal.τ Cert.ReferenceIdeal.sig (Elt Ideal))
    (h : (Vk (Cert.KernelIdeal.main_arg3 : DevRef K.τ K.sig) : Vec Ideal Cert.KernelIdeal.S8 .i32) = Vr (Cert.ReferenceIdeal.main_arg3 : DevRef R.τ R.sig)) :
    (after Cert.KernelIdeal.Gen.hostOps0_7 (after Cert.KernelIdeal.Gen.hostOps0_6 (after Cert.KernelIdeal.Gen.hostOps0_5 (after Cert.KernelIdeal.Gen.hostOps0_4
        (after Cert.KernelIdeal.Gen.hostOps0_3 (after Cert.KernelIdeal.Gen.hostOps0_2 (after Cert.KernelIdeal.Gen.hostOps0_1 (after Cert.KernelIdeal.Gen.hostOps0 Vk)))))))
        (Cert.KernelIdeal.main_v17 : DevRef K.τ K.sig) : Vec Ideal Cert.KernelIdeal.S256 .i32)
      = after Cert.ReferenceIdeal.Hand.opsGid Vr (Cert.ReferenceIdeal.main_v17 : DevRef R.τ R.sig) := by
  rw [opsGid_cut Vr]
  refine st7 _ _ ?_ ?_
  · rw [keepK_v0, keepR_v0]
    exact st0 _ _
  · refine st6 _ _ (st5 _ _ (st4 _ _ (st3 _ _ (st2 _ _ (st1 _ _ ?_)))))
    rw [keepK0_arg3, keepR0_arg3]
    exact h

end Cert.Chain

end
-- ==== Proof.ChainTail.lean ====
/-
  The host arithmetic between the two kernel regions, and the same arithmetic in the reference.

  Both programs turn the per-(sample, channel) sums `S`, `Q : [64, 256]` of `x` and `x²` into the per-(sample, channel)
  mean and inverse deviation by one and the same line of operations: transpose to channel-major; add the channels of a
  group together (a scatter-add from zero along the channel → group table); divide by the group's element count
  `3136 · size`; `E[x²] − E[x]²`, plus ε, square root, reciprocal; read each channel's group row back (a gather along the
  table, a negative id wrapped by 8 first) and transpose back. The reference's line has two more operations, the
  `[64, 256, 1]` views of the two results, which neither result reads.

  The two lines are over different signatures, so "the same" is said relationally: cut both lines at the same four
  places (the two group sums; the group statistics; the means read back; the inverse deviations read back); if the
  buffers a stretch reads agree on the two sides then so do the buffers it writes that are read later on, and the
  buffers read later on that it does not write. Each such fact is the stretch's operations composed, the inputs
  replaced, and the two terms read off as equal: they differ only in which program's shape and dimension records they name.
-/
import proofs.«145460_j4363686773082_1_alg».proof.Proof.Gen.KernelIdeal.Launch
import proofs.«145460_j4363686773082_1_alg».proof.Proof.RefRun
import proofs.«145460_j4363686773082_1_alg».proof.Proof.Spec
import Idealize.ShloMosaic.Lib.StableHlo.Run
import Idealize.ShloMosaic.Lib.Pipeline.Frame

noncomputable section

namespace Cert.Chain

open Idealize.ShloMosaic Idealize.ShloMosaic.TcCoe Idealize.SL.Sem
open Idealize.ShloMosaic.StableHlo (after after_cons after_nil after_append)

local notation "K.τ" => Cert.KernelIdeal.τ
local notation "K.sig" => Cert.KernelIdeal.sig
local notation "R.τ" => Cert.ReferenceIdeal.τ
local notation "R.sig" => Cert.ReferenceIdeal.sig
local notation "VK" => Valuation Cert.KernelIdeal.τ Cert.KernelIdeal.sig (Elt Ideal)
local notation "VR" => Valuation Cert.ReferenceIdeal.τ Cert.ReferenceIdeal.sig (Elt Ideal)
local notation "kOps" => (Cert.KernelIdeal.Gen.hostOps1 : List (HloOp Cert.KernelIdeal.τ Cert.KernelIdeal.sig (Elt Ideal)))
local notation "rOps" => (Cert.ReferenceIdeal.Hand.opsTail : List (HloOp Cert.ReferenceIdeal.τ Cert.ReferenceIdeal.sig (Elt Ideal)))

/-- A line of operations run from `V` is its first `n` operations run from `V`, then the rest. -/
theorem after_split {τ : Topo} {sig : RefSig} {Val : EltTy → Type} (n : ℕ) (l : List (HloOp τ sig Val)) (V : Valuation τ sig Val) :
    after l V = after (l.drop n) (after (l.take n) V) := by
  rw [← after_append, List.take_append_drop]

attribute [local irreducible] Host.gather Host.scatterAdd Host.sqrt Host.divf

/-! ## The four stretches -/

/-- Channel-major transpose of the per-channel sums, added group by group from zero: the same table of group sums on both sides. -/
theorem a_sum (A : VK) (B : VR)
    (hS : (A Cert.KernelIdeal.main_v18_0 : Cert.Spec.SC.Idx → EReal) = B Cert.ReferenceIdeal.main_v19)
    (hg : (A Cert.KernelIdeal.main_v17 : Vec Ideal Cert.KernelIdeal.S256 .i32) = B Cert.ReferenceIdeal.main_v17) :
    (after (List.take 10 kOps) A Cert.KernelIdeal.main_v22 : Vec Ideal Cert.KernelIdeal.S8x64 .f32) = after (List.take 10 rOps) B Cert.ReferenceIdeal.main_v25 := by
  simp only [List.take_succ_cons, List.take_zero, List.drop_succ_cons, List.drop_zero]
  after_results_simp
  rw [hS, hg]
  rfl

/-- The same for the per-channel sums of squares. -/
theorem a_sq (A : VK) (B : VR)
    (hQ : (A Cert.KernelIdeal.main_v18_1 : Cert.Spec.SC.Idx → EReal) = B Cert.ReferenceIdeal.main_v21)
    (hg : (A Cert.KernelIdeal.main_v17 : Vec Ideal Cert.KernelIdeal.S256 .i32) = B Cert.ReferenceIdeal.main_v17) :
    (after (List.take 10 kOps) A Cert.KernelIdeal.main_v26 : Vec Ideal Cert.KernelIdeal.S8x64 .f32) = after (List.take 10 rOps) B Cert.ReferenceIdeal.main_v29 := by
  simp only [List.take_succ_cons, List.take_zero, List.drop_succ_cons, List.drop_zero]
  after_results_simp
  rw [hQ, hg]
  rfl

/-- The two group sums leave the channel → group table alone. -/
theorem a_gid (A : VK) (B : VR)
    (hg : (A Cert.KernelIdeal.main_v17 : Vec Ideal Cert.KernelIdeal.S256 .i32) = B Cert.ReferenceIdeal.main_v17) :
    (after (List.take 10 kOps) A Cert.KernelIdeal.main_v17 : Vec Ideal Cert.KernelIdeal.S256 .i32) = after (List.take 10 rOps) B Cert.ReferenceIdeal.main_v17 := by
  simp only [List.take_succ_cons, List.take_zero, List.drop_succ_cons, List.drop_zero]
  after_results_simp
  exact hg

/-- … and the group sizes. -/
theorem a_sizes (A : VK) (B : VR)
    (hgs : (A Cert.KernelIdeal.main_arg3 : Vec Ideal Cert.KernelIdeal.S8 .i32) = B Cert.ReferenceIdeal.main_arg3) :
    (after (List.take 10 kOps) A Cert.KernelIdeal.main_arg3 : Vec Ideal Cert.KernelIdeal.S8 .i32) = after (List.take 10 rOps) B Cert.ReferenceIdeal.main_arg3 := by
  simp only [List.take_succ_cons, List.take_zero, List.drop_succ_cons, List.drop_zero]
  after_results_simp
  exact hgs

/-- The group mean: the group sum over the group's element count `3136 · size`. -/
theorem b_mean (A : VK) (B : VR)
    (h22 : (A Cert.KernelIdeal.main_v22 : Vec Ideal Cert.KernelIdeal.S8x64 .f32) = B Cert.ReferenceIdeal.main_v25)
    (hgs : (A Cert.KernelIdeal.main_arg3 : Vec Ideal Cert.KernelIdeal.S8 .i32) = B Cert.ReferenceIdeal.main_arg3) :
    (after (List.take 18 (List.drop 10 kOps)) A Cert.KernelIdeal.main_v32 : Vec Ideal Cert.KernelIdeal.S8x64 .f32) = after (List.take 18 (List.drop 10 rOps)) B Cert.ReferenceIdeal.main_v35 := by
  simp only [List.take_succ_cons, List.take_zero, List.drop_succ_cons, List.drop_zero]
  after_results_simp
  rw [h22, hgs]

/-- The group inverse deviation `1 / √(E[x²] − E[x]² + ε)`, from the two group sums and the element count. -/
theorem b_inv (A : VK) (B : VR)
    (h22 : (A Cert.KernelIdeal.main_v22 : Vec Ideal Cert.KernelIdeal.S8x64 .f32) = B Cert.ReferenceIdeal.main_v25)
    (h26 : (A Cert.KernelIdeal.main_v26 : Vec Ideal Cert.KernelIdeal.S8x64 .f32) = B Cert.ReferenceIdeal.main_v29)
    (hgs : (A Cert.KernelIdeal.main_arg3 : Vec Ideal Cert.KernelIdeal.S8 .i32) = B Cert.ReferenceIdeal.main_arg3) :
    (after (List.take 18 (List.drop 10 kOps)) A Cert.KernelIdeal.main_v41 : Vec Ideal Cert.KernelIdeal.S8x64 .f32) = after (List.take 18 (List.drop 10 rOps)) B Cert.ReferenceIdeal.main_v44 := by
  simp only [List.take_succ_cons, List.take_zero, List.drop_succ_cons, List.drop_zero]
  after_results_simp
  rw [h22, h26, hgs]

/-- The group statistics leave the channel → group table alone. -/
theorem b_gid (A : VK) (B : VR)
    (hg : (A Cert.KernelIdeal.main_v17 : Vec Ideal Cert.KernelIdeal.S256 .i32) = B Cert.ReferenceIdeal.main_v17) :
    (after (List.take 18 (List.drop 10 kOps)) A Cert.KernelIdeal.main_v17 : Vec Ideal Cert.KernelIdeal.S256 .i32) = after (List.take 18 (List.drop 10 rOps)) B Cert.ReferenceIdeal.main_v17 := by
  simp only [List.take_succ_cons, List.take_zero, List.drop_succ_cons, List.drop_zero]
  after_results_simp
  exact hg

/-- Each channel reads its group's mean (a negative group id wrapped by 8 first), transposed back to sample-major. -/
theorem c_mu (A : VK) (B : VR)
    (h32 : (A Cert.KernelIdeal.main_v32 : Vec Ideal Cert.KernelIdeal.S8x64 .f32) = B Cert.ReferenceIdeal.main_v35)
    (hg : (A Cert.KernelIdeal.main_v17 : Vec Ideal Cert.KernelIdeal.S256 .i32) = B Cert.ReferenceIdeal.main_v17) :
    (after (List.take 10 (List.drop 18 (List.drop 10 kOps))) A Cert.KernelIdeal.main_v49 : Cert.Spec.SC.Idx → EReal) = after (List.take 11 (List.drop 18 (List.drop 10 rOps))) B Cert.ReferenceIdeal.main_v52 := by
  simp only [List.take_succ_cons, List.take_zero, List.drop_succ_cons, List.drop_zero]
  after_results_simp
  rw [h32, hg]
  rfl

/-- Reading the means back leaves the group inverse deviations alone. -/
theorem c_inv (A : VK) (B : VR)
    (h41 : (A Cert.KernelIdeal.main_v41 : Vec Ideal Cert.KernelIdeal.S8x64 .f32) = B Cert.ReferenceIdeal.main_v44) :
    (after (List.take 10 (List.drop 18 (List.drop 10 kOps))) A Cert.KernelIdeal.main_v41 : Vec Ideal Cert.KernelIdeal.S8x64 .f32) = after (List.take 11 (List.drop 18 (List.drop 10 rOps))) B Cert.ReferenceIdeal.main_v44 := by
  simp only [List.take_succ_cons, List.take_zero, List.drop_succ_cons, List.drop_zero]
  after_results_simp
  exact h41

/-- … and the channel → group table. -/
theorem c_gid (A : VK) (B : VR)
    (hg : (A Cert.KernelIdeal.main_v17 : Vec Ideal Cert.KernelIdeal.S256 .i32) = B Cert.ReferenceIdeal.main_v17) :
    (after (List.take 10 (List.drop 18 (List.drop 10 kOps))) A Cert.KernelIdeal.main_v17 : Vec Ideal Cert.KernelIdeal.S256 .i32) = after (List.take 11 (List.drop 18 (List.drop 10 rOps))) B Cert.ReferenceIdeal.main_v17 := by
  simp only [List.take_succ_cons, List.take_zero, List.drop_succ_cons, List.drop_zero]
  after_results_simp
  exact hg

/-- Each channel reads its group's inverse deviation, transposed back to sample-major. -/
theorem d_iv (A : VK) (B : VR)
    (h41 : (A Cert.KernelIdeal.main_v41 : Vec Ideal Cert.KernelIdeal.S8x64 .f32) = B Cert.ReferenceIdeal.main_v44)
    (hg : (A Cert.KernelIdeal.main_v17 : Vec Ideal Cert.KernelIdeal.S256 .i32) = B Cert.ReferenceIdeal.main_v17) :
    (after (List.drop 10 (List.drop 18 (List.drop 10 kOps))) A Cert.KernelIdeal.main_v57 : Cert.Spec.SC.Idx → EReal) = after (List.drop 11 (List.drop 18 (List.drop 10 rOps))) B Cert.ReferenceIdeal.main_v61 := by
  simp only [List.take_succ_cons, List.take_zero, List.drop_succ_cons, List.drop_zero]
  after_results_simp
  rw [h41, hg]
  rfl

/-- Reading the inverse deviations back leaves the per-channel means alone. -/
theorem d_mu (A : VK) (B : VR)
    (h49 : (A Cert.KernelIdeal.main_v49 : Cert.Spec.SC.Idx → EReal) = B Cert.ReferenceIdeal.main_v52) :
    (after (List.drop 10 (List.drop 18 (List.drop 10 kOps))) A Cert.KernelIdeal.main_v49 : Cert.Spec.SC.Idx → EReal) = after (List.drop 11 (List.drop 18 (List.drop 10 rOps))) B Cert.ReferenceIdeal.main_v52 := by
  simp only [List.take_succ_cons, List.take_zero, List.drop_succ_cons, List.drop_zero]
  after_results_simp
  exact h49

/-! ## The whole line -/

/-- From equal per-channel sums, sums of squares, channel → group table and group sizes, the kernel program's host line
    between its two regions and the reference's corresponding line leave equal per-channel means and equal per-channel
    inverse deviations. -/
theorem tail_eq (Vk : VK) (Vr : VR)
    (hS : (Vk (Cert.KernelIdeal.main_v18_0 : DevRef K.τ K.sig) : Cert.Spec.SC.Idx → EReal) = Vr (Cert.ReferenceIdeal.main_v19 : DevRef R.τ R.sig))
    (hQ : (Vk (Cert.KernelIdeal.main_v18_1 : DevRef K.τ K.sig) : Cert.Spec.SC.Idx → EReal) = Vr (Cert.ReferenceIdeal.main_v21 : DevRef R.τ R.sig))
    (hg : (Vk (Cert.KernelIdeal.main_v17 : DevRef K.τ K.sig) : Vec Ideal Cert.KernelIdeal.S256 .i32) = Vr (Cert.ReferenceIdeal.main_v17 : DevRef R.τ R.sig))
    (hgs : (Vk (Cert.KernelIdeal.main_arg3 : DevRef K.τ K.sig) : Vec Ideal Cert.KernelIdeal.S8 .i32) = Vr (Cert.ReferenceIdeal.main_arg3 : DevRef R.τ R.sig)) :
    (StableHlo.after Cert.KernelIdeal.Gen.hostOps1 Vk (Cert.KernelIdeal.main_v49 : DevRef K.τ K.sig) : Cert.Spec.SC.Idx → EReal)
        = StableHlo.after Cert.ReferenceIdeal.Hand.opsTail Vr (Cert.ReferenceIdeal.main_v52 : DevRef R.τ R.sig)
    ∧ (StableHlo.after Cert.KernelIdeal.Gen.hostOps1 Vk (Cert.KernelIdeal.main_v57 : DevRef K.τ K.sig) : Cert.Spec.SC.Idx → EReal)
        = StableHlo.after Cert.ReferenceIdeal.Hand.opsTail Vr (Cert.ReferenceIdeal.main_v61 : DevRef R.τ R.sig) := by
  rw [after_split 10 kOps Vk, after_split 18 (List.drop 10 kOps), after_split 10 (List.drop 18 (List.drop 10 kOps)),
    after_split 10 rOps Vr, after_split 18 (List.drop 10 rOps), after_split 11 (List.drop 18 (List.drop 10 rOps))]
  -- after the two group sums
  have h22 := a_sum Vk Vr hS hg
  have h26 := a_sq Vk Vr hQ hg
  have hg1 := a_gid Vk Vr hg
  have hgs1 := a_sizes Vk Vr hgs
  -- after the group statistics
  have h32 := b_mean _ _ h22 hgs1
  have h41 := b_inv _ _ h22 h26 hgs1
  have hg2 := b_gid _ _ hg1
  -- after the means are read back
  have h49 := c_mu _ _ h32 hg2
  have h41' := c_inv _ _ h41
  have hg3 := c_gid _ _ hg2
  -- after the inverse deviations are read back
  exact ⟨d_mu _ _ h49, d_iv _ _ h41' hg3⟩

end Cert.Chain

end
-- ==== Proof.lean ====
/-
  Irregular-group normalisation of `x : [64, 256, 56, 56]`: the 256 channels are cut into 8 consecutive groups whose
  sizes are an integer input; every (sample, group) pair gets the mean and the biased variance of its entries, and the
  result is `((x − mean) · (variance + ε)^(-1/2)) · weight + bias`, weight and bias per channel.

  The kernel program computes this in two passes over `x`. The first pass walks a grid of 8 × 2 × 7 blocks of
  `[8, 128, 8, 56]` entries and keeps, for each (sample, channel) of the block, a running sum of the entries and of
  their squares: the running sums are set to zero at the first of the seven blocks along the height axis, each block adds
  its `8 × 56` entries (summed along the width, then along the height), and after the seventh block they are written out.
  Host arithmetic then adds the channels of a group, divides by the group's count, forms `1 / sqrt (E[x²] − E[x]² + ε)`
  and reads the two statistics back per channel through the channel → group table. The second pass applies the
  normalisation block by block.  The reference reshapes `x` to `[64, 256, 3136]`, sums each row of 3136 entries at once,
  runs the very same host arithmetic, and normalises the whole tensor elementwise.

  Over the extended reals the two agree with no appeal to finiteness: a sum of 3136 terms does not depend on how it is
  grouped (addition of extended reals is commutative and associative), the host arithmetic between the two passes is
  one and the same function on both sides and is never opened, and the normalisation is the same expression at every index.

  The modules: `Spec` states the per-channel sums and the normalised tensor once; `R0Runs`, `R0`, `R0Pieces`, `R1` run
  the two kernel bodies and give each pass its proof data; `Run` launches the program (its frame, and the run that names
  the result); `Val0`, `Val1` read the two passes' output arrays as the specification's functions; `RefRun`, `RefVal` do
  the same for the reference's host program; `ChainGid`, `ChainTail` say the shared host arithmetic (the channel → group table; the statistics) is one function on both sides.
  The modules `BitsR0Runs`, `BitsR0`, `BitsR1`, `BitsRun` are the first four laid out again for the word-level program.
-/
import proofs.«145460_j4363686773082_1_alg».proof.Defs
import proofs.«145460_j4363686773082_1_alg».proof.Proof.Gen.Kernel
import proofs.«145460_j4363686773082_1_alg».proof.Proof.Gen.KernelIdeal
import proofs.«145460_j4363686773082_1_alg».proof.Proof.Gen.ReferenceIdeal
import proofs.«145460_j4363686773082_1_alg».proof.Proof.Gen.Pre_finite_inputs
import proofs.«145460_j4363686773082_1_alg».proof.Proof.BitsRun
import proofs.«145460_j4363686773082_1_alg».proof.Proof.Run
import proofs.«145460_j4363686773082_1_alg».proof.Proof.Val0
import proofs.«145460_j4363686773082_1_alg».proof.Proof.Val1
import proofs.«145460_j4363686773082_1_alg».proof.Proof.RefRun
import proofs.«145460_j4363686773082_1_alg».proof.Proof.RefVal
import proofs.«145460_j4363686773082_1_alg».proof.Proof.ChainGid
import proofs.«145460_j4363686773082_1_alg».proof.Proof.ChainTail

noncomputable section

namespace Cert.Proof

open Idealize.ShloMosaic Idealize.SL.Sem Idealize.ShloMosaic.TcCoe

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end, faults nowhere and leaves its four arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run, with the results forgotten. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.after_ops_arg0 _),
     (h c Cert.ReferenceIdeal.main_arg1).trans (Cert.ReferenceIdeal.Hand.after_ops_arg1 _),
     (h c Cert.ReferenceIdeal.main_arg2).trans (Cert.ReferenceIdeal.Hand.after_ops_arg2 _),
     (h c Cert.ReferenceIdeal.main_arg3).trans (Cert.ReferenceIdeal.Hand.after_ops_arg3 _)⟩)
    (Cert.ReferenceIdeal.Hand.run (F := Ideal) m ρ)

/-- The idealization rewrote nothing: there is nothing to preserve. -/
theorem preserves : Cert.preserves_Kernel_KernelIdeal := trivial

/-- Both programs end with the same tensor. The kernel's result array is the normalisation of `x` by the two statistics
    its host arithmetic makes from the first pass's per-channel sums; the reference's is the normalisation of `x` by the
    statistics the same host arithmetic makes from its own per-channel sums; the two pairs of sums are the same double
    sums over the spatial positions, the channel → group tables are the same function of the group sizes, so the
    statistics agree, and with them the results. -/
theorem algebraic : Cert.algebraic_KernelIdeal_ReferenceIdeal := by
  intro m ρ m' ρ' _ hagree
  refine ⟨fun c => (Cert.KernelIdeal.Hand.dat1 (Cert.KernelIdeal.Hand.Vr1 m) c).arrAt 5 Cert.KernelIdeal.cfg1.N, Cert.KernelIdeal.Hand.run_main (F := Ideal) m ρ, ?_⟩
  refine (θ_run Cert.ReferenceIdeal.defs _ _).mono (fun r h c => ⟨?_, (h c Cert.ReferenceIdeal.main_arg0).trans (Cert.ReferenceIdeal.Hand.after_ops_arg0 _),
     (h c Cert.ReferenceIdeal.main_arg1).trans (Cert.ReferenceIdeal.Hand.after_ops_arg1 _),
     (h c Cert.ReferenceIdeal.main_arg2).trans (Cert.ReferenceIdeal.Hand.after_ops_arg2 _),
     (h c Cert.ReferenceIdeal.main_arg3).trans (Cert.ReferenceIdeal.Hand.after_ops_arg3 _)⟩)
    (Cert.ReferenceIdeal.Hand.run (F := Ideal) m' ρ')
  obtain ⟨ha0, ha1, ha2, ha3⟩ := hagree c
  refine (h c Cert.ReferenceIdeal.main_v73).trans ?_
  rw [Cert.ReferenceIdeal.Hand.after_ops]
  -- the reference side in the specification's terms
  refine (Cert.ReferenceIdeal.Hand.Val.ref_out _).trans ?_
  -- the kernel side in the specification's terms
  refine Eq.trans ?_ (Cert.KernelIdeal.Hand.Val1.arr5_eq (Cert.KernelIdeal.Hand.Vr1 m) c).symm
  -- what the two sides are built from, pairwise equal
  have hV8_3 : Cert.KernelIdeal.Gen.V8 m c (Cert.KernelIdeal.main_arg3 : DevRef Cert.KernelIdeal.τ Cert.KernelIdeal.sig) = m ((c.tc : Thread Cert.KernelIdeal.nD Cert.KernelIdeal.τ).loc Cert.KernelIdeal.main_arg3) :=
    (Cert.KernelIdeal.Gen.V8_of m c Cert.KernelIdeal.main_arg3 (by decide)).trans <| (Cert.KernelIdeal.Gen.V7_of m c Cert.KernelIdeal.main_arg3 (by decide)).trans <| (Cert.KernelIdeal.Gen.V6_of m c Cert.KernelIdeal.main_arg3 (by decide)).trans <| (Cert.KernelIdeal.Gen.V5_of m c Cert.KernelIdeal.main_arg3 (by decide)).trans <| (Cert.KernelIdeal.Gen.V4_of m c Cert.KernelIdeal.main_arg3 (by decide)).trans <| (Cert.KernelIdeal.Gen.V3_of m c Cert.KernelIdeal.main_arg3 (by decide)).trans <| (Cert.KernelIdeal.Gen.V2_of m c Cert.KernelIdeal.main_arg3 (by decide)).trans <| (Cert.KernelIdeal.Gen.V1_of m c Cert.KernelIdeal.main_arg3 (by decide)).trans rfl
  set Vg := StableHlo.after Cert.ReferenceIdeal.Hand.opsGid (StableHlo.launchContents m' c) with hVg
  have hx : (Vg (Cert.ReferenceIdeal.main_arg0 : DevRef Cert.ReferenceIdeal.τ Cert.ReferenceIdeal.sig) : Cert.Spec.SX.Idx → EReal)
      = Cert.KernelIdeal.Hand.Vr1 m c Cert.KernelIdeal.main_arg0 :=
    (Cert.ReferenceIdeal.Hand.opsGid_arg0 _).trans (ha0.trans (Cert.KernelIdeal.Hand.Vr1_arg0 m c).symm)
  have hw : (Vg (Cert.ReferenceIdeal.main_arg1 : DevRef Cert.ReferenceIdeal.τ Cert.ReferenceIdeal.sig) : Cert.Spec.SW.Idx → EReal)
      = Cert.KernelIdeal.Hand.Vr1 m c Cert.KernelIdeal.main_arg1 :=
    (Cert.ReferenceIdeal.Hand.opsGid_arg1 _).trans (ha1.trans (Cert.KernelIdeal.Hand.Vr1_arg1 m c).symm)
  have hb : (Vg (Cert.ReferenceIdeal.main_arg2 : DevRef Cert.ReferenceIdeal.τ Cert.ReferenceIdeal.sig) : Cert.Spec.SW.Idx → EReal)
      = Cert.KernelIdeal.Hand.Vr1 m c Cert.KernelIdeal.main_arg2 :=
    (Cert.ReferenceIdeal.Hand.opsGid_arg2 _).trans (ha2.trans (Cert.KernelIdeal.Hand.Vr1_arg2 m c).symm)
  have hx0 : (Cert.KernelIdeal.Hand.Vr0 m c Cert.KernelIdeal.main_arg0 : Cert.Spec.SX.Idx → EReal)
      = Vg (Cert.ReferenceIdeal.main_arg0 : DevRef Cert.ReferenceIdeal.τ Cert.ReferenceIdeal.sig) :=
    (Cert.KernelIdeal.Hand.Vr0_arg0 m c).trans (ha0.symm.trans (Cert.ReferenceIdeal.Hand.opsGid_arg0 (StableHlo.launchContents m' c)).symm)
  have hS : (Cert.KernelIdeal.Hand.W9 m c (Cert.KernelIdeal.main_v18_0 : DevRef Cert.KernelIdeal.τ Cert.KernelIdeal.sig) : Cert.Spec.SC.Idx → EReal)
      = StableHlo.after Cert.ReferenceIdeal.Hand.opsStat Vg (Cert.ReferenceIdeal.main_v19 : DevRef Cert.ReferenceIdeal.τ Cert.ReferenceIdeal.sig) :=
    (Cert.KernelIdeal.Hand.W9_v18_0 m c).trans (((Cert.KernelIdeal.Hand.Val0.arr1_eq (Cert.KernelIdeal.Hand.Vr0 m) c).trans (congrArg Cert.Spec.chSum hx0)).trans (Cert.ReferenceIdeal.Hand.Val.stat_sum Vg).symm)
  have hQ : (Cert.KernelIdeal.Hand.W9 m c (Cert.KernelIdeal.main_v18_1 : DevRef Cert.KernelIdeal.τ Cert.KernelIdeal.sig) : Cert.Spec.SC.Idx → EReal)
      = StableHlo.after Cert.ReferenceIdeal.Hand.opsStat Vg (Cert.ReferenceIdeal.main_v21 : DevRef Cert.ReferenceIdeal.τ Cert.ReferenceIdeal.sig) :=
    (Cert.KernelIdeal.Hand.W9_v18_1 m c).trans (((Cert.KernelIdeal.Hand.Val0.arr2_eq (Cert.KernelIdeal.Hand.Vr0 m) c).trans (congrArg Cert.Spec.chSq hx0)).trans (Cert.ReferenceIdeal.Hand.Val.stat_sq Vg).symm)
  have hgs0 : (Cert.KernelIdeal.Gen.V0 m c (Cert.KernelIdeal.main_arg3 : DevRef Cert.KernelIdeal.τ Cert.KernelIdeal.sig) : Vec Ideal Cert.KernelIdeal.S8 .i32)
      = StableHlo.launchContents m' c (Cert.ReferenceIdeal.main_arg3 : DevRef Cert.ReferenceIdeal.τ Cert.ReferenceIdeal.sig) := ha3.symm
  have hg : (Cert.KernelIdeal.Hand.W9 m c (Cert.KernelIdeal.main_v17 : DevRef Cert.KernelIdeal.τ Cert.KernelIdeal.sig) : Vec Ideal Cert.KernelIdeal.S256 .i32)
      = StableHlo.after Cert.ReferenceIdeal.Hand.opsStat Vg (Cert.ReferenceIdeal.main_v17 : DevRef Cert.ReferenceIdeal.τ Cert.ReferenceIdeal.sig) :=
    (Cert.KernelIdeal.Hand.W9_of_ne m c Cert.KernelIdeal.main_v17 (by decide) (by decide)).trans
      ((Cert.Chain.gid_eq (Cert.KernelIdeal.Gen.V0 m c) (StableHlo.launchContents m' c) hgs0).trans
        (Cert.ReferenceIdeal.Hand.Val.stat_keep Vg Cert.ReferenceIdeal.main_v17 (by decide)).symm)
  have hgs : (Cert.KernelIdeal.Hand.W9 m c (Cert.KernelIdeal.main_arg3 : DevRef Cert.KernelIdeal.τ Cert.KernelIdeal.sig) : Vec Ideal Cert.KernelIdeal.S8 .i32)
      = StableHlo.after Cert.ReferenceIdeal.Hand.opsStat Vg (Cert.ReferenceIdeal.main_arg3 : DevRef Cert.ReferenceIdeal.τ Cert.ReferenceIdeal.sig) :=
    (Cert.KernelIdeal.Hand.W9_of_ne m c Cert.KernelIdeal.main_arg3 (by decide) (by decide)).trans
      (hV8_3.trans (ha3.symm.trans ((Cert.ReferenceIdeal.Hand.opsGid_arg3 (StableHlo.launchContents m' c)).symm.trans
        (Cert.ReferenceIdeal.Hand.Val.stat_keep Vg Cert.ReferenceIdeal.main_arg3 (by decide)).symm)))
  obtain ⟨hmu, hiv⟩ := Cert.Chain.tail_eq (Cert.KernelIdeal.Hand.W9 m c) (StableHlo.after Cert.ReferenceIdeal.Hand.opsStat Vg) hS hQ hg hgs
  exact congr (congr (congr (congr (congrArg Cert.Spec.normOut hx) hmu.symm) hiv.symm) hw) hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
